-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S1000000x128 : Shape := ⟨2, ![1000000, 128]⟩
abbrev S20 : Shape := ⟨1, ![20]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S1000000x128 : S_.BroadcastsInDim S1000000x128 (![] : Fin 0 → Fin S1000000x128.rank)
  reducesTo_S1000000x128_S_d0_1 : S1000000x128.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_arg3 : IVec S20 32) (main_v13 : IVec S_ 1) (main_v15 : IVec S20 1) (main_c_5 : IVec S_ 32) : IVec S_ 1 :=
  let main_v16 : IVec S20 32 := broadcastInDim S20 ![] bcast_S_S20 main_c_5
  let main_v17 : IVec S20 1 := cmpi .slt main_arg3 main_v16
  let main_v18 : IVec S20 1 := andi main_v15 main_v17
  let main_c_6 : IVec S_ 1 := constantI S_ 1 1#1
  let main_v19 : IVec S_ 1 := (fun x v => Host.reduce IntOp.andi x v reducesTo_S20_S_d0 h_S_) main_v18 main_c_6
  let main_v20 : IVec S_ 1 := andi main_v13 main_v19
  main_v20

def fn {F : FTy → Type} [FloatOps F] (main_arg0 : FVec F S16384x128 .f32) (main_arg1 : FVec F S1000000x128 .f32) (main_arg2 : FVec F S20 .f32) (main_arg3 : IVec S20 32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S1000000x128 .f32 := Host.absf main_arg1
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_c_4 : IVec S_ 32 := constantI S_ 32 0#32
  let main_v14 : IVec S20 32 := broadcastInDim S20 ![] bcast_S_S20 main_c_4
  let main_v15 : IVec S20 1 := cmpi .sge main_arg3 main_v14
  let main_c_5 : IVec S_ 32 := constantI S_ 32 1000000#32
  fn_part1 (F := F) main_arg3 main_v13 main_v15 main_c_5
-- ==== Kernel.lean ====
abbrev S16384x128 : Shape := ⟨2, ![16384, 128]⟩
abbrev S1000000x128 : Shape := ⟨2, ![1000000, 128]⟩
abbrev S20 : Shape := ⟨1, ![20]⟩
abbrev S20x1 : Shape := ⟨2, ![20, 1]⟩
abbrev S1x16384 : Shape := ⟨2, ![1, 16384]⟩
abbrev S4096x128 : Shape := ⟨2, ![4096, 128]⟩
abbrev S1x4096 : Shape := ⟨2, ![1, 4096]⟩
abbrev S20x128 : Shape := ⟨2, ![20, 128]⟩
abbrev S1 : Shape := ⟨1, ![1]⟩
abbrev S_ : Shape := ⟨0, ![]⟩
abbrev S1x128 : Shape := ⟨2, ![1, 128]⟩
abbrev S128 : Shape := ⟨1, ![128]⟩
abbrev S20x4096 : Shape := ⟨2, ![20, 4096]⟩
abbrev S4096 : Shape := ⟨1, ![4096]⟩
abbrev S16384x1 : Shape := ⟨2, ![16384, 1]⟩

abbrev nBuf : Space → Nat
  | .hbm => 6
  | .vmem => 6
  | .smem => 1
  | _ => 0

abbrev bufTy : (tb : Table) → Fin (tcTables nBuf tb) → BufTy
  | .hbm, ⟨0, _⟩ => ⟨S16384x128, .f32⟩
  | .hbm, ⟨1, _⟩ => ⟨S1000000x128, .f32⟩
  | .hbm, ⟨2, _⟩ => ⟨S20, .f32⟩
  | .hbm, ⟨3, _⟩ => ⟨S20x1, .f32⟩
  | .hbm, ⟨4, _⟩ => ⟨S1x16384, .f32⟩
  | .hbm, ⟨5, _⟩ => ⟨S16384x1, .f32⟩
  | .local _ .vmem, ⟨0, _⟩ => ⟨S4096x128, .f32⟩
  | .local _ .vmem, ⟨1, _⟩ => ⟨S4096x128, .f32⟩
  | .local _ .vmem, ⟨2, _⟩ => ⟨S20x1, .f32⟩
  | .local _ .vmem, ⟨3, _⟩ => ⟨S1x4096, .f32⟩
  | .local _ .vmem, ⟨4, _⟩ => ⟨S1x4096, .f32⟩
  | .local _ .vmem, ⟨5, _⟩ => ⟨S20x128, .f32⟩
  | .local _ .smem, ⟨0, _⟩ => ⟨S20, .i32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 2 → Nat :=
  let c0_i32_2 : BitVec 32 := 0#32
  ![v0.toNat, 0]

def k0_off2 (v7 : BitVec 32) : Fin 2 → Nat :=
  let c0_i32_5 : BitVec 32 := 0#32
  ![v7.toNat, 0]

def k0_off3 (v14 : BitVec 32) : Fin 2 → Nat :=
  let c0_i32_8 : BitVec 32 := 0#32
  ![v14.toNat, 0]

def k0_off4 (v21 : BitVec 32) : Fin 2 → Nat :=
  let c0_i32_11 : BitVec 32 := 0#32
  ![v21.toNat, 0]

def k0_off5 (v28 : BitVec 32) : Fin 2 → Nat :=
  let c0_i32_14 : BitVec 32 := 0#32
  ![v28.toNat, 0]

def k0_off6 (v35 : BitVec 32) : Fin 2 → Nat :=
  let c0_i32_17 : BitVec 32 := 0#32
  ![v35.toNat, 0]

def k0_off7 (v42 : BitVec 32) : Fin 2 → Nat :=
  let c0_i32_20 : BitVec 32 := 0#32
  ![v42.toNat, 0]

def k0_off8 (v49 : BitVec 32) : Fin 2 → Nat :=
  let c0_i32_23 : BitVec 32 := 0#32
  ![v49.toNat, 0]

def k0_off9 (v56 : BitVec 32) : Fin 2 → Nat :=
  let c0_i32_26 : BitVec 32 := 0#32
  ![v56.toNat, 0]

def k0_off10 (v63 : BitVec 32) : Fin 2 → Nat :=
  let c0_i32_29 : BitVec 32 := 0#32
  ![v63.toNat, 0]

def k0_off11 (v70 : BitVec 32) : Fin 2 → Nat :=
  let c0_i32_32 : BitVec 32 := 0#32
  ![v70.toNat, 0]

def k0_off12 (v77 : BitVec 32) : Fin 2 → Nat :=
  let c0_i32_35 : BitVec 32 := 0#32
  ![v77.toNat, 0]

def k0_off13 (v84 : BitVec 32) : Fin 2 → Nat :=
  let c0_i32_38 : BitVec 32 := 0#32
  ![v84.toNat, 0]

def k0_off14 (v91 : BitVec 32) : Fin 2 → Nat :=
  let c0_i32_41 : BitVec 32 := 0#32
  ![v91.toNat, 0]

def k0_off15 (v98 : BitVec 32) : Fin 2 → Nat :=
  let c0_i32_44 : BitVec 32 := 0#32
  ![v98.toNat, 0]

def k0_off16 (v105 : BitVec 32) : Fin 2 → Nat :=
  let c0_i32_47 : BitVec 32 := 0#32
  ![v105.toNat, 0]

def k0_off17 (v112 : BitVec 32) : Fin 2 → Nat :=
  let c0_i32_50 : BitVec 32 := 0#32
  ![v112.toNat, 0]

def k0_off18 (v119 : BitVec 32) : Fin 2 → Nat :=
  let c0_i32_53 : BitVec 32 := 0#32
  ![v119.toNat, 0]

def k0_off19 (v126 : BitVec 32) : Fin 2 → Nat :=
  let c0_i32_56 : BitVec 32 := 0#32
  ![v126.toNat, 0]

def k0_off20 (v133 : BitVec 32) : Fin 2 → Nat :=
  let c0_i32_59 : BitVec 32 := 0#32
  ![v133.toNat, 0]

def k0_chk20 (v133 : BitVec 32) : Prop :=
  (∀ a, (k0_off20 v133) a + S1x128.size a ≤ S1000000x128.size a)
instance k0_chk20.dec : ∀ (v133 : BitVec 32), Decidable (k0_chk20 v133) := fun v133 => decidable_of_iff' _ (Iff.of_eq (k0_chk20.eq_1 v133))
theorem k0_off20_inb : ∀ (v133 : BitVec 32) (k0_hw20 : k0_chk20 v133), ∀ a, (k0_off20 v133) a + S1x128.size a ≤ S1000000x128.size a := fun v133 k0_hw20 => k0_hw20

def k0_off21 (v0 : BitVec 32) : Fin 2 → Nat :=
  let c0_i32_63 : BitVec 32 := 0#32
  ![v0.toNat, 0]

def k0_chk1 (v0 : BitVec 32) : Prop :=
  (∀ a, (k0_off1 v0) a + S1x128.size a ≤ S1000000x128.size a) ∧
  (∀ a, (k0_off21 v0) a + S1x128.size a ≤ S1000000x128.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S1x128.size a ≤ S1000000x128.size a := fun v0 k0_hw1 => k0_hw1.1
theorem k0_off21_inb : ∀ (v0 : BitVec 32) (k0_hw1 : k0_chk1 v0), ∀ a, (k0_off21 v0) a + S1x128.size a ≤ S1000000x128.size a := fun v0 k0_hw1 => k0_hw1.2

def k0_off22 (v7 : BitVec 32) : Fin 2 → Nat :=
  let c0_i32_67 : BitVec 32 := 0#32
  ![v7.toNat, 0]

def k0_chk2 (v7 : BitVec 32) : Prop :=
  (∀ a, (k0_off2 v7) a + S1x128.size a ≤ S1000000x128.size a) ∧
  (∀ a, (k0_off22 v7) a + S1x128.size a ≤ S1000000x128.size a)
instance k0_chk2.dec : ∀ (v7 : BitVec 32), Decidable (k0_chk2 v7) := fun v7 => decidable_of_iff' _ (Iff.of_eq (k0_chk2.eq_1 v7))
theorem k0_off2_inb : ∀ (v7 : BitVec 32) (k0_hw2 : k0_chk2 v7), ∀ a, (k0_off2 v7) a + S1x128.size a ≤ S1000000x128.size a := fun v7 k0_hw2 => k0_hw2.1
theorem k0_off22_inb : ∀ (v7 : BitVec 32) (k0_hw2 : k0_chk2 v7), ∀ a, (k0_off22 v7) a + S1x128.size a ≤ S1000000x128.size a := fun v7 k0_hw2 => k0_hw2.2

def k0_off23 (v14 : BitVec 32) : Fin 2 → Nat :=
  let c0_i32_71 : BitVec 32 := 0#32
  ![v14.toNat, 0]

def k0_chk3 (v14 : BitVec 32) : Prop :=
  (∀ a, (k0_off3 v14) a + S1x128.size a ≤ S1000000x128.size a) ∧
  (∀ a, (k0_off23 v14) a + S1x128.size a ≤ S1000000x128.size a)
instance k0_chk3.dec : ∀ (v14 : BitVec 32), Decidable (k0_chk3 v14) := fun v14 => decidable_of_iff' _ (Iff.of_eq (k0_chk3.eq_1 v14))
theorem k0_off3_inb : ∀ (v14 : BitVec 32) (k0_hw3 : k0_chk3 v14), ∀ a, (k0_off3 v14) a + S1x128.size a ≤ S1000000x128.size a := fun v14 k0_hw3 => k0_hw3.1
theorem k0_off23_inb : ∀ (v14 : BitVec 32) (k0_hw3 : k0_chk3 v14), ∀ a, (k0_off23 v14) a + S1x128.size a ≤ S1000000x128.size a := fun v14 k0_hw3 => k0_hw3.2

def k0_off24 (v21 : BitVec 32) : Fin 2 → Nat :=
  let c0_i32_75 : BitVec 32 := 0#32
  ![v21.toNat, 0]

def k0_chk4 (v21 : BitVec 32) : Prop :=
  (∀ a, (k0_off4 v21) a + S1x128.size a ≤ S1000000x128.size a) ∧
  (∀ a, (k0_off24 v21) a + S1x128.size a ≤ S1000000x128.size a)
instance k0_chk4.dec : ∀ (v21 : BitVec 32), Decidable (k0_chk4 v21) := fun v21 => decidable_of_iff' _ (Iff.of_eq (k0_chk4.eq_1 v21))
theorem k0_off4_inb : ∀ (v21 : BitVec 32) (k0_hw4 : k0_chk4 v21), ∀ a, (k0_off4 v21) a + S1x128.size a ≤ S1000000x128.size a := fun v21 k0_hw4 => k0_hw4.1
theorem k0_off24_inb : ∀ (v21 : BitVec 32) (k0_hw4 : k0_chk4 v21), ∀ a, (k0_off24 v21) a + S1x128.size a ≤ S1000000x128.size a := fun v21 k0_hw4 => k0_hw4.2

def k0_off25 (v28 : BitVec 32) : Fin 2 → Nat :=
  let c0_i32_79 : BitVec 32 := 0#32
  ![v28.toNat, 0]

def k0_chk5 (v28 : BitVec 32) : Prop :=
  (∀ a, (k0_off5 v28) a + S1x128.size a ≤ S1000000x128.size a) ∧
  (∀ a, (k0_off25 v28) a + S1x128.size a ≤ S1000000x128.size a)
instance k0_chk5.dec : ∀ (v28 : BitVec 32), Decidable (k0_chk5 v28) := fun v28 => decidable_of_iff' _ (Iff.of_eq (k0_chk5.eq_1 v28))
theorem k0_off5_inb : ∀ (v28 : BitVec 32) (k0_hw5 : k0_chk5 v28), ∀ a, (k0_off5 v28) a + S1x128.size a ≤ S1000000x128.size a := fun v28 k0_hw5 => k0_hw5.1
theorem k0_off25_inb : ∀ (v28 : BitVec 32) (k0_hw5 : k0_chk5 v28), ∀ a, (k0_off25 v28) a + S1x128.size a ≤ S1000000x128.size a := fun v28 k0_hw5 => k0_hw5.2

def k0_off26 (v35 : BitVec 32) : Fin 2 → Nat :=
  let c0_i32_83 : BitVec 32 := 0#32
  ![v35.toNat, 0]

def k0_chk6 (v35 : BitVec 32) : Prop :=
  (∀ a, (k0_off6 v35) a + S1x128.size a ≤ S1000000x128.size a) ∧
  (∀ a, (k0_off26 v35) a + S1x128.size a ≤ S1000000x128.size a)
instance k0_chk6.dec : ∀ (v35 : BitVec 32), Decidable (k0_chk6 v35) := fun v35 => decidable_of_iff' _ (Iff.of_eq (k0_chk6.eq_1 v35))
theorem k0_off6_inb : ∀ (v35 : BitVec 32) (k0_hw6 : k0_chk6 v35), ∀ a, (k0_off6 v35) a + S1x128.size a ≤ S1000000x128.size a := fun v35 k0_hw6 => k0_hw6.1
theorem k0_off26_inb : ∀ (v35 : BitVec 32) (k0_hw6 : k0_chk6 v35), ∀ a, (k0_off26 v35) a + S1x128.size a ≤ S1000000x128.size a := fun v35 k0_hw6 => k0_hw6.2

def k0_off27 (v42 : BitVec 32) : Fin 2 → Nat :=
  let c0_i32_87 : BitVec 32 := 0#32
  ![v42.toNat, 0]

def k0_chk7 (v42 : BitVec 32) : Prop :=
  (∀ a, (k0_off7 v42) a + S1x128.size a ≤ S1000000x128.size a) ∧
  (∀ a, (k0_off27 v42) a + S1x128.size a ≤ S1000000x128.size a)
instance k0_chk7.dec : ∀ (v42 : BitVec 32), Decidable (k0_chk7 v42) := fun v42 => decidable_of_iff' _ (Iff.of_eq (k0_chk7.eq_1 v42))
theorem k0_off7_inb : ∀ (v42 : BitVec 32) (k0_hw7 : k0_chk7 v42), ∀ a, (k0_off7 v42) a + S1x128.size a ≤ S1000000x128.size a := fun v42 k0_hw7 => k0_hw7.1
theorem k0_off27_inb : ∀ (v42 : BitVec 32) (k0_hw7 : k0_chk7 v42), ∀ a, (k0_off27 v42) a + S1x128.size a ≤ S1000000x128.size a := fun v42 k0_hw7 => k0_hw7.2

def k0_off28 (v49 : BitVec 32) : Fin 2 → Nat :=
  let c0_i32_91 : BitVec 32 := 0#32
  ![v49.toNat, 0]

def k0_chk8 (v49 : BitVec 32) : Prop :=
  (∀ a, (k0_off8 v49) a + S1x128.size a ≤ S1000000x128.size a) ∧
  (∀ a, (k0_off28 v49) a + S1x128.size a ≤ S1000000x128.size a)
instance k0_chk8.dec : ∀ (v49 : BitVec 32), Decidable (k0_chk8 v49) := fun v49 => decidable_of_iff' _ (Iff.of_eq (k0_chk8.eq_1 v49))
theorem k0_off8_inb : ∀ (v49 : BitVec 32) (k0_hw8 : k0_chk8 v49), ∀ a, (k0_off8 v49) a + S1x128.size a ≤ S1000000x128.size a := fun v49 k0_hw8 => k0_hw8.1
theorem k0_off28_inb : ∀ (v49 : BitVec 32) (k0_hw8 : k0_chk8 v49), ∀ a, (k0_off28 v49) a + S1x128.size a ≤ S1000000x128.size a := fun v49 k0_hw8 => k0_hw8.2

def k0_off29 (v56 : BitVec 32) : Fin 2 → Nat :=
  let c0_i32_95 : BitVec 32 := 0#32
  ![v56.toNat, 0]

def k0_chk9 (v56 : BitVec 32) : Prop :=
  (∀ a, (k0_off9 v56) a + S1x128.size a ≤ S1000000x128.size a) ∧
  (∀ a, (k0_off29 v56) a + S1x128.size a ≤ S1000000x128.size a)
instance k0_chk9.dec : ∀ (v56 : BitVec 32), Decidable (k0_chk9 v56) := fun v56 => decidable_of_iff' _ (Iff.of_eq (k0_chk9.eq_1 v56))
theorem k0_off9_inb : ∀ (v56 : BitVec 32) (k0_hw9 : k0_chk9 v56), ∀ a, (k0_off9 v56) a + S1x128.size a ≤ S1000000x128.size a := fun v56 k0_hw9 => k0_hw9.1
theorem k0_off29_inb : ∀ (v56 : BitVec 32) (k0_hw9 : k0_chk9 v56), ∀ a, (k0_off29 v56) a + S1x128.size a ≤ S1000000x128.size a := fun v56 k0_hw9 => k0_hw9.2

def k0_off30 (v63 : BitVec 32) : Fin 2 → Nat :=
  let c0_i32_99 : BitVec 32 := 0#32
  ![v63.toNat, 0]

def k0_chk10 (v63 : BitVec 32) : Prop :=
  (∀ a, (k0_off10 v63) a + S1x128.size a ≤ S1000000x128.size a) ∧
  (∀ a, (k0_off30 v63) a + S1x128.size a ≤ S1000000x128.size a)
instance k0_chk10.dec : ∀ (v63 : BitVec 32), Decidable (k0_chk10 v63) := fun v63 => decidable_of_iff' _ (Iff.of_eq (k0_chk10.eq_1 v63))
theorem k0_off10_inb : ∀ (v63 : BitVec 32) (k0_hw10 : k0_chk10 v63), ∀ a, (k0_off10 v63) a + S1x128.size a ≤ S1000000x128.size a := fun v63 k0_hw10 => k0_hw10.1
theorem k0_off30_inb : ∀ (v63 : BitVec 32) (k0_hw10 : k0_chk10 v63), ∀ a, (k0_off30 v63) a + S1x128.size a ≤ S1000000x128.size a := fun v63 k0_hw10 => k0_hw10.2

def k0_off31 (v70 : BitVec 32) : Fin 2 → Nat :=
  let c0_i32_103 : BitVec 32 := 0#32
  ![v70.toNat, 0]

def k0_chk11 (v70 : BitVec 32) : Prop :=
  (∀ a, (k0_off11 v70) a + S1x128.size a ≤ S1000000x128.size a) ∧
  (∀ a, (k0_off31 v70) a + S1x128.size a ≤ S1000000x128.size a)
instance k0_chk11.dec : ∀ (v70 : BitVec 32), Decidable (k0_chk11 v70) := fun v70 => decidable_of_iff' _ (Iff.of_eq (k0_chk11.eq_1 v70))
theorem k0_off11_inb : ∀ (v70 : BitVec 32) (k0_hw11 : k0_chk11 v70), ∀ a, (k0_off11 v70) a + S1x128.size a ≤ S1000000x128.size a := fun v70 k0_hw11 => k0_hw11.1
theorem k0_off31_inb : ∀ (v70 : BitVec 32) (k0_hw11 : k0_chk11 v70), ∀ a, (k0_off31 v70) a + S1x128.size a ≤ S1000000x128.size a := fun v70 k0_hw11 => k0_hw11.2

def k0_off32 (v77 : BitVec 32) : Fin 2 → Nat :=
  let c0_i32_107 : BitVec 32 := 0#32
  ![v77.toNat, 0]

def k0_chk12 (v77 : BitVec 32) : Prop :=
  (∀ a, (k0_off12 v77) a + S1x128.size a ≤ S1000000x128.size a) ∧
  (∀ a, (k0_off32 v77) a + S1x128.size a ≤ S1000000x128.size a)
instance k0_chk12.dec : ∀ (v77 : BitVec 32), Decidable (k0_chk12 v77) := fun v77 => decidable_of_iff' _ (Iff.of_eq (k0_chk12.eq_1 v77))
theorem k0_off12_inb : ∀ (v77 : BitVec 32) (k0_hw12 : k0_chk12 v77), ∀ a, (k0_off12 v77) a + S1x128.size a ≤ S1000000x128.size a := fun v77 k0_hw12 => k0_hw12.1
theorem k0_off32_inb : ∀ (v77 : BitVec 32) (k0_hw12 : k0_chk12 v77), ∀ a, (k0_off32 v77) a + S1x128.size a ≤ S1000000x128.size a := fun v77 k0_hw12 => k0_hw12.2

def k0_off33 (v84 : BitVec 32) : Fin 2 → Nat :=
  let c0_i32_111 : BitVec 32 := 0#32
  ![v84.toNat, 0]

def k0_chk13 (v84 : BitVec 32) : Prop :=
  (∀ a, (k0_off13 v84) a + S1x128.size a ≤ S1000000x128.size a) ∧
  (∀ a, (k0_off33 v84) a + S1x128.size a ≤ S1000000x128.size a)
instance k0_chk13.dec : ∀ (v84 : BitVec 32), Decidable (k0_chk13 v84) := fun v84 => decidable_of_iff' _ (Iff.of_eq (k0_chk13.eq_1 v84))
theorem k0_off13_inb : ∀ (v84 : BitVec 32) (k0_hw13 : k0_chk13 v84), ∀ a, (k0_off13 v84) a + S1x128.size a ≤ S1000000x128.size a := fun v84 k0_hw13 => k0_hw13.1
theorem k0_off33_inb : ∀ (v84 : BitVec 32) (k0_hw13 : k0_chk13 v84), ∀ a, (k0_off33 v84) a + S1x128.size a ≤ S1000000x128.size a := fun v84 k0_hw13 => k0_hw13.2

def k0_off34 (v91 : BitVec 32) : Fin 2 → Nat :=
  let c0_i32_115 : BitVec 32 := 0#32
  ![v91.toNat, 0]

def k0_chk14 (v91 : BitVec 32) : Prop :=
  (∀ a, (k0_off14 v91) a + S1x128.size a ≤ S1000000x128.size a) ∧
  (∀ a, (k0_off34 v91) a + S1x128.size a ≤ S1000000x128.size a)
instance k0_chk14.dec : ∀ (v91 : BitVec 32), Decidable (k0_chk14 v91) := fun v91 => decidable_of_iff' _ (Iff.of_eq (k0_chk14.eq_1 v91))
theorem k0_off14_inb : ∀ (v91 : BitVec 32) (k0_hw14 : k0_chk14 v91), ∀ a, (k0_off14 v91) a + S1x128.size a ≤ S1000000x128.size a := fun v91 k0_hw14 => k0_hw14.1
theorem k0_off34_inb : ∀ (v91 : BitVec 32) (k0_hw14 : k0_chk14 v91), ∀ a, (k0_off34 v91) a + S1x128.size a ≤ S1000000x128.size a := fun v91 k0_hw14 => k0_hw14.2

def k0_off35 (v98 : BitVec 32) : Fin 2 → Nat :=
  let c0_i32_119 : BitVec 32 := 0#32
  ![v98.toNat, 0]

def k0_chk15 (v98 : BitVec 32) : Prop :=
  (∀ a, (k0_off15 v98) a + S1x128.size a ≤ S1000000x128.size a) ∧
  (∀ a, (k0_off35 v98) a + S1x128.size a ≤ S1000000x128.size a)
instance k0_chk15.dec : ∀ (v98 : BitVec 32), Decidable (k0_chk15 v98) := fun v98 => decidable_of_iff' _ (Iff.of_eq (k0_chk15.eq_1 v98))
theorem k0_off15_inb : ∀ (v98 : BitVec 32) (k0_hw15 : k0_chk15 v98), ∀ a, (k0_off15 v98) a + S1x128.size a ≤ S1000000x128.size a := fun v98 k0_hw15 => k0_hw15.1
theorem k0_off35_inb : ∀ (v98 : BitVec 32) (k0_hw15 : k0_chk15 v98), ∀ a, (k0_off35 v98) a + S1x128.size a ≤ S1000000x128.size a := fun v98 k0_hw15 => k0_hw15.2

def k0_off36 (v105 : BitVec 32) : Fin 2 → Nat :=
  let c0_i32_123 : BitVec 32 := 0#32
  ![v105.toNat, 0]

def k0_chk16 (v105 : BitVec 32) : Prop :=
  (∀ a, (k0_off16 v105) a + S1x128.size a ≤ S1000000x128.size a) ∧
  (∀ a, (k0_off36 v105) a + S1x128.size a ≤ S1000000x128.size a)
instance k0_chk16.dec : ∀ (v105 : BitVec 32), Decidable (k0_chk16 v105) := fun v105 => decidable_of_iff' _ (Iff.of_eq (k0_chk16.eq_1 v105))
theorem k0_off16_inb : ∀ (v105 : BitVec 32) (k0_hw16 : k0_chk16 v105), ∀ a, (k0_off16 v105) a + S1x128.size a ≤ S1000000x128.size a := fun v105 k0_hw16 => k0_hw16.1
theorem k0_off36_inb : ∀ (v105 : BitVec 32) (k0_hw16 : k0_chk16 v105), ∀ a, (k0_off36 v105) a + S1x128.size a ≤ S1000000x128.size a := fun v105 k0_hw16 => k0_hw16.2

def k0_off37 (v112 : BitVec 32) : Fin 2 → Nat :=
  let c0_i32_127 : BitVec 32 := 0#32
  ![v112.toNat, 0]

def k0_chk17 (v112 : BitVec 32) : Prop :=
  (∀ a, (k0_off17 v112) a + S1x128.size a ≤ S1000000x128.size a) ∧
  (∀ a, (k0_off37 v112) a + S1x128.size a ≤ S1000000x128.size a)
instance k0_chk17.dec : ∀ (v112 : BitVec 32), Decidable (k0_chk17 v112) := fun v112 => decidable_of_iff' _ (Iff.of_eq (k0_chk17.eq_1 v112))
theorem k0_off17_inb : ∀ (v112 : BitVec 32) (k0_hw17 : k0_chk17 v112), ∀ a, (k0_off17 v112) a + S1x128.size a ≤ S1000000x128.size a := fun v112 k0_hw17 => k0_hw17.1
theorem k0_off37_inb : ∀ (v112 : BitVec 32) (k0_hw17 : k0_chk17 v112), ∀ a, (k0_off37 v112) a + S1x128.size a ≤ S1000000x128.size a := fun v112 k0_hw17 => k0_hw17.2

def k0_off38 (v119 : BitVec 32) : Fin 2 → Nat :=
  let c0_i32_131 : BitVec 32 := 0#32
  ![v119.toNat, 0]

def k0_chk18 (v119 : BitVec 32) : Prop :=
  (∀ a, (k0_off18 v119) a + S1x128.size a ≤ S1000000x128.size a) ∧
  (∀ a, (k0_off38 v119) a + S1x128.size a ≤ S1000000x128.size a)
instance k0_chk18.dec : ∀ (v119 : BitVec 32), Decidable (k0_chk18 v119) := fun v119 => decidable_of_iff' _ (Iff.of_eq (k0_chk18.eq_1 v119))
theorem k0_off18_inb : ∀ (v119 : BitVec 32) (k0_hw18 : k0_chk18 v119), ∀ a, (k0_off18 v119) a + S1x128.size a ≤ S1000000x128.size a := fun v119 k0_hw18 => k0_hw18.1
theorem k0_off38_inb : ∀ (v119 : BitVec 32) (k0_hw18 : k0_chk18 v119), ∀ a, (k0_off38 v119) a + S1x128.size a ≤ S1000000x128.size a := fun v119 k0_hw18 => k0_hw18.2

def k0_off39 (v126 : BitVec 32) : Fin 2 → Nat :=
  let c0_i32_135 : BitVec 32 := 0#32
  ![v126.toNat, 0]

def k0_chk19 (v126 : BitVec 32) : Prop :=
  (∀ a, (k0_off19 v126) a + S1x128.size a ≤ S1000000x128.size a) ∧
  (∀ a, (k0_off39 v126) a + S1x128.size a ≤ S1000000x128.size a)
instance k0_chk19.dec : ∀ (v126 : BitVec 32), Decidable (k0_chk19 v126) := fun v126 => decidable_of_iff' _ (Iff.of_eq (k0_chk19.eq_1 v126))
theorem k0_off19_inb : ∀ (v126 : BitVec 32) (k0_hw19 : k0_chk19 v126), ∀ a, (k0_off19 v126) a + S1x128.size a ≤ S1000000x128.size a := fun v126 k0_hw19 => k0_hw19.1
theorem k0_off39_inb : ∀ (v126 : BitVec 32) (k0_hw19 : k0_chk19 v126), ∀ a, (k0_off39 v126) a + S1x128.size a ≤ S1000000x128.size a := fun v126 k0_hw19 => k0_hw19.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S20_S20x1 : S20.ShapeCasts S20x1
  inb_S20_S1_0 : ∀ a, (![0] : Fin 1 → Nat) a + S1.size a ≤ S20.size a
  numel1_S1 : S1.numel = 1
  squeezes_S1_S_ : S1.Squeezes S_
  inb_S20x128_S1x128_0_0 : ∀ a, (![0, 0] : Fin 2 → Nat) a + S1x128.size a ≤ S20x128.size a
  squeezes_S1x128_S128 : S1x128.Squeezes S128
  inb_S20_S1_1 : ∀ a, (![1] : Fin 1 → Nat) a + S1.size a ≤ S20.size a
  inb_S20x128_S1x128_1_0 : ∀ a, (![1, 0] : Fin 2 → Nat) a + S1x128.size a ≤ S20x128.size a
  inb_S20_S1_2 : ∀ a, (![2] : Fin 1 → Nat) a + S1.size a ≤ S20.size a
  inb_S20x128_S1x128_2_0 : ∀ a, (![2, 0] : Fin 2 → Nat) a + S1x128.size a ≤ S20x128.size a
  inb_S20_S1_3 : ∀ a, (![3] : Fin 1 → Nat) a + S1.size a ≤ S20.size a
  inb_S20x128_S1x128_3_0 : ∀ a, (![3, 0] : Fin 2 → Nat) a + S1x128.size a ≤ S20x128.size a
  inb_S20_S1_4 : ∀ a, (![4] : Fin 1 → Nat) a + S1.size a ≤ S20.size a
  inb_S20x128_S1x128_4_0 : ∀ a, (![4, 0] : Fin 2 → Nat) a + S1x128.size a ≤ S20x128.size a
  inb_S20_S1_5 : ∀ a, (![5] : Fin 1 → Nat) a + S1.size a ≤ S20.size a
  inb_S20x128_S1x128_5_0 : ∀ a, (![5, 0] : Fin 2 → Nat) a + S1x128.size a ≤ S20x128.size a
  inb_S20_S1_6 : ∀ a, (![6] : Fin 1 → Nat) a + S1.size a ≤ S20.size a
  inb_S20x128_S1x128_6_0 : ∀ a, (![6, 0] : Fin 2 → Nat) a + S1x128.size a ≤ S20x128.size a
  inb_S20_S1_7 : ∀ a, (![7] : Fin 1 → Nat) a + S1.size a ≤ S20.size a
  inb_S20x128_S1x128_7_0 : ∀ a, (![7, 0] : Fin 2 → Nat) a + S1x128.size a ≤ S20x128.size a
  inb_S20_S1_8 : ∀ a, (![8] : Fin 1 → Nat) a + S1.size a ≤ S20.size a
  inb_S20x128_S1x128_8_0 : ∀ a, (![8, 0] : Fin 2 → Nat) a + S1x128.size a ≤ S20x128.size a
  inb_S20_S1_9 : ∀ a, (![9] : Fin 1 → Nat) a + S1.size a ≤ S20.size a
  inb_S20x128_S1x128_9_0 : ∀ a, (![9, 0] : Fin 2 → Nat) a + S1x128.size a ≤ S20x128.size a
  inb_S20_S1_10 : ∀ a, (![10] : Fin 1 → Nat) a + S1.size a ≤ S20.size a
  inb_S20x128_S1x128_10_0 : ∀ a, (![10, 0] : Fin 2 → Nat) a + S1x128.size a ≤ S20x128.size a
  inb_S20_S1_11 : ∀ a, (![11] : Fin 1 → Nat) a + S1.size a ≤ S20.size a
  inb_S20x128_S1x128_11_0 : ∀ a, (![11, 0] : Fin 2 → Nat) a + S1x128.size a ≤ S20x128.size a
  inb_S20_S1_12 : ∀ a, (![12] : Fin 1 → Nat) a + S1.size a ≤ S20.size a
  inb_S20x128_S1x128_12_0 : ∀ a, (![12, 0] : Fin 2 → Nat) a + S1x128.size a ≤ S20x128.size a
  inb_S20_S1_13 : ∀ a, (![13] : Fin 1 → Nat) a + S1.size a ≤ S20.size a
  inb_S20x128_S1x128_13_0 : ∀ a, (![13, 0] : Fin 2 → Nat) a + S1x128.size a ≤ S20x128.size a
  inb_S20_S1_14 : ∀ a, (![14] : Fin 1 → Nat) a + S1.size a ≤ S20.size a
  inb_S20x128_S1x128_14_0 : ∀ a, (![14, 0] : Fin 2 → Nat) a + S1x128.size a ≤ S20x128.size a
  inb_S20_S1_15 : ∀ a, (![15] : Fin 1 → Nat) a + S1.size a ≤ S20.size a
  inb_S20x128_S1x128_15_0 : ∀ a, (![15, 0] : Fin 2 → Nat) a + S1x128.size a ≤ S20x128.size a
  inb_S20_S1_16 : ∀ a, (![16] : Fin 1 → Nat) a + S1.size a ≤ S20.size a
  inb_S20x128_S1x128_16_0 : ∀ a, (![16, 0] : Fin 2 → Nat) a + S1x128.size a ≤ S20x128.size a
  inb_S20_S1_17 : ∀ a, (![17] : Fin 1 → Nat) a + S1.size a ≤ S20.size a
  inb_S20x128_S1x128_17_0 : ∀ a, (![17, 0] : Fin 2 → Nat) a + S1x128.size a ≤ S20x128.size a
  inb_S20_S1_18 : ∀ a, (![18] : Fin 1 → Nat) a + S1.size a ≤ S20.size a
  inb_S20x128_S1x128_18_0 : ∀ a, (![18, 0] : Fin 2 → Nat) a + S1x128.size a ≤ S20x128.size a
  inb_S20_S1_19 : ∀ a, (![19] : Fin 1 → Nat) a + S1.size a ≤ S20.size a
  inb_S20x128_S1x128_19_0 : ∀ a, (![19, 0] : Fin 2 → Nat) a + S1x128.size a ≤ S20x128.size a
  inb_S4096x128_S4096x128_0_0 : ∀ a, (![0, 0] : Fin 2 → Nat) a + S4096x128.size a ≤ S4096x128.size a
  h_S4096x128 : 0 < S4096x128.numel
  inb_S20x128_S20x128_0_0 : ∀ a, (![0, 0] : Fin 2 → Nat) a + S20x128.size a ≤ S20x128.size a
  h_S20x128 : 0 < S20x128.numel
  inb_S20x1_S20x1_0_0 : ∀ a, (![0, 0] : Fin 2 → Nat) a + S20x1.size a ≤ S20x1.size a
  h_S20x1 : 0 < S20x1.numel
  shapeCasts_S20x1_S20x1 : S20x1.ShapeCasts S20x1
  broadcasts_S20x1_S20x4096 : S20x1.Broadcasts S20x4096
  reduces_S20x4096_S4096 : S20x4096.Reduces [0] S4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x16384_S16384x1 : S1x16384.ShapeCasts S16384x1
  dot_S20x128_S4096x128_S20x4096_1_1_0_0_n_n_wf : DotDims.WF S20x128 S4096x128 S20x4096 [1] [1] [0] [0] [] []
  hcc0_scratch1 : 5 + S20.numel ≤ 25
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S16384x128.size a
  hwx0_0 : ∀ i : grid0.Coords, EltTy.bits .f32 = 32 ∨ (Rect.block (s := S16384x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S20x1.size a ≤ S20x1.size a
  hwx0_1 : ∀ i : grid0.Coords, EltTy.bits .f32 = 32 ∨ (Rect.block (s := S20x1) S20x1.size (cc0_transform_2 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S1x4096.size a ≤ S1x16384.size a
  hwx0_2 : ∀ i : grid0.Coords, EltTy.bits .f32 = 32 ∨ (Rect.block (s := S1x16384) S1x4096.size (cc0_transform_3 i) (hinb0_2 i)).WholeWords (EltTy.packing .f32)

variable [Facts₀]

abbrev cc0_scratch1 : DmaSems sig S20 := SemArray.consecutive 5 S20 hcc0_scratch1
def dot_S20x128_S4096x128_S20x4096_1_1_0_0_n_n : DotDims S20x128 S4096x128 S20x4096 where
  lhsContracting := [1]
  rhsContracting := [1]
  lhsNonContracting := [0]
  rhsNonContracting := [0]
  lhsBatch := []
  rhsBatch := []
  wf := dot_S20x128_S4096x128_S20x4096_1_1_0_0_n_n_wf

abbrev spec0_0 : Pipeline.WinSpec sig grid0.rank :=
  Pipeline.WinSpec.ofSpec (Memref.whole main_arg0) S4096x128.size reads0_0 false false 2 stage0_0 sem0_0 nbuf0_0 hstage0_0

abbrev spec0_1 : Pipeline.WinSpec sig grid0.rank :=
  Pipeline.WinSpec.ofSpec (Memref.whole main_v0) S20x1.size reads0_1 false true 1 stage0_1 sem0_1 nbuf0_1 hstage0_1

abbrev spec0_2 : Pipeline.WinSpec sig grid0.rank :=
  Pipeline.WinSpec.ofSpec (Memref.whole main_v1) S1x4096.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_2 | 2 => cc0_transform_3 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S16384x128 : Shape := ⟨2, ![16384, 128]⟩
abbrev S1000000x128 : Shape := ⟨2, ![1000000, 128]⟩
abbrev S20 : Shape := ⟨1, ![20]⟩
abbrev S_ : Shape := ⟨0, ![]⟩
abbrev S20x1 : Shape := ⟨2, ![20, 1]⟩
abbrev S20x128 : Shape := ⟨2, ![20, 128]⟩
abbrev S16384x20 : Shape := ⟨2, ![16384, 20]⟩
abbrev S1x20 : Shape := ⟨2, ![1, 20]⟩
abbrev S16384 : Shape := ⟨1, ![16384]⟩
abbrev S16384x1 : Shape := ⟨2, ![16384, 1]⟩

abbrev nBuf : Space → Nat
  | .hbm => 60
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1000000x128, .f32⟩
  | .hbm, ⟨2, _⟩ => ⟨S20, .f32⟩
  | .hbm, ⟨3, _⟩ => ⟨S20, .i32⟩
  | .hbm, ⟨4, _⟩ => ⟨S_, .i32⟩
  | .hbm, ⟨5, _⟩ => ⟨S20, .i32⟩
  | .hbm, ⟨6, _⟩ => ⟨S20, .i1⟩
  | .hbm, ⟨7, _⟩ => ⟨S_, .i32⟩
  | .hbm, ⟨8, _⟩ => ⟨S20, .i32⟩
  | .hbm, ⟨9, _⟩ => ⟨S20, .i32⟩
  | .hbm, ⟨10, _⟩ => ⟨S20, .i32⟩
  | .hbm, ⟨11, _⟩ => ⟨S20x1, .i32⟩
  | .hbm, ⟨12, _⟩ => ⟨S20x128, .f32⟩
  | .hbm, ⟨13, _⟩ => ⟨S16384x20, .f32⟩
  | .hbm, ⟨14, _⟩ => ⟨S16384x20, .f32⟩
  | .hbm, ⟨15, _⟩ => ⟨S_, .f32⟩
  | .hbm, ⟨16, _⟩ => ⟨S16384x20, .f32⟩
  | .hbm, ⟨17, _⟩ => ⟨S16384x20, .f32⟩
  | .hbm, ⟨18, _⟩ => ⟨S16384x20, .f32⟩
  | .hbm, ⟨19, _⟩ => ⟨S16384x20, .f32⟩
  | .hbm, ⟨20, _⟩ => ⟨S16384x20, .i1⟩
  | .hbm, ⟨21, _⟩ => ⟨S16384x20, .f32⟩
  | .hbm, ⟨22, _⟩ => ⟨S16384x20, .f32⟩
  | .hbm, ⟨23, _⟩ => ⟨S16384x20, .f32⟩
  | .hbm, ⟨24, _⟩ => ⟨S16384x20, .f32⟩
  | .hbm, ⟨25, _⟩ => ⟨S16384x20, .f32⟩
  | .hbm, ⟨26, _⟩ => ⟨S16384x20, .f32⟩
  | .hbm, ⟨27, _⟩ => ⟨S16384x20, .f32⟩
  | .hbm, ⟨28, _⟩ => ⟨S16384x20, .f32⟩
  | .hbm, ⟨29, _⟩ => ⟨S16384x20, .f32⟩
  | .hbm, ⟨30, _⟩ => ⟨S1x20, .f32⟩
  | .hbm, ⟨31, _⟩ => ⟨S16384x20, .f32⟩
  | .hbm, ⟨32, _⟩ => ⟨S16384x20, .f32⟩
  | .hbm, ⟨33, _⟩ => ⟨S_, .f32⟩
  | .hbm, ⟨34, _⟩ => ⟨S20, .f32⟩
  | .hbm, ⟨35, _⟩ => ⟨S20, .f32⟩
  | .hbm, ⟨36, _⟩ => ⟨S16384x20, .f32⟩
  | .hbm, ⟨37, _⟩ => ⟨S16384x20, .f32⟩
  | .hbm, ⟨38, _⟩ => ⟨S_, .f32⟩
  | .hbm, ⟨39, _⟩ => ⟨S16384x20, .f32⟩
  | .hbm, ⟨40, _⟩ => ⟨S16384x20, .f32⟩
  | .hbm, ⟨41, _⟩ => ⟨S16384x20, .f32⟩
  | .hbm, ⟨42, _⟩ => ⟨S16384x20, .f32⟩
  | .hbm, ⟨43, _⟩ => ⟨S16384x20, .i1⟩
  | .hbm, ⟨44, _⟩ => ⟨S16384x20, .f32⟩
  | .hbm, ⟨45, _⟩ => ⟨S16384x20, .f32⟩
  | .hbm, ⟨46, _⟩ => ⟨S16384x20, .f32⟩
  | .hbm, ⟨47, _⟩ => ⟨S16384x20, .f32⟩
  | .hbm, ⟨48, _⟩ => ⟨S16384x20, .f32⟩
  | .hbm, ⟨49, _⟩ => ⟨S16384x20, .f32⟩
  | .hbm, ⟨50, _⟩ => ⟨S16384x20, .f32⟩
  | .hbm, ⟨51, _⟩ => ⟨S16384x20, .f32⟩
  | .hbm, ⟨52, _⟩ => ⟨S16384x20, .f32⟩
  | .hbm, ⟨53, _⟩ => ⟨S1x20, .f32⟩
  | .hbm, ⟨54, _⟩ => ⟨S16384x20, .f32⟩
  | .hbm, ⟨55, _⟩ => ⟨S16384x20, .f32⟩
  | .hbm, ⟨56, _⟩ => ⟨S16384x20, .f32⟩
  | .hbm, ⟨57, _⟩ => ⟨S_, .f32⟩
  | .hbm, ⟨58, _⟩ => ⟨S16384, .f32⟩
  | .hbm, ⟨59, _⟩ => ⟨S16384x1, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst_1 : Ref sig .tc := ⟨.hbm, 57, rfl⟩
abbrev main_v20 : Ref sig .tc := ⟨.hbm, 58, rfl⟩
abbrev main_v21 : Ref sig .tc := ⟨.hbm, 59, rfl⟩

abbrev nD : Nat := 1
abbrev τ : Topo := Topo.v7x

variable {F : FTy → Type} [FloatOps F]

class Facts₀ : Prop where
  bcast_S_S20 : S_.BroadcastsInDim S20 (![] : Fin 0 → Fin S20.rank)
  bcast_S20_S20x1_0 : S20.BroadcastsInDim S20x1 (![0] : Fin 1 → Fin S20x1.rank)
  bcast_S_S16384x20 : S_.BroadcastsInDim S16384x20 (![] : Fin 0 → Fin S16384x20.rank)
  bcast_S20_S1x20_1 : S20.BroadcastsInDim S1x20 (![1] : Fin 1 → Fin S1x20.rank)
  bcast_S1x20_S16384x20_0_1 : S1x20.BroadcastsInDim S16384x20 (![0, 1] : Fin 2 → Fin S16384x20.rank)
  reducesTo_S16384x20_S16384_d1 : S16384x20.ReducesTo [1] S16384
  h_S_ : 0 < S_.numel
  bcast_S16384_S16384x1_0 : S16384.BroadcastsInDim S16384x1 (![0] : Fin 1 → Fin S16384x1.rank)
  gather_S1000000x128_S20x1_S20x128_1_0_n_n_0_1_1128_wf : GatherDims.WF S1000000x128 S20x1 S20x128 [1] [0] [] [0] [] 1 ![1, 128]
  dot_S16384x128_S20x128_S16384x20_1_1_0_0_n_n_wf : DotDims.WF S16384x128 S20x128 S16384x20 [1] [1] [0] [0] [] []

variable [Facts₀]

def gather_S1000000x128_S20x1_S20x128_1_0_n_n_0_1_1128 : GatherDims S1000000x128 S20x1 S20x128 where
  offsetDims := [1]
  collapsedSliceDims := [0]
  operandBatchingDims := []
  startIndicesBatchingDims := []
  startIndexMap := [0]
  indexVectorDim := 1
  sliceSizes := ![1, 128]
  wf := gather_S1000000x128_S20x1_S20x128_1_0_n_n_0_1_1128_wf
def dot_S16384x128_S20x128_S16384x20_1_1_0_0_n_n : DotDims S16384x128 S20x128 S16384x20 where
  lhsContracting := [1]
  rhsContracting := [1]
  lhsNonContracting := [0]
  rhsNonContracting := [0]
  lhsBatch := []
  rhsBatch := []
  wf := dot_S16384x128_S20x128_S16384x20_1_1_0_0_n_n_wf

class Facts : Prop extends Facts₀ where

variable [Facts]
-- ==== Proof.KernelFr.Base.lean ====
/-
  The kernel's launch, read for its frame: what the core's buffers hold when the region is entered (the path code
  reshaped to a column by the one host operation before it), the region's continuation (the one reshape after it),
  the prefetched path table as the body is handed it, the three windows' blocks (a 4096-row block of `xw`, the code
  column whole, a 4096-wide block of the [1, 16384] result), the scratch that receives the twenty gathered rows, the
  twenty transfer cells, and the weight table left in HBM, which the body reads by twenty row copies per point.
-/
import proofs.«409180_j48619029790893_3_alg».proof.Proof.Gen.Kernel.Launch
import proofs.«409180_j48619029790893_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- Core `c`'s buffers when the region is entered: the launch memory after the reshape of the path code. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshape, the region, the reshape: it reduces to the region continued by the second reshape, at the
    contents after the first. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-- The weight table, the one unscoped buffer the body moves itself. -/
def H0 : Finset (Ref sig .tc) := {main_arg1}
theorem H0_sub : H0 ⊆ Pipeline.restRefsP sig pre0 spec0 := by decide

/-- The reshape after the region touches the result array and its own result only: no table, not the weight table. -/
theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl
  simp only [hostOps1, List.mem_cons, List.mem_nil_iff, or_false] at hop
  rcases hop with rfl
  refine Pipeline.sub_tailRefsBut pre0 spec0 H0 _ (StableHlo.reshape_bufs_sub ..) (fun k => ?_) (fun b hb => ?_)
  · rw [StableHlo.reshape_bufs]
    fin_cases k
    simp only [Finset.mem_insert, Finset.mem_singleton, not_or]
    exact ⟨StableHlo.devRef_ne_of_ne (by decide), StableHlo.devRef_ne_of_ne (by decide)⟩
  · rw [StableHlo.reshape_bufs]
    obtain rfl : b = main_arg1 := Finset.mem_singleton.mp hb
    simp only [Finset.mem_insert, Finset.mem_singleton, not_or]
    exact ⟨StableHlo.devRef_ne_of_ne (by decide), StableHlo.devRef_ne_of_ne (by decide)⟩
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes only its own result, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The prefetched path table -/

/-- The table's contents when the region is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
theorem V0_pre (c : Dev nD) (j : Fin 1) : V0 m c (Proc.devRef .tc (pre0.ref j)) = tbl m j := V_pre m c j
/-- No index map reads the table: the pipeline's side condition on it is empty. -/
theorem ok : ok0 (F := F) (tbl m) := trivial
abbrev adm : (pcfg0 (F := F)).Adm := ⟨tbl m, ok m⟩
abbrev cfgM : Pipeline.Cfg sig Λ₀ := cfg0 (adm m)

/-- The table as the body is handed it, and the half share the region lends the body. -/
abbrev tbM0_0 : Memref sig .tc .smem S20 .i32 := Memref.whole main_arg3
abbrev htbM0_0 : tbM0_0.IsWhole := Memref.isWhole_whole _
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's current staging buffer holds its block at every point, fetched there or not. -/
theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called with -/

abbrev VO0_2 : View sig .tc .vmem S1x4096 .f32 := (Memref.whole cc0_stg2_0 : Memref sig .tc .vmem S1x4096 .f32).view
abbrev ms0_0 (t : Fin (cfgM m).N) : Memref sig .tc .vmem S4096x128 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S20x1 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1x4096 .f32 := spec0_2.stage ((cfgM m).slots t 2)
abbrev hs0_2 (t : Fin (cfgM m).N) : (ms0_2 m t).IsWhole := hstage0_2 (((cfgM m).slots t 2).cast nbuf0_2)
/-- The scratch that receives the gathered rows, and the weight table, whole. -/
abbrev scM0_0 : Memref sig .tc .vmem S20x128 .f32 := Memref.whole cc0_scratch0
abbrev hbM0_0 : Memref sig .tc .hbm S1000000x128 .f32 := Memref.whole main_arg1
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body at point `t`, on what the pipeline calls it with. -/
abbrev bodyAt0 (t : Fin (cfgM m).N) : Prog (TpuEff nD τ sig (Elt F) Λ₀ .tc) PUnit :=
  cc0__hierarch_kernel (grid0.coords t) tbM0_0 htbM0_0 (ms0_0 m t) (hs0_0 m t) hbM0_0 (Memref.isWhole_whole _) (ms0_1 m t) (hs0_1 m t) (ms0_2 m t) (hs0_2 m t) scM0_0 (Memref.isWhole_whole _) cc0_scratch1

/-! ## The body's own transfer cells and the invariant -/

/-- The twenty cells, one per gathered row. -/
abbrev osem0 : Fin 20 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24] : Fin 20 → SemLoc sig) j
theorem ownSemFacts0 : Pipeline.OwnSemFacts spec0 osem0 := by decide
/-- The cells at zero, listed. -/
def sems0 (c : Dev nD) : sProp 𝕄 :=
  iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0)
theorem ownSems00_eq (c : Dev nD) :
    (Pipeline.ownSems0 (Ix := Unit) (Name := ℕ) (U := Pipeline.UD sig nD τ) (Lvl := ℕ) (Val := Elt F) (τ := τ) osem0 c : sProp 𝕄)
      = sems0 c := by
  rw [Pipeline.ownSems0_eq_of_list c osem0 [0, 1, 2, 3, 4, 5, 6, 7, 8, 9, 10, 11, 12, 13, 14, 15, 16, 17, 18, 19] (by decide) (by decide)]; rfl
theorem hbmPts0_eq (c : Dev nD) :
    (bigSep H0 (fun b => ((c : Thread nD τ).loc b) ↦{fullShare} V m c b) : sProp 𝕄) = iprop(hbPt0 c hbM0_0 (V m c main_arg1)) := by
  rw [BI.bigSep_eq_bigSepL_of_eq [main_arg1] (by decide) (by decide)]; rfl

/-- The invariant conjunct by conjunct: the scratch at some contents, the generator register, the cells at zero, the
    weight table at its launch contents. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ sems0 c ∗ iprop(hbPt0 c hbM0_0 (V m c main_arg1))) := by
  rw [Pipeline.ΦD_eq, scopedRest0_eq, ownSems00_eq, hbmPts0_eq]; simp only [scM0_0, owns_whole]; try rfl

end Cert.Kernel.Fr

end
-- ==== Proof.KernelFr.Rows.lean ====
/-
  The scratch as twenty rows. Each row copy lands in one row of the [20, 128] scratch; the rows are pairwise disjoint
  and cover the scratch, so the scratch held whole is the twenty rows held one by one, and twenty rows each holding a
  payload join to the scratch holding, at (l, d), payload l at d.
-/
import proofs.«409180_j48619029790893_3_alg».proof.Proof.KernelFr.Base
import Idealize.ShloMosaic.Lib.ValueIdx

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The row of the scratch at offsets `o`, as a [128] memref: the slice, its unit axis dropped. -/
abbrev rowMo (o : Fin 2 → ℕ) (h : ∀ a, o a + S1x128.size a ≤ S20x128.size a) : Memref sig .tc .vmem S128 .f32 :=
  (scM0_0.slice (Rect.unit (s := S20x128) o S1x128.size h) (fun _ => rfl)).squeeze S128 squeezes_S1x128_S128

/-- That row held at contents `f` of the scratch's buffer. -/
abbrev rowPt (c : Dev nD) (o : Fin 2 → ℕ) (h : ∀ a, o a + S1x128.size a ≤ S20x128.size a)
    (f : Buf (Elt F) ((rowMo o h).view.loc (c : Thread nD τ))) : sProp 𝕄 :=
  (rowMo o h).view.loc (c : Thread nD τ) ↦[(rowMo o h).view.set]{fullShare} f

/-- The row's elements are the rectangle's. -/
theorem rowSet (o : Fin 2 → ℕ) (h : ∀ a, o a + S1x128.size a ≤ S20x128.size a) :
    (rowMo o h).view.set = (Rect.unit (s := S20x128) o S1x128.size h).set :=
  (View.set_reshape (v := (scM0_0.slice (Rect.unit (s := S20x128) o S1x128.size h) (fun _ => rfl)).view) _).trans
    (View.set_slice_whole cc0_scratch0 _)

/-- Row `l`'s offsets. -/
def rowOff (l : Fin 20) : Fin 2 → ℕ := ![l.val, 0]
theorem rowInb (l : Fin 20) : ∀ a, rowOff l a + S1x128.size a ≤ S20x128.size a := by
  intro a; have := l.isLt
  fin_cases a
  · show l.val + 1 ≤ 20; omega
  · show 0 + 128 ≤ 128; omega

/-- Row `l`'s elements, as elements of the scratch's buffer. -/
def rowI (c : Dev nD) (l : Fin 20) : Finset (Idx (scM0_0.view.loc (c : Thread nD τ))) := (rowMo (rowOff l) (rowInb l)).view.set
theorem rowI_eq (c : Dev nD) (l : Fin 20) : rowI c l = (Rect.unit (s := S20x128) (rowOff l) S1x128.size (rowInb l)).set :=
  rowSet _ _

/-- Two different rows share no element. -/
theorem row_disjoint (c : Dev nD) (l l' : Fin 20) (hne : l ≠ l') : Disjoint (rowI c l) (rowI c l') := by
  rw [rowI_eq, rowI_eq]
  refine Rect.unit_disjoint 0 ?_
  show l.val + 1 ≤ l'.val ∨ l'.val + 1 ≤ l.val
  have : l.val ≠ l'.val := fun e => hne (Fin.ext e)
  omega

/-- Every element of the scratch lies in the row its first coordinate names. -/
theorem row_cover (c : Dev nD) : Finset.univ.biUnion (rowI c) = Finset.univ := by
  ext i
  simp only [Finset.mem_biUnion, Finset.mem_univ, true_and, iff_true]
  have h0 : ((i : S20x128.Idx) 0).val < 20 := ((i : S20x128.Idx) 0).isLt
  have h1 : ((i : S20x128.Idx) 1).val < 128 := ((i : S20x128.Idx) 1).isLt
  refine ⟨⟨((i : S20x128.Idx) 0).val, h0⟩, ?_⟩
  rw [rowI_eq, Rect.mem_set_unit]
  intro a
  fin_cases a
  · show ((i : S20x128.Idx) 0).val ≤ ((i : S20x128.Idx) 0).val ∧ ((i : S20x128.Idx) 0).val < ((i : S20x128.Idx) 0).val + 1
    omega
  · show 0 ≤ ((i : S20x128.Idx) 1).val ∧ ((i : S20x128.Idx) 1).val < 0 + 128
    omega

/-- Twenty conjuncts, listed. -/
theorem rows_list (Φ : Fin 20 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

/-- The scratch held whole is its twenty rows held one by one, at the same contents. -/
theorem scratch_split (c : Dev nD) (f : Buf (Elt F) (scM0_0.view.loc (c : Thread nD τ))) :
    (scM0_0.view.loc (c : Thread nD τ) ↦[scM0_0.view.set]{fullShare} f : sProp 𝕄)
      = iprop(rowPt c ![0, 0] inb_S20x128_S1x128_0_0 f ∗ rowPt c ![1, 0] inb_S20x128_S1x128_1_0 f ∗ rowPt c ![2, 0] inb_S20x128_S1x128_2_0 f ∗ rowPt c ![3, 0] inb_S20x128_S1x128_3_0 f ∗ rowPt c ![4, 0] inb_S20x128_S1x128_4_0 f ∗ rowPt c ![5, 0] inb_S20x128_S1x128_5_0 f ∗ rowPt c ![6, 0] inb_S20x128_S1x128_6_0 f ∗ rowPt c ![7, 0] inb_S20x128_S1x128_7_0 f ∗ rowPt c ![8, 0] inb_S20x128_S1x128_8_0 f ∗ rowPt c ![9, 0] inb_S20x128_S1x128_9_0 f ∗ rowPt c ![10, 0] inb_S20x128_S1x128_10_0 f ∗ rowPt c ![11, 0] inb_S20x128_S1x128_11_0 f ∗ rowPt c ![12, 0] inb_S20x128_S1x128_12_0 f ∗ rowPt c ![13, 0] inb_S20x128_S1x128_13_0 f ∗ rowPt c ![14, 0] inb_S20x128_S1x128_14_0 f ∗ rowPt c ![15, 0] inb_S20x128_S1x128_15_0 f ∗ rowPt c ![16, 0] inb_S20x128_S1x128_16_0 f ∗ rowPt c ![17, 0] inb_S20x128_S1x128_17_0 f ∗ rowPt c ![18, 0] inb_S20x128_S1x128_18_0 f ∗ rowPt c ![19, 0] inb_S20x128_S1x128_19_0 f) := by
  rw [show scM0_0.view.set = Finset.univ from View.set_whole _,
    Ring.pointsTo_blocks (Ix := Unit) (Name := ℕ) (U := Pipeline.UD sig nD τ) (Lvl := ℕ) (q := fullShare) (rowI c) (row_disjoint c) (row_cover c) f, rows_list]
  rfl

/-- The scratch's contents with payload `P l` in row `l`: at (l, d), `P l` at d. -/
def joined (P : Fin 20 → S128.Idx → Elt F .f32) : Vec F S20x128 .f32 :=
  fun i => P ⟨(i 0).val, (i 0).isLt⟩ (ValueIdx.ix1 ⟨(i 1).val, (i 1).isLt⟩)

/-- A row written whole with `P l` agrees, on the row, with the joined contents. -/
theorem row_agree (c : Dev nD) (l : Fin 20) (o : Fin 2 → ℕ) (h : ∀ a, o a + S1x128.size a ≤ S20x128.size a) (ho : o = rowOff l)
    (P : Fin 20 → S128.Idx → Elt F .f32) (f : Buf (Elt F) ((rowMo o h).view.loc (c : Thread nD τ))) :
    ∀ i ∈ (rowMo o h).view.set, (rowMo o h).view.writes (Elt F) f [⟨Rect.whole S128, P l⟩] i = joined P i := by
  subst ho
  intro i hi
  obtain ⟨y, -, rfl⟩ := Finset.mem_map.mp hi
  rw [← View.write_univ_eq_writes_whole, View.writes_nil, View.write_emb_of_mem _ _ (Finset.mem_univ y)]
  have hy : Shape.reshapeEquiv (Shape.Squeezes.numel_eq squeezes_S1x128_S128) y = Fin.cons ⟨0, Nat.one_pos⟩ y :=
    Shape.reshapeEquiv_cons_one (d := ![128]) _ y
  have e0 : (((rowMo (rowOff l) (rowInb l)).view.emb y : S20x128.Idx) 0).val = l.val := by
    show rowOff l 0 + 1 * ((Shape.reshapeEquiv (Shape.Squeezes.numel_eq squeezes_S1x128_S128) y) 0).val = l.val
    rw [hy]; show l.val + 1 * 0 = l.val; omega
  have e1 : (((rowMo (rowOff l) (rowInb l)).view.emb y : S20x128.Idx) 1).val = (y 0).val := by
    show rowOff l 1 + 1 * ((Shape.reshapeEquiv (Shape.Squeezes.numel_eq squeezes_S1x128_S128) y) 1).val = (y 0).val
    rw [hy]; show 0 + 1 * (y 0).val = (y 0).val; omega
  show P l y = P ⟨_, _⟩ (ValueIdx.ix1 ⟨_, _⟩)
  congr 1
  · exact Fin.ext e0.symm
  · funext d; match d with | ⟨0, _⟩ => exact Fin.ext e1.symm

/-- So the row held at the written contents is the row held at the joined contents. -/
theorem row_to_joined (c : Dev nD) (l : Fin 20) (o : Fin 2 → ℕ) (h : ∀ a, o a + S1x128.size a ≤ S20x128.size a) (ho : o = rowOff l)
    (P : Fin 20 → S128.Idx → Elt F .f32) (f : Buf (Elt F) ((rowMo o h).view.loc (c : Thread nD τ))) :
    rowPt c o h ((rowMo o h).view.writes (Elt F) f [⟨Rect.whole S128, P l⟩]) ⊢ (rowPt c o h (joined P) : sProp 𝕄) :=
  Entails.of_eq (pointsTo_congr (row_agree c l o h ho P f))

/-- Twenty rows, each written whole with its payload, are the scratch at the joined contents. -/
theorem scratch_join (c : Dev nD)
    (f0 f1 f2 f3 f4 f5 f6 f7 f8 f9 f10 f11 f12 f13 f14 f15 f16 f17 f18 f19 : Buf (Elt F) (scM0_0.view.loc (c : Thread nD τ)))
    (p0 p1 p2 p3 p4 p5 p6 p7 p8 p9 p10 p11 p12 p13 p14 p15 p16 p17 p18 p19 : S128.Idx → Elt F .f32) :
    iprop(rowPt c ![0, 0] inb_S20x128_S1x128_0_0 ((rowMo ![0, 0] inb_S20x128_S1x128_0_0).view.writes (Elt F) f0 [⟨Rect.whole S128, p0⟩]) ∗ rowPt c ![1, 0] inb_S20x128_S1x128_1_0 ((rowMo ![1, 0] inb_S20x128_S1x128_1_0).view.writes (Elt F) f1 [⟨Rect.whole S128, p1⟩]) ∗ rowPt c ![2, 0] inb_S20x128_S1x128_2_0 ((rowMo ![2, 0] inb_S20x128_S1x128_2_0).view.writes (Elt F) f2 [⟨Rect.whole S128, p2⟩]) ∗ rowPt c ![3, 0] inb_S20x128_S1x128_3_0 ((rowMo ![3, 0] inb_S20x128_S1x128_3_0).view.writes (Elt F) f3 [⟨Rect.whole S128, p3⟩]) ∗ rowPt c ![4, 0] inb_S20x128_S1x128_4_0 ((rowMo ![4, 0] inb_S20x128_S1x128_4_0).view.writes (Elt F) f4 [⟨Rect.whole S128, p4⟩]) ∗ rowPt c ![5, 0] inb_S20x128_S1x128_5_0 ((rowMo ![5, 0] inb_S20x128_S1x128_5_0).view.writes (Elt F) f5 [⟨Rect.whole S128, p5⟩]) ∗ rowPt c ![6, 0] inb_S20x128_S1x128_6_0 ((rowMo ![6, 0] inb_S20x128_S1x128_6_0).view.writes (Elt F) f6 [⟨Rect.whole S128, p6⟩]) ∗ rowPt c ![7, 0] inb_S20x128_S1x128_7_0 ((rowMo ![7, 0] inb_S20x128_S1x128_7_0).view.writes (Elt F) f7 [⟨Rect.whole S128, p7⟩]) ∗ rowPt c ![8, 0] inb_S20x128_S1x128_8_0 ((rowMo ![8, 0] inb_S20x128_S1x128_8_0).view.writes (Elt F) f8 [⟨Rect.whole S128, p8⟩]) ∗ rowPt c ![9, 0] inb_S20x128_S1x128_9_0 ((rowMo ![9, 0] inb_S20x128_S1x128_9_0).view.writes (Elt F) f9 [⟨Rect.whole S128, p9⟩]) ∗ rowPt c ![10, 0] inb_S20x128_S1x128_10_0 ((rowMo ![10, 0] inb_S20x128_S1x128_10_0).view.writes (Elt F) f10 [⟨Rect.whole S128, p10⟩]) ∗ rowPt c ![11, 0] inb_S20x128_S1x128_11_0 ((rowMo ![11, 0] inb_S20x128_S1x128_11_0).view.writes (Elt F) f11 [⟨Rect.whole S128, p11⟩]) ∗ rowPt c ![12, 0] inb_S20x128_S1x128_12_0 ((rowMo ![12, 0] inb_S20x128_S1x128_12_0).view.writes (Elt F) f12 [⟨Rect.whole S128, p12⟩]) ∗ rowPt c ![13, 0] inb_S20x128_S1x128_13_0 ((rowMo ![13, 0] inb_S20x128_S1x128_13_0).view.writes (Elt F) f13 [⟨Rect.whole S128, p13⟩]) ∗ rowPt c ![14, 0] inb_S20x128_S1x128_14_0 ((rowMo ![14, 0] inb_S20x128_S1x128_14_0).view.writes (Elt F) f14 [⟨Rect.whole S128, p14⟩]) ∗ rowPt c ![15, 0] inb_S20x128_S1x128_15_0 ((rowMo ![15, 0] inb_S20x128_S1x128_15_0).view.writes (Elt F) f15 [⟨Rect.whole S128, p15⟩]) ∗ rowPt c ![16, 0] inb_S20x128_S1x128_16_0 ((rowMo ![16, 0] inb_S20x128_S1x128_16_0).view.writes (Elt F) f16 [⟨Rect.whole S128, p16⟩]) ∗ rowPt c ![17, 0] inb_S20x128_S1x128_17_0 ((rowMo ![17, 0] inb_S20x128_S1x128_17_0).view.writes (Elt F) f17 [⟨Rect.whole S128, p17⟩]) ∗ rowPt c ![18, 0] inb_S20x128_S1x128_18_0 ((rowMo ![18, 0] inb_S20x128_S1x128_18_0).view.writes (Elt F) f18 [⟨Rect.whole S128, p18⟩]) ∗ rowPt c ![19, 0] inb_S20x128_S1x128_19_0 ((rowMo ![19, 0] inb_S20x128_S1x128_19_0).view.writes (Elt F) f19 [⟨Rect.whole S128, p19⟩]))
      ⊢ (scM0_0.view.loc (c : Thread nD τ) ↦[scM0_0.view.set]{fullShare} joined ![p0, p1, p2, p3, p4, p5, p6, p7, p8, p9, p10, p11, p12, p13, p14, p15, p16, p17, p18, p19] : sProp 𝕄) := by
  rw [scratch_split c (joined ![p0, p1, p2, p3, p4, p5, p6, p7, p8, p9, p10, p11, p12, p13, p14, p15, p16, p17, p18, p19])]
  iintro ⟨H0, H1, H2, H3, H4, H5, H6, H7, H8, H9, H10, H11, H12, H13, H14, H15, H16, H17, H18, H19⟩
  isplitl [H0]; · iapply (row_to_joined c 0 ![0, 0] inb_S20x128_S1x128_0_0 rfl ![p0, p1, p2, p3, p4, p5, p6, p7, p8, p9, p10, p11, p12, p13, p14, p15, p16, p17, p18, p19] f0); iexact H0
  isplitl [H1]; · iapply (row_to_joined c 1 ![1, 0] inb_S20x128_S1x128_1_0 rfl ![p0, p1, p2, p3, p4, p5, p6, p7, p8, p9, p10, p11, p12, p13, p14, p15, p16, p17, p18, p19] f1); iexact H1
  isplitl [H2]; · iapply (row_to_joined c 2 ![2, 0] inb_S20x128_S1x128_2_0 rfl ![p0, p1, p2, p3, p4, p5, p6, p7, p8, p9, p10, p11, p12, p13, p14, p15, p16, p17, p18, p19] f2); iexact H2
  isplitl [H3]; · iapply (row_to_joined c 3 ![3, 0] inb_S20x128_S1x128_3_0 rfl ![p0, p1, p2, p3, p4, p5, p6, p7, p8, p9, p10, p11, p12, p13, p14, p15, p16, p17, p18, p19] f3); iexact H3
  isplitl [H4]; · iapply (row_to_joined c 4 ![4, 0] inb_S20x128_S1x128_4_0 rfl ![p0, p1, p2, p3, p4, p5, p6, p7, p8, p9, p10, p11, p12, p13, p14, p15, p16, p17, p18, p19] f4); iexact H4
  isplitl [H5]; · iapply (row_to_joined c 5 ![5, 0] inb_S20x128_S1x128_5_0 rfl ![p0, p1, p2, p3, p4, p5, p6, p7, p8, p9, p10, p11, p12, p13, p14, p15, p16, p17, p18, p19] f5); iexact H5
  isplitl [H6]; · iapply (row_to_joined c 6 ![6, 0] inb_S20x128_S1x128_6_0 rfl ![p0, p1, p2, p3, p4, p5, p6, p7, p8, p9, p10, p11, p12, p13, p14, p15, p16, p17, p18, p19] f6); iexact H6
  isplitl [H7]; · iapply (row_to_joined c 7 ![7, 0] inb_S20x128_S1x128_7_0 rfl ![p0, p1, p2, p3, p4, p5, p6, p7, p8, p9, p10, p11, p12, p13, p14, p15, p16, p17, p18, p19] f7); iexact H7
  isplitl [H8]; · iapply (row_to_joined c 8 ![8, 0] inb_S20x128_S1x128_8_0 rfl ![p0, p1, p2, p3, p4, p5, p6, p7, p8, p9, p10, p11, p12, p13, p14, p15, p16, p17, p18, p19] f8); iexact H8
  isplitl [H9]; · iapply (row_to_joined c 9 ![9, 0] inb_S20x128_S1x128_9_0 rfl ![p0, p1, p2, p3, p4, p5, p6, p7, p8, p9, p10, p11, p12, p13, p14, p15, p16, p17, p18, p19] f9); iexact H9
  isplitl [H10]; · iapply (row_to_joined c 10 ![10, 0] inb_S20x128_S1x128_10_0 rfl ![p0, p1, p2, p3, p4, p5, p6, p7, p8, p9, p10, p11, p12, p13, p14, p15, p16, p17, p18, p19] f10); iexact H10
  isplitl [H11]; · iapply (row_to_joined c 11 ![11, 0] inb_S20x128_S1x128_11_0 rfl ![p0, p1, p2, p3, p4, p5, p6, p7, p8, p9, p10, p11, p12, p13, p14, p15, p16, p17, p18, p19] f11); iexact H11
  isplitl [H12]; · iapply (row_to_joined c 12 ![12, 0] inb_S20x128_S1x128_12_0 rfl ![p0, p1, p2, p3, p4, p5, p6, p7, p8, p9, p10, p11, p12, p13, p14, p15, p16, p17, p18, p19] f12); iexact H12
  isplitl [H13]; · iapply (row_to_joined c 13 ![13, 0] inb_S20x128_S1x128_13_0 rfl ![p0, p1, p2, p3, p4, p5, p6, p7, p8, p9, p10, p11, p12, p13, p14, p15, p16, p17, p18, p19] f13); iexact H13
  isplitl [H14]; · iapply (row_to_joined c 14 ![14, 0] inb_S20x128_S1x128_14_0 rfl ![p0, p1, p2, p3, p4, p5, p6, p7, p8, p9, p10, p11, p12, p13, p14, p15, p16, p17, p18, p19] f14); iexact H14
  isplitl [H15]; · iapply (row_to_joined c 15 ![15, 0] inb_S20x128_S1x128_15_0 rfl ![p0, p1, p2, p3, p4, p5, p6, p7, p8, p9, p10, p11, p12, p13, p14, p15, p16, p17, p18, p19] f15); iexact H15
  isplitl [H16]; · iapply (row_to_joined c 16 ![16, 0] inb_S20x128_S1x128_16_0 rfl ![p0, p1, p2, p3, p4, p5, p6, p7, p8, p9, p10, p11, p12, p13, p14, p15, p16, p17, p18, p19] f16); iexact H16
  isplitl [H17]; · iapply (row_to_joined c 17 ![17, 0] inb_S20x128_S1x128_17_0 rfl ![p0, p1, p2, p3, p4, p5, p6, p7, p8, p9, p10, p11, p12, p13, p14, p15, p16, p17, p18, p19] f17); iexact H17
  isplitl [H18]; · iapply (row_to_joined c 18 ![18, 0] inb_S20x128_S1x128_18_0 rfl ![p0, p1, p2, p3, p4, p5, p6, p7, p8, p9, p10, p11, p12, p13, p14, p15, p16, p17, p18, p19] f18); iexact H18
  iapply (row_to_joined c 19 ![19, 0] inb_S20x128_S1x128_19_0 rfl ![p0, p1, p2, p3, p4, p5, p6, p7, p8, p9, p10, p11, p12, p13, p14, p15, p16, p17, p18, p19] f19); iexact H19

end Cert.Kernel.Fr

end
-- ==== Proof.KernelFr.Toks.lean ====
/-
  The weight table read by twenty copies at once. A buffer held at the full share is held at a remainder share and at
  one read share per transfer cell; the body's cells are numbers 5 to 24, so the table is the remainder with the five
  shares no cell uses, and the twenty shares the copies read through. The two ways round.
-/
import proofs.«409180_j48619029790893_3_alg».proof.Proof.KernelFr.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The weight table held at the read share of cell `k`. -/
abbrev hbTok0 (c : Dev nD) (k : Fin 25) (f : HbBuf0 (F := F) c hbM0_0) : sProp 𝕄 :=
  hbM0_0.view.loc (c : Thread nD τ) ↦{Transfers.shareTok fullShare 25 k} f
/-- The twenty shares the copies read through. -/
abbrev toksAt (c : Dev nD) (fh0 : HbBuf0 (F := F) c hbM0_0) : sProp 𝕄 := iprop(hbTok0 c 5 fh0 ∗ hbTok0 c 6 fh0 ∗ hbTok0 c 7 fh0 ∗ hbTok0 c 8 fh0 ∗ hbTok0 c 9 fh0 ∗ hbTok0 c 10 fh0 ∗ hbTok0 c 11 fh0 ∗ hbTok0 c 12 fh0 ∗ hbTok0 c 13 fh0 ∗ hbTok0 c 14 fh0 ∗ hbTok0 c 15 fh0 ∗ hbTok0 c 16 fh0 ∗ hbTok0 c 17 fh0 ∗ hbTok0 c 18 fh0 ∗ hbTok0 c 19 fh0 ∗ hbTok0 c 20 fh0 ∗ hbTok0 c 21 fh0 ∗ hbTok0 c 22 fh0 ∗ hbTok0 c 23 fh0 ∗ hbTok0 c 24 fh0)
/-- What stays aside: the remainder share and the five shares no cell of the body indexes. -/
abbrev hbRest (c : Dev nD) (f : HbBuf0 (F := F) c hbM0_0) : sProp 𝕄 :=
  iprop((hbM0_0.view.loc (c : Thread nD τ) ↦{Transfers.shareDrop fullShare 25} f) ∗ hbTok0 c 0 f ∗ hbTok0 c 1 f ∗ hbTok0 c 2 f ∗ hbTok0 c 3 f ∗ hbTok0 c 4 f)

/-- Twenty-five conjuncts, listed. -/
theorem toks_list (Φ : Fin 25 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) :=
  bigSep_univ_eq_bigSepL [0, 1, 2, 3, 4, 5, 6, 7, 8, 9, 10, 11, 12, 13, 14, 15, 16, 17, 18, 19, 20, 21, 22, 23, 24] (by decide) (by decide) Φ

/-- The table at the full share, split. -/
theorem toks_split (c : Dev nD) (f : HbBuf0 (F := F) c hbM0_0) : hbPt0 c hbM0_0 f ⊢ iprop(hbRest c f ∗ toksAt c f) := by
  refine (Transfers.pointsTo_toks_split (Ix := Unit) (Name := ℕ) (U := Pipeline.UD sig nD τ) (Lvl := ℕ) fullShare 25).trans ?_
  rw [toks_list]
  iintro ⟨Hd, T0, T1, T2, T3, T4, T5, T6, T7, T8, T9, T10, T11, T12, T13, T14, T15, T16, T17, T18, T19, T20, T21, T22, T23, T24⟩
  isplitl [Hd T0 T1 T2 T3 T4]
  · isplitl [Hd]; · iexact Hd
    isplitl [T0]; · iexact T0
    isplitl [T1]; · iexact T1
    isplitl [T2]; · iexact T2
    isplitl [T3]; · iexact T3
    iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  iexact T24

/-- And joined again. -/
theorem toks_join (c : Dev nD) (f : HbBuf0 (F := F) c hbM0_0) : iprop(hbRest c f ∗ toksAt c f) ⊢ hbPt0 c hbM0_0 f := by
  refine .trans ?_ (Transfers.pointsTo_toks_join (Ix := Unit) (Name := ℕ) (U := Pipeline.UD sig nD τ) (Lvl := ℕ) fullShare 25)
  rw [toks_list]
  iintro ⟨⟨Hd, T0, T1, T2, T3, T4⟩, T5, T6, T7, T8, T9, T10, T11, T12, T13, T14, T15, T16, T17, T18, T19, T20, T21, T22, T23, T24⟩
  isplitl [Hd]; · iexact Hd
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  iexact T24

end Cert.Kernel.Fr

end
-- ==== Proof.KernelFr.Run.lean ====
/-
  The kernel body run once, on whole staging memrefs: the twenty path words are read from the table, each in range
  by hypothesis; twenty row copies leave the weight table for the twenty rows of the scratch, each on its own cell,
  all outstanding together — the table is read through one share per cell, each row of the scratch is held on its
  own — and all waited for before anything is loaded; the rows then join to the scratch whole, the block of `xw`, the
  scratch and the code column are loaded, and one store covers the output block.
-/
import proofs.«409180_j48619029790893_3_alg».proof.Proof.KernelFr.Rows
import proofs.«409180_j48619029790893_3_alg».proof.Proof.KernelFr.Toks

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The twenty cells at zero. -/
abbrev semsAt0 (c : Dev nD) : sProp 𝕄 := iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0)

set_option maxHeartbeats 4000000 in
/-- What the body's store leaves in the output's staging memref, as pieces, with the proof that the body runs to its
    continuation holding the inputs as they were, the scratch at some contents, the table, the cells at zero and the
    weight table as they were, and the output's buffer with the pieces written. -/
noncomputable def kernelRun0_A (c : Dev nD) (i : grid0.Coords) (arg2 : Memref sig .tc .vmem S4096x128 .f32) (harg2 : arg2.IsWhole) (arg4 : Memref sig .tc .vmem S20x1 .f32) (harg4 : arg4.IsWhole) (arg5 : Memref sig .tc .vmem S1x4096 .f32) (harg5 : arg5.IsWhole)
    (x0 : Vec F S4096x128 .f32) (x1 : Vec F S20x1 .f32) (xt0 : TbBuf0 (F := F) c tbM0_0) (fh0 : HbBuf0 (F := F) c hbM0_0)
    (k0_hw1 : k0_chk1 (tbM0_0.view.readAt (Elt F) (Rect.unit (s := S20) ![0] S1.size inb_S20_S1_0).toLoadRect xt0 (Shape.Idx.first (numel1_S1.symm ▸ Nat.one_pos)))) (k0_hw2 : k0_chk2 (tbM0_0.view.readAt (Elt F) (Rect.unit (s := S20) ![1] S1.size inb_S20_S1_1).toLoadRect xt0 (Shape.Idx.first (numel1_S1.symm ▸ Nat.one_pos)))) (k0_hw3 : k0_chk3 (tbM0_0.view.readAt (Elt F) (Rect.unit (s := S20) ![2] S1.size inb_S20_S1_2).toLoadRect xt0 (Shape.Idx.first (numel1_S1.symm ▸ Nat.one_pos)))) (k0_hw4 : k0_chk4 (tbM0_0.view.readAt (Elt F) (Rect.unit (s := S20) ![3] S1.size inb_S20_S1_3).toLoadRect xt0 (Shape.Idx.first (numel1_S1.symm ▸ Nat.one_pos)))) (k0_hw5 : k0_chk5 (tbM0_0.view.readAt (Elt F) (Rect.unit (s := S20) ![4] S1.size inb_S20_S1_4).toLoadRect xt0 (Shape.Idx.first (numel1_S1.symm ▸ Nat.one_pos)))) (k0_hw6 : k0_chk6 (tbM0_0.view.readAt (Elt F) (Rect.unit (s := S20) ![5] S1.size inb_S20_S1_5).toLoadRect xt0 (Shape.Idx.first (numel1_S1.symm ▸ Nat.one_pos)))) (k0_hw7 : k0_chk7 (tbM0_0.view.readAt (Elt F) (Rect.unit (s := S20) ![6] S1.size inb_S20_S1_6).toLoadRect xt0 (Shape.Idx.first (numel1_S1.symm ▸ Nat.one_pos)))) (k0_hw8 : k0_chk8 (tbM0_0.view.readAt (Elt F) (Rect.unit (s := S20) ![7] S1.size inb_S20_S1_7).toLoadRect xt0 (Shape.Idx.first (numel1_S1.symm ▸ Nat.one_pos)))) (k0_hw9 : k0_chk9 (tbM0_0.view.readAt (Elt F) (Rect.unit (s := S20) ![8] S1.size inb_S20_S1_8).toLoadRect xt0 (Shape.Idx.first (numel1_S1.symm ▸ Nat.one_pos)))) (k0_hw10 : k0_chk10 (tbM0_0.view.readAt (Elt F) (Rect.unit (s := S20) ![9] S1.size inb_S20_S1_9).toLoadRect xt0 (Shape.Idx.first (numel1_S1.symm ▸ Nat.one_pos)))) (k0_hw11 : k0_chk11 (tbM0_0.view.readAt (Elt F) (Rect.unit (s := S20) ![10] S1.size inb_S20_S1_10).toLoadRect xt0 (Shape.Idx.first (numel1_S1.symm ▸ Nat.one_pos)))) (k0_hw12 : k0_chk12 (tbM0_0.view.readAt (Elt F) (Rect.unit (s := S20) ![11] S1.size inb_S20_S1_11).toLoadRect xt0 (Shape.Idx.first (numel1_S1.symm ▸ Nat.one_pos)))) (k0_hw13 : k0_chk13 (tbM0_0.view.readAt (Elt F) (Rect.unit (s := S20) ![12] S1.size inb_S20_S1_12).toLoadRect xt0 (Shape.Idx.first (numel1_S1.symm ▸ Nat.one_pos)))) (k0_hw14 : k0_chk14 (tbM0_0.view.readAt (Elt F) (Rect.unit (s := S20) ![13] S1.size inb_S20_S1_13).toLoadRect xt0 (Shape.Idx.first (numel1_S1.symm ▸ Nat.one_pos)))) (k0_hw15 : k0_chk15 (tbM0_0.view.readAt (Elt F) (Rect.unit (s := S20) ![14] S1.size inb_S20_S1_14).toLoadRect xt0 (Shape.Idx.first (numel1_S1.symm ▸ Nat.one_pos)))) (k0_hw16 : k0_chk16 (tbM0_0.view.readAt (Elt F) (Rect.unit (s := S20) ![15] S1.size inb_S20_S1_15).toLoadRect xt0 (Shape.Idx.first (numel1_S1.symm ▸ Nat.one_pos)))) (k0_hw17 : k0_chk17 (tbM0_0.view.readAt (Elt F) (Rect.unit (s := S20) ![16] S1.size inb_S20_S1_16).toLoadRect xt0 (Shape.Idx.first (numel1_S1.symm ▸ Nat.one_pos)))) (k0_hw18 : k0_chk18 (tbM0_0.view.readAt (Elt F) (Rect.unit (s := S20) ![17] S1.size inb_S20_S1_17).toLoadRect xt0 (Shape.Idx.first (numel1_S1.symm ▸ Nat.one_pos)))) (k0_hw19 : k0_chk19 (tbM0_0.view.readAt (Elt F) (Rect.unit (s := S20) ![18] S1.size inb_S20_S1_18).toLoadRect xt0 (Shape.Idx.first (numel1_S1.symm ▸ Nat.one_pos)))) (k0_hw20 : k0_chk20 (tbM0_0.view.readAt (Elt F) (Rect.unit (s := S20) ![19] S1.size inb_S20_S1_19).toLoadRect xt0 (Shape.Idx.first (numel1_S1.symm ▸ Nat.one_pos)))) :
    { L2 : List (View.Piece (Elt F) S1x4096 .f32) //
      ∀ (W : Waits sig Unit) (K : PUnit → sProp 𝕄),
        iprop(owns (c : Thread nD τ) arg2 fullShare x0 ∗ owns (c : Thread nD τ) arg4 fullShare x1 ∗ (∃ d, owns (c : Thread nD τ) arg5 fullShare d) ∗ (∃ d, owns (c : Thread nD τ) scM0_0 fullShare d) ∗ tbPt0 c tbM0_0 xt0
            ∗ semsAt0 c ∗ hbPt0 c hbM0_0 fh0 ∗ owes (c : Thread nD τ) 0 W
            ∗ (iprop(owns (c : Thread nD τ) arg2 fullShare x0 ∗ owns (c : Thread nD τ) arg4 fullShare x1 ∗ (∃ f, arg5.view.loc (c : Thread nD τ) ↦[arg5.view.set]{fullShare} arg5.view.writes (Elt F) f L2) ∗ (∃ d, owns (c : Thread nD τ) scM0_0 fullShare d) ∗ tbPt0 c tbM0_0 xt0
                ∗ semsAt0 c ∗ hbPt0 c hbM0_0 fh0 ∗ (∃ W', owes (c : Thread nD τ) 0 W')) -∗ K ⟨⟩))
          ⊢ wp frame (wpE (defs₀ (F := F)) Variants.none c none) Set.univ (cc0__hierarch_kernel i tbM0_0 htbM0_0 arg2 harg2 hbM0_0 (Memref.isWhole_whole _) arg4 harg4 arg5 harg5 scM0_0 (Memref.isWhole_whole _) cc0_scratch1) K } := by
  refine ⟨?_, fun W K => ?run⟩
  case run =>
    simp only [cc0__hierarch_kernel_eq_skeleton]; unfold cc0__hierarch_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%d2, %f2, -, H2⟩, ⟨%ds0, %fs0, -, HS0⟩, HT0, ⟨Hq0, Hq1, Hq2, Hq3, Hq4, Hq5, Hq6, Hq7, Hq8, Hq9, Hq10, Hq11, Hq12, Hq13, Hq14, Hq15, Hq16, Hq17, Hq18, Hq19⟩, Hh0, HW, Hk⟩
    obtain rfl := harg2.eq_unread hf0
    obtain rfl := harg4.eq_unread hf1
    -- the scratch row by row, the weight table share by share
    ihave HR := (Entails.of_eq (scratch_split c fs0)) $$ HS0
    icases HR with ⟨HR0, HR1, HR2, HR3, HR4, HR5, HR6, HR7, HR8, HR9, HR10, HR11, HR12, HR13, HR14, HR15, HR16, HR17, HR18, HR19⟩
    ihave HTk := (toks_split c fh0) $$ Hh0
    icases HTk with ⟨Hrest, Ht0, Ht1, Ht2, Ht3, Ht4, Ht5, Ht6, Ht7, Ht8, Ht9, Ht10, Ht11, Ht12, Ht13, Ht14, Ht15, Ht16, Ht17, Ht18, Ht19⟩
    sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20)
    -- the twenty rows, each holding its copy's payload, are the scratch whole
    ihave HS := (scratch_join c fs0 fs0 fs0 fs0 fs0 fs0 fs0 fs0 fs0 fs0 fs0 fs0 fs0 fs0 fs0 fs0 fs0 fs0 fs0 fs0 _ _ _ _ _ _ _ _ _ _ _ _ _ _ _ _ _ _ _ _) $$ [HR0 HR1 HR2 HR3 HR4 HR5 HR6 HR7 HR8 HR9 HR10 HR11 HR12 HR13 HR14 HR15 HR16 HR17 HR18 HR19]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      iexact HR19
    sl_exec
    sl_step
    iapply Hk
    isplitl [H0]
    · iexists _; isplitr; · ipureintro; exact harg2.read_unread _
      iexact H0
    isplitl [H1]
    · iexists _; isplitr; · ipureintro; exact harg4.read_unread _
      iexact H1
    isplitl [H2]; · iexists _; iexact H2
    isplitl [HS]
    · iexists _, _; isplitr; swap; · iexact HS
      ipureintro; rfl
    isplitl [HT0]; · iexact HT0
    isplitl [Hq0 Hq1 Hq2 Hq3 Hq4 Hq5 Hq6 Hq7 Hq8 Hq9 Hq10 Hq11 Hq12 Hq13 Hq14 Hq15 Hq16 Hq17 Hq18 Hq19]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      iexact Hq19
    isplitl [Hrest Ht0 Ht1 Ht2 Ht3 Ht4 Ht5 Ht6 Ht7 Ht8 Ht9 Ht10 Ht11 Ht12 Ht13 Ht14 Ht15 Ht16 Ht17 Ht18 Ht19]
    · iapply (toks_join c fh0)
      isplitl [Hrest]; · iexact Hrest
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      isplitl [Ht13]; · iexact Ht13
      isplitl [Ht14]; · iexact Ht14
      isplitl [Ht15]; · iexact Ht15
      isplitl [Ht16]; · iexact Ht16
      isplitl [Ht17]; · iexact Ht17
      isplitl [Ht18]; · iexact Ht18
      iexact Ht19
    iexists _; iexact HW

end Cert.Kernel.Fr

end
-- ==== Proof.KernelFr.Frame.lean ====
/-
  The frame of the launch. The body's side conditions — each path word names a row of the weight table — are a
  hypothesis on the table's contents at the region's entry. Under it the body runs at every grid point from the
  invariant (the scratch at some contents, the twenty cells at zero, the weight table and the path table at their
  entry contents) back to the invariant, leaves the two input blocks in place and covers the output block by one
  store; so every weakly fair execution of @main terminates, the result array holds what the points wrote back,
  reshaped by the one host operation after the region, and every argument array ends as it began.
-/
import proofs.«409180_j48619029790893_3_alg».proof.Proof.KernelFr.Run
import Idealize.ShloMosaic.Lib.StableHlo.Run

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The side conditions the body assumes, over the table's words at the region's entry: word `l` names a row of the
    weight table. -/
structure Hyps (m : (ℓ : Loc nD τ sig) → Buf (Elt F) ℓ) : Prop where
  h1 : k0_chk1 (tbM0_0.view.readAt (Elt F) (Rect.unit (s := S20) ![0] S1.size inb_S20_S1_0).toLoadRect (tbl m 0) (Shape.Idx.first (numel1_S1.symm ▸ Nat.one_pos)))
  h2 : k0_chk2 (tbM0_0.view.readAt (Elt F) (Rect.unit (s := S20) ![1] S1.size inb_S20_S1_1).toLoadRect (tbl m 0) (Shape.Idx.first (numel1_S1.symm ▸ Nat.one_pos)))
  h3 : k0_chk3 (tbM0_0.view.readAt (Elt F) (Rect.unit (s := S20) ![2] S1.size inb_S20_S1_2).toLoadRect (tbl m 0) (Shape.Idx.first (numel1_S1.symm ▸ Nat.one_pos)))
  h4 : k0_chk4 (tbM0_0.view.readAt (Elt F) (Rect.unit (s := S20) ![3] S1.size inb_S20_S1_3).toLoadRect (tbl m 0) (Shape.Idx.first (numel1_S1.symm ▸ Nat.one_pos)))
  h5 : k0_chk5 (tbM0_0.view.readAt (Elt F) (Rect.unit (s := S20) ![4] S1.size inb_S20_S1_4).toLoadRect (tbl m 0) (Shape.Idx.first (numel1_S1.symm ▸ Nat.one_pos)))
  h6 : k0_chk6 (tbM0_0.view.readAt (Elt F) (Rect.unit (s := S20) ![5] S1.size inb_S20_S1_5).toLoadRect (tbl m 0) (Shape.Idx.first (numel1_S1.symm ▸ Nat.one_pos)))
  h7 : k0_chk7 (tbM0_0.view.readAt (Elt F) (Rect.unit (s := S20) ![6] S1.size inb_S20_S1_6).toLoadRect (tbl m 0) (Shape.Idx.first (numel1_S1.symm ▸ Nat.one_pos)))
  h8 : k0_chk8 (tbM0_0.view.readAt (Elt F) (Rect.unit (s := S20) ![7] S1.size inb_S20_S1_7).toLoadRect (tbl m 0) (Shape.Idx.first (numel1_S1.symm ▸ Nat.one_pos)))
  h9 : k0_chk9 (tbM0_0.view.readAt (Elt F) (Rect.unit (s := S20) ![8] S1.size inb_S20_S1_8).toLoadRect (tbl m 0) (Shape.Idx.first (numel1_S1.symm ▸ Nat.one_pos)))
  h10 : k0_chk10 (tbM0_0.view.readAt (Elt F) (Rect.unit (s := S20) ![9] S1.size inb_S20_S1_9).toLoadRect (tbl m 0) (Shape.Idx.first (numel1_S1.symm ▸ Nat.one_pos)))
  h11 : k0_chk11 (tbM0_0.view.readAt (Elt F) (Rect.unit (s := S20) ![10] S1.size inb_S20_S1_10).toLoadRect (tbl m 0) (Shape.Idx.first (numel1_S1.symm ▸ Nat.one_pos)))
  h12 : k0_chk12 (tbM0_0.view.readAt (Elt F) (Rect.unit (s := S20) ![11] S1.size inb_S20_S1_11).toLoadRect (tbl m 0) (Shape.Idx.first (numel1_S1.symm ▸ Nat.one_pos)))
  h13 : k0_chk13 (tbM0_0.view.readAt (Elt F) (Rect.unit (s := S20) ![12] S1.size inb_S20_S1_12).toLoadRect (tbl m 0) (Shape.Idx.first (numel1_S1.symm ▸ Nat.one_pos)))
  h14 : k0_chk14 (tbM0_0.view.readAt (Elt F) (Rect.unit (s := S20) ![13] S1.size inb_S20_S1_13).toLoadRect (tbl m 0) (Shape.Idx.first (numel1_S1.symm ▸ Nat.one_pos)))
  h15 : k0_chk15 (tbM0_0.view.readAt (Elt F) (Rect.unit (s := S20) ![14] S1.size inb_S20_S1_14).toLoadRect (tbl m 0) (Shape.Idx.first (numel1_S1.symm ▸ Nat.one_pos)))
  h16 : k0_chk16 (tbM0_0.view.readAt (Elt F) (Rect.unit (s := S20) ![15] S1.size inb_S20_S1_15).toLoadRect (tbl m 0) (Shape.Idx.first (numel1_S1.symm ▸ Nat.one_pos)))
  h17 : k0_chk17 (tbM0_0.view.readAt (Elt F) (Rect.unit (s := S20) ![16] S1.size inb_S20_S1_16).toLoadRect (tbl m 0) (Shape.Idx.first (numel1_S1.symm ▸ Nat.one_pos)))
  h18 : k0_chk18 (tbM0_0.view.readAt (Elt F) (Rect.unit (s := S20) ![17] S1.size inb_S20_S1_17).toLoadRect (tbl m 0) (Shape.Idx.first (numel1_S1.symm ▸ Nat.one_pos)))
  h19 : k0_chk19 (tbM0_0.view.readAt (Elt F) (Rect.unit (s := S20) ![18] S1.size inb_S20_S1_18).toLoadRect (tbl m 0) (Shape.Idx.first (numel1_S1.symm ▸ Nat.one_pos)))
  h20 : k0_chk20 (tbM0_0.view.readAt (Elt F) (Rect.unit (s := S20) ![19] S1.size inb_S20_S1_19).toLoadRect (tbl m 0) (Shape.Idx.first (numel1_S1.symm ▸ Nat.one_pos)))

/-- The run's one piece is a store of the whole output block, so the pieces cover it. -/
theorem cover0_A_2 (c : Dev nD) (i : grid0.Coords) (arg2 : Memref sig .tc .vmem S4096x128 .f32) (harg2 : arg2.IsWhole) (arg4 : Memref sig .tc .vmem S20x1 .f32) (harg4 : arg4.IsWhole) (arg5 : Memref sig .tc .vmem S1x4096 .f32) (harg5 : arg5.IsWhole)
    (x0 : Vec F S4096x128 .f32) (x1 : Vec F S20x1 .f32) (xt0 : TbBuf0 (F := F) c tbM0_0) (fh0 : HbBuf0 (F := F) c hbM0_0)
    (k0_hw1 : k0_chk1 (tbM0_0.view.readAt (Elt F) (Rect.unit (s := S20) ![0] S1.size inb_S20_S1_0).toLoadRect xt0 (Shape.Idx.first (numel1_S1.symm ▸ Nat.one_pos)))) (k0_hw2 : k0_chk2 (tbM0_0.view.readAt (Elt F) (Rect.unit (s := S20) ![1] S1.size inb_S20_S1_1).toLoadRect xt0 (Shape.Idx.first (numel1_S1.symm ▸ Nat.one_pos)))) (k0_hw3 : k0_chk3 (tbM0_0.view.readAt (Elt F) (Rect.unit (s := S20) ![2] S1.size inb_S20_S1_2).toLoadRect xt0 (Shape.Idx.first (numel1_S1.symm ▸ Nat.one_pos)))) (k0_hw4 : k0_chk4 (tbM0_0.view.readAt (Elt F) (Rect.unit (s := S20) ![3] S1.size inb_S20_S1_3).toLoadRect xt0 (Shape.Idx.first (numel1_S1.symm ▸ Nat.one_pos)))) (k0_hw5 : k0_chk5 (tbM0_0.view.readAt (Elt F) (Rect.unit (s := S20) ![4] S1.size inb_S20_S1_4).toLoadRect xt0 (Shape.Idx.first (numel1_S1.symm ▸ Nat.one_pos)))) (k0_hw6 : k0_chk6 (tbM0_0.view.readAt (Elt F) (Rect.unit (s := S20) ![5] S1.size inb_S20_S1_5).toLoadRect xt0 (Shape.Idx.first (numel1_S1.symm ▸ Nat.one_pos)))) (k0_hw7 : k0_chk7 (tbM0_0.view.readAt (Elt F) (Rect.unit (s := S20) ![6] S1.size inb_S20_S1_6).toLoadRect xt0 (Shape.Idx.first (numel1_S1.symm ▸ Nat.one_pos)))) (k0_hw8 : k0_chk8 (tbM0_0.view.readAt (Elt F) (Rect.unit (s := S20) ![7] S1.size inb_S20_S1_7).toLoadRect xt0 (Shape.Idx.first (numel1_S1.symm ▸ Nat.one_pos)))) (k0_hw9 : k0_chk9 (tbM0_0.view.readAt (Elt F) (Rect.unit (s := S20) ![8] S1.size inb_S20_S1_8).toLoadRect xt0 (Shape.Idx.first (numel1_S1.symm ▸ Nat.one_pos)))) (k0_hw10 : k0_chk10 (tbM0_0.view.readAt (Elt F) (Rect.unit (s := S20) ![9] S1.size inb_S20_S1_9).toLoadRect xt0 (Shape.Idx.first (numel1_S1.symm ▸ Nat.one_pos)))) (k0_hw11 : k0_chk11 (tbM0_0.view.readAt (Elt F) (Rect.unit (s := S20) ![10] S1.size inb_S20_S1_10).toLoadRect xt0 (Shape.Idx.first (numel1_S1.symm ▸ Nat.one_pos)))) (k0_hw12 : k0_chk12 (tbM0_0.view.readAt (Elt F) (Rect.unit (s := S20) ![11] S1.size inb_S20_S1_11).toLoadRect xt0 (Shape.Idx.first (numel1_S1.symm ▸ Nat.one_pos)))) (k0_hw13 : k0_chk13 (tbM0_0.view.readAt (Elt F) (Rect.unit (s := S20) ![12] S1.size inb_S20_S1_12).toLoadRect xt0 (Shape.Idx.first (numel1_S1.symm ▸ Nat.one_pos)))) (k0_hw14 : k0_chk14 (tbM0_0.view.readAt (Elt F) (Rect.unit (s := S20) ![13] S1.size inb_S20_S1_13).toLoadRect xt0 (Shape.Idx.first (numel1_S1.symm ▸ Nat.one_pos)))) (k0_hw15 : k0_chk15 (tbM0_0.view.readAt (Elt F) (Rect.unit (s := S20) ![14] S1.size inb_S20_S1_14).toLoadRect xt0 (Shape.Idx.first (numel1_S1.symm ▸ Nat.one_pos)))) (k0_hw16 : k0_chk16 (tbM0_0.view.readAt (Elt F) (Rect.unit (s := S20) ![15] S1.size inb_S20_S1_15).toLoadRect xt0 (Shape.Idx.first (numel1_S1.symm ▸ Nat.one_pos)))) (k0_hw17 : k0_chk17 (tbM0_0.view.readAt (Elt F) (Rect.unit (s := S20) ![16] S1.size inb_S20_S1_16).toLoadRect xt0 (Shape.Idx.first (numel1_S1.symm ▸ Nat.one_pos)))) (k0_hw18 : k0_chk18 (tbM0_0.view.readAt (Elt F) (Rect.unit (s := S20) ![17] S1.size inb_S20_S1_17).toLoadRect xt0 (Shape.Idx.first (numel1_S1.symm ▸ Nat.one_pos)))) (k0_hw19 : k0_chk19 (tbM0_0.view.readAt (Elt F) (Rect.unit (s := S20) ![18] S1.size inb_S20_S1_18).toLoadRect xt0 (Shape.Idx.first (numel1_S1.symm ▸ Nat.one_pos)))) (k0_hw20 : k0_chk20 (tbM0_0.view.readAt (Elt F) (Rect.unit (s := S20) ![19] S1.size inb_S20_S1_19).toLoadRect xt0 (Shape.Idx.first (numel1_S1.symm ▸ Nat.one_pos)))) (y : S1x4096.Idx) :
    ∃ pc ∈ (kernelRun0_A c i arg2 harg2 arg4 harg4 arg5 harg5 x0 x1 xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20).1, y ∈ pc.1.set :=
  View.cover_of_tiledL (kernelRun0_A c i arg2 harg2 arg4 harg4 arg5 harg5 x0 x1 xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20).1 S1x4096.size (by sl_kernel_rfl) y

/-- What the run leaves in the output's staging buffer: its pieces read back. -/
def out0_A_2 (c : Dev nD) (i : grid0.Coords) (arg2 : Memref sig .tc .vmem S4096x128 .f32) (harg2 : arg2.IsWhole) (arg4 : Memref sig .tc .vmem S20x1 .f32) (harg4 : arg4.IsWhole) (arg5 : Memref sig .tc .vmem S1x4096 .f32) (harg5 : arg5.IsWhole)
    (x0 : Vec F S4096x128 .f32) (x1 : Vec F S20x1 .f32) (xt0 : TbBuf0 (F := F) c tbM0_0) (fh0 : HbBuf0 (F := F) c hbM0_0)
    (k0_hw1 : k0_chk1 (tbM0_0.view.readAt (Elt F) (Rect.unit (s := S20) ![0] S1.size inb_S20_S1_0).toLoadRect xt0 (Shape.Idx.first (numel1_S1.symm ▸ Nat.one_pos)))) (k0_hw2 : k0_chk2 (tbM0_0.view.readAt (Elt F) (Rect.unit (s := S20) ![1] S1.size inb_S20_S1_1).toLoadRect xt0 (Shape.Idx.first (numel1_S1.symm ▸ Nat.one_pos)))) (k0_hw3 : k0_chk3 (tbM0_0.view.readAt (Elt F) (Rect.unit (s := S20) ![2] S1.size inb_S20_S1_2).toLoadRect xt0 (Shape.Idx.first (numel1_S1.symm ▸ Nat.one_pos)))) (k0_hw4 : k0_chk4 (tbM0_0.view.readAt (Elt F) (Rect.unit (s := S20) ![3] S1.size inb_S20_S1_3).toLoadRect xt0 (Shape.Idx.first (numel1_S1.symm ▸ Nat.one_pos)))) (k0_hw5 : k0_chk5 (tbM0_0.view.readAt (Elt F) (Rect.unit (s := S20) ![4] S1.size inb_S20_S1_4).toLoadRect xt0 (Shape.Idx.first (numel1_S1.symm ▸ Nat.one_pos)))) (k0_hw6 : k0_chk6 (tbM0_0.view.readAt (Elt F) (Rect.unit (s := S20) ![5] S1.size inb_S20_S1_5).toLoadRect xt0 (Shape.Idx.first (numel1_S1.symm ▸ Nat.one_pos)))) (k0_hw7 : k0_chk7 (tbM0_0.view.readAt (Elt F) (Rect.unit (s := S20) ![6] S1.size inb_S20_S1_6).toLoadRect xt0 (Shape.Idx.first (numel1_S1.symm ▸ Nat.one_pos)))) (k0_hw8 : k0_chk8 (tbM0_0.view.readAt (Elt F) (Rect.unit (s := S20) ![7] S1.size inb_S20_S1_7).toLoadRect xt0 (Shape.Idx.first (numel1_S1.symm ▸ Nat.one_pos)))) (k0_hw9 : k0_chk9 (tbM0_0.view.readAt (Elt F) (Rect.unit (s := S20) ![8] S1.size inb_S20_S1_8).toLoadRect xt0 (Shape.Idx.first (numel1_S1.symm ▸ Nat.one_pos)))) (k0_hw10 : k0_chk10 (tbM0_0.view.readAt (Elt F) (Rect.unit (s := S20) ![9] S1.size inb_S20_S1_9).toLoadRect xt0 (Shape.Idx.first (numel1_S1.symm ▸ Nat.one_pos)))) (k0_hw11 : k0_chk11 (tbM0_0.view.readAt (Elt F) (Rect.unit (s := S20) ![10] S1.size inb_S20_S1_10).toLoadRect xt0 (Shape.Idx.first (numel1_S1.symm ▸ Nat.one_pos)))) (k0_hw12 : k0_chk12 (tbM0_0.view.readAt (Elt F) (Rect.unit (s := S20) ![11] S1.size inb_S20_S1_11).toLoadRect xt0 (Shape.Idx.first (numel1_S1.symm ▸ Nat.one_pos)))) (k0_hw13 : k0_chk13 (tbM0_0.view.readAt (Elt F) (Rect.unit (s := S20) ![12] S1.size inb_S20_S1_12).toLoadRect xt0 (Shape.Idx.first (numel1_S1.symm ▸ Nat.one_pos)))) (k0_hw14 : k0_chk14 (tbM0_0.view.readAt (Elt F) (Rect.unit (s := S20) ![13] S1.size inb_S20_S1_13).toLoadRect xt0 (Shape.Idx.first (numel1_S1.symm ▸ Nat.one_pos)))) (k0_hw15 : k0_chk15 (tbM0_0.view.readAt (Elt F) (Rect.unit (s := S20) ![14] S1.size inb_S20_S1_14).toLoadRect xt0 (Shape.Idx.first (numel1_S1.symm ▸ Nat.one_pos)))) (k0_hw16 : k0_chk16 (tbM0_0.view.readAt (Elt F) (Rect.unit (s := S20) ![15] S1.size inb_S20_S1_15).toLoadRect xt0 (Shape.Idx.first (numel1_S1.symm ▸ Nat.one_pos)))) (k0_hw17 : k0_chk17 (tbM0_0.view.readAt (Elt F) (Rect.unit (s := S20) ![16] S1.size inb_S20_S1_16).toLoadRect xt0 (Shape.Idx.first (numel1_S1.symm ▸ Nat.one_pos)))) (k0_hw18 : k0_chk18 (tbM0_0.view.readAt (Elt F) (Rect.unit (s := S20) ![17] S1.size inb_S20_S1_17).toLoadRect xt0 (Shape.Idx.first (numel1_S1.symm ▸ Nat.one_pos)))) (k0_hw19 : k0_chk19 (tbM0_0.view.readAt (Elt F) (Rect.unit (s := S20) ![18] S1.size inb_S20_S1_18).toLoadRect xt0 (Shape.Idx.first (numel1_S1.symm ▸ Nat.one_pos)))) (k0_hw20 : k0_chk20 (tbM0_0.view.readAt (Elt F) (Rect.unit (s := S20) ![19] S1.size inb_S20_S1_19).toLoadRect xt0 (Shape.Idx.first (numel1_S1.symm ▸ Nat.one_pos)))) : Vec F S1x4096 .f32 :=
  VO0_2.read (Elt F) (VO0_2.writes (Elt F) VO0_2.junk (kernelRun0_A c i arg2 harg2 arg4 harg4 arg5 harg5 x0 x1 xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20).1)

/-- What the output's staging buffer holds after the body at point `t`. -/
def outsAt0 (hH : Hyps m) (c : Dev nD) (t : Fin (cfgM m).N) : Vec F S1x4096 .f32 :=
  out0_A_2 c (grid0.coords t) (ms0_0 m t) (hs0_0 m t) (ms0_1 m t) (hs0_1 m t) (ms0_2 m t) (hs0_2 m t) (iblk m c 0 t) (iblk m c 1 t) (tbl m 0) (V m c main_arg1) hH.h1 hH.h2 hH.h3 hH.h4 hH.h5 hH.h6 hH.h7 hH.h8 hH.h9 hH.h10 hH.h11 hH.h12 hH.h13 hH.h14 hH.h15 hH.h16 hH.h17 hH.h18 hH.h19 hH.h20

/-- The proof data of the pipeline on core `c`: the arrays as the region finds them; after the body each input's
    buffer at its block and the output's at `outsAt0`; the invariant; nothing owed; full shares. -/
def dats (hH : Hyps m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => (outsAt0 m hH c t)
  Φ _ := iprop(Pipeline.ΦD osem0 spec0 H0 (V m) c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]

theorem after0_0 (hH : Hyps m) (c : Dev nD) (t : Fin (cfgM m).N) : (dats m hH 0 c).after 0 t = iblk m c 0 t := by dsimp only [dats]; try rfl
theorem after0_1 (hH : Hyps m) (c : Dev nD) (t : Fin (cfgM m).N) : (dats m hH 0 c).after 1 t = iblk m c 1 t := by dsimp only [dats]; try rfl
theorem after0_2 (hH : Hyps m) (c : Dev nD) (t : Fin (cfgM m).N) : (dats m hH 0 c).after 2 t = (outsAt0 m hH c t) := by dsimp only [dats]; try rfl

theorem before0_0 (hH : Hyps m) (c : Dev nD) (t : Fin (cfgM m).N) (d) : (dats m hH 0 c).before 0 t d = iblk m c 0 t :=
  before0_0_of m (dats m hH 0 c) (A_eq m hH c 0) (after0_0 m hH c) t d
theorem before0_1 (hH : Hyps m) (c : Dev nD) (t : Fin (cfgM m).N) (d) : (dats m hH 0 c).before 1 t d = iblk m c 1 t :=
  before0_1_of m (dats m hH 0 c) (A_eq m hH c 1) (after0_1 m hH c) t d

/-- What the body is called with at point `t`, -/
def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0_0 m t) fullShare ((dats m hH 0 c).before 0 t d))
    ∗ (∃ d, owns (c : Thread nD τ) (ms0_1 m t) fullShare ((dats m hH 0 c).before 1 t d))
    ∗ (∃ d, owns (c : Thread nD τ) (ms0_2 m t) fullShare ((dats m hH 0 c).before 2 t d)))

/-- and what it returns. -/
def bodyPost (hH : Hyps m) (c : Dev nD) (t : Fin (cfgM m).N) : sProp 𝕄 :=
  iprop((dats m hH 0 c).Φ t.succ ∗ (dats m hH 0 c).owesAt () t.succ
    ∗ owns (c : Thread nD τ) (ms0_0 m t) fullShare ((dats m hH 0 c).after 0 t)
    ∗ owns (c : Thread nD τ) (ms0_1 m t) fullShare ((dats m hH 0 c).after 1 t)
    ∗ owns (c : Thread nD τ) (ms0_2 m t) fullShare ((dats m hH 0 c).after 2 t))

/-- The body at any point: the inputs' memrefs hold their blocks, so the run applies; the invariant hands the body
    its scratch, the cells at zero, the weight table and the path table, and takes them back as they were. -/
theorem sound_body (hH : Hyps m) (c : Dev nD) (t : Fin (cfgM m).N) :
    bodyPre m hH c t ⊢ wp frame (wpE (defs₀ (F := F)) Variants.none c none) Set.univ (bodyAt0 m t) (fun _ => bodyPost m hH c t) := by
  unfold bodyPre bodyPost bodyAt0
  simp only [before0_0, before0_1]
  rw [show (dats m hH 0 c).Φ t.succ = (dats m hH 0 c).Φ t.castSucc from rfl,
    after0_0, after0_1, after0_2]
  rw [show (dats m hH 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hH 0 c).owed t.castSucc = 0 from rfl, show (dats m hH 0 c).owed t.succ = 0 from rfl]
  unfold outsAt0
  unfold out0_A_2
  unfold sems0
  iintro ⟨⟨⟨HS0, Hg, Hq, Hh0⟩, HT0⟩, ⟨%W, -, HW⟩, ⟨%d0, H0⟩, ⟨%d1, H1⟩, ⟨%d2, H2⟩⟩
  iapply ((kernelRun0_A c (grid0.coords t) _ _ _ _ _ _ (iblk m c 0 t) (iblk m c 1 t) (tbl m 0) (V m c main_arg1) hH.h1 hH.h2 hH.h3 hH.h4 hH.h5 hH.h6 hH.h7 hH.h8 hH.h9 hH.h10 hH.h11 hH.h12 hH.h13 hH.h14 hH.h15 hH.h16 hH.h17 hH.h18 hH.h19 hH.h20).2 W _)
  isplitl [H0]; · iexact H0
  isplitl [H1]; · iexact H1
  isplitl [H2]; · iexists _; iexact H2
  isplitl [HS0]; · iexact HS0
  isplitl [HT0]; · iexact HT0
  isplitl [Hq]; · iexact Hq
  isplitl [Hh0]; · iexact Hh0
  isplitl [HW]; · iexact HW
  iintro ⟨H0, H1, ⟨%e2, H2⟩, HS0, HT0, Hq, Hh0, ⟨%W', HW'⟩⟩
  isplitl [HS0 Hg Hq Hh0 HT0]
  · isplitl [HS0 Hg Hq Hh0]
    · isplitl [HS0]; · iexact HS0
      isplitl [Hg]; · iexact Hg
      isplitl [Hq]; · iexact Hq
      iexact Hh0
    iexact HT0
  isplitl [HW']
  · iexists W'; isplitr; · ipureintro; exact fun _ _ => Or.inl trivial
    iexact HW'
  isplitl [H0]; · iexact H0
  isplitl [H1]; · iexact H1
  unfold owns; iexists _; isplitr
  swap; · iexact H2
  ipureintro; exact View.read_writes_of_cover _ _ _ _ _ (cover0_A_2 c _ _ _ _ _ _ _ _ _ _ _ _ _ _ _ _ _ _ _ _ _ _ _ _ _ _ _ _ _ _ _)

/-- The body obligation, at every point. -/
theorem body_obligation (hH : Hyps m) (c : Dev nD) : BodyObligation (dats (F := F) m hH 0 c) (defs₀ (F := F)) Variants.none () Set.univ := fun t => by
  rw [bigSep_W0, bigSep_W0]
  exact sound_body m hH c t

set_option backward.isDefEq.respectTransparency.types false in
/-- Every weakly fair execution of @main terminates; every array of the pipeline ends at what the points' write-backs
    make of it, every other unscoped buffer at the reshape after the region applied to the region's exit
    contents. -/
theorem run_main (hH : Hyps m) : θ_run defs (onTc (τ := τ) (main (F := F))) (s₀ m ρ)
    (Pipeline.FramePost (Pipeline.pin pcfgs fun _ => adm m) (dats m hH) 0 (Pipeline.afterTail pcfgs (fun _ => adm m) (dats m hH) 0 (V0 m) [hostOps1])) :=
  Pipeline.θ_run_frameP_dma_around pcfgs (fun _ => adm m) (dats m hH) (0 : Fin 1) launch0 osem0 defs₀ Variants.none ownSemFacts0 H0 H0_sub m ρ main
    (hbody := fun c => (body_obligation m hH c).loose) (hshare := fun c => (dats m hH 0 c).share_full fun _ => rfl)
    (howed := fun _ _ => rfl) (V₀ := V0 m) (opss := [hostOps1]) (hsub := sfx_sub) (hfresh := sfx_fresh) (hkeep := sfx_keeps)
    (hmain := hmain m Variants.none) (hA := A_eq m hH) (hpf := V0_pre m)
    (hin := fun _ => .rfl) (hout := fun c => (Entails.of_eq (show (dats m hH 0 c).Φ _ = iprop(Pipeline.ΦD osem0 spec0 H0 (V m) c ∗ Pipeline.ΦT pre0 (tbl m) c) from rfl)).trans (by iintro ⟨H, -⟩; iexact H))

/-! ## The region's entry contents, argument by argument -/

theorem V_main_arg0 (c : Dev nD) : V m c main_arg0 = m ((c : Thread nD τ).loc main_arg0) := by
  show StableHlo.after hostOps0 (fun b => m (c, b)) (Proc.devRef .tc main_arg0) = _; after_results
theorem V_main_arg1 (c : Dev nD) : V m c main_arg1 = m ((c : Thread nD τ).loc main_arg1) := by
  show StableHlo.after hostOps0 (fun b => m (c, b)) (Proc.devRef .tc main_arg1) = _; after_results
theorem V_main_arg2 (c : Dev nD) : V m c main_arg2 = m ((c : Thread nD τ).loc main_arg2) := by
  show StableHlo.after hostOps0 (fun b => m (c, b)) (Proc.devRef .tc main_arg2) = _; after_results
theorem V_main_arg3 (c : Dev nD) : V m c main_arg3 = m ((c : Thread nD τ).loc main_arg3) := by
  show StableHlo.after hostOps0 (fun b => m (c, b)) (Proc.devRef .tc main_arg3) = _; after_results
/-- The path code as the region finds it: the argument cast to a column. -/
theorem V_main_v0 (c : Dev nD) : (V m c main_v0 : Vec F S20x1 .f32) = shapeCast S20x1 (m ((c : Thread nD τ).loc main_arg2) : Vec F S20 .f32) shapeCasts_S20_S20x1 := by
  show StableHlo.after hostOps0 (fun b => m (c, b)) (Proc.devRef .tc main_v0) = _; after_results; rfl

/-! ## After the region -/

/-- The reshape after the region leaves every buffer but its own result at the region's exit contents; a buffer
    that is no window's array left the region as it entered it. -/
theorem tail_keeps (hH : Hyps m) (c : Dev nD) (b : Ref sig .tc) (hb : b ≠ main_v2) (harr : ∀ w, Pipeline.arrRef spec0 w ≠ b) :
    Pipeline.afterTail pcfgs (fun _ => adm m) (dats m hH) 0 (V0 m) [hostOps1] c b = V m c b := by
  unfold Pipeline.afterTail
  rw [StableHlo.after_of_forall_not_mem _ _ fun op hop hw => ?_, Pipeline.withArrays_of_ne _ c (V0 m c) _ b harr]
  simp only [List.flatten_cons, List.flatten_nil, List.append_nil, hostOps1, List.mem_cons, List.mem_nil_iff, or_false] at hop
  subst hop
  rw [StableHlo.reshape_writes, Finset.mem_singleton] at hw
  exact hb (Proc.devRef_injective (τ := τ) _ hw)

/-- The result: the [1, 16384] array the points wrote back, cast to a column. -/
theorem tail_result (hH : Hyps m) (c : Dev nD) :
    (Pipeline.afterTail pcfgs (fun _ => adm m) (dats m hH) 0 (V0 m) [hostOps1] c main_v2 : Vec F S16384x1 .f32)
      = shapeCast S16384x1 ((dats m hH 0 c).arrAt 2 (cfgM m).N : Vec F S1x16384 .f32) shapeCasts_S1x16384_S16384x1 := by
  unfold Pipeline.afterTail
  show StableHlo.after hostOps1 _ (Proc.devRef .tc main_v2) = _
  after_results
  exact congrArg (fun v : Vec F S1x16384 .f32 => shapeCast S16384x1 v shapeCasts_S1x16384_S16384x1)
    (Pipeline.withArrays_arr spec0 (launch0 (F := F)).win.arr_inj c _ _ 2)

/-! ## The frame -/

/-- Every weakly fair execution of @main terminates and the four argument arrays end as they began. -/
theorem frame (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).1 0).trans (((dats m hH 0 c).arrAt_in 0 rfl _).trans ((A_eq m hH c 0).trans (V_main_arg0 m c))),
      ((h c).2 main_arg1 (show main_arg1 ∈ Pipeline.restRefs sig spec0 from Pipeline.mem_restRefs_of main_arg1 (by decide) (by decide))).trans
        ((tail_keeps m hH c main_arg1 (by decide) (by decide)).trans (V_main_arg1 m c)),
      ((h c).2 main_arg2 (show main_arg2 ∈ Pipeline.restRefs sig spec0 from Pipeline.mem_restRefs_of main_arg2 (by decide) (by decide))).trans
        ((tail_keeps m hH c main_arg2 (by decide) (by decide)).trans (V_main_arg2 m c)),
      ((h c).2 main_arg3 (show main_arg3 ∈ Pipeline.restRefs sig spec0 from Pipeline.mem_restRefs_of main_arg3 (by decide) (by decide))).trans
        ((tail_keeps m hH c main_arg3 (by decide) (by decide)).trans (V_main_arg3 m c))⟩)
    (run_main m ρ hH)

end Cert.Kernel.Fr

end
-- ==== Proof.KernelFr.HypsOfRange.lean ====
/-
  The body's side conditions from the range of the path words.

  The body reads the path table one cell at a time and, of each word `w` it reads, assumes that the one-row block
  of the weight table starting at row `w.toNat` lies inside the table: `w.toNat + 1 ≤ 1000000` on the row axis and
  `0 + 128 ≤ 128` on the column axis. The table the body is handed is the whole argument array, unchanged by the
  one reshape before the region (which touches the path code only), so the word read at cell `l` is the launch
  contents at index `l`; if every path word is below 1000000 every side condition holds.
-/
import proofs.«409180_j48619029790893_3_alg».proof.Proof.KernelFr.Frame
import Idealize.ShloMosaic.Lib.ValueIdx

set_option maxRecDepth 16384

noncomputable section

namespace Cert.Kernel.Fr

open Idealize.ShloMosaic Idealize.ShloMosaic.TcCoe Idealize.SL.Sem Cert.Kernel Cert.Kernel.Gen

variable {F : FTy → Type} [FloatOps F]

/-- Reading the one cell at position `k` of the whole path table off contents `f` gives `f` at index `k`: the view
    of the whole table places an index at itself, and the unit rectangle at offset `k` places its first (only)
    index at `k + 1 * 0`. -/
theorem word_at (f : IVec S20 32) (k : Nat) (hk : k < 20)
    (inb : ∀ a, (![k] : Fin 1 → Nat) a + S1.size a ≤ S20.size a) (h1 : 0 < S1.numel) :
    tbM0_0.view.readAt (Elt F) (Rect.unit (s := S20) ![k] S1.size inb).toLoadRect f (Shape.Idx.first h1)
      = f (ValueIdx.ix1 ⟨k, hk⟩) := by
  rw [View.readAt_apply]
  show f _ = f _
  congr 1
  funext a
  apply Fin.ext
  fin_cases a
  show k + 1 * 0 = k
  omega

/-- A word below 1000000 names a row of the weight table: the [1, 128] block at row `w.toNat`, column 0 fits in
    the [1000000, 128] table. -/
theorem row_fits (w : BitVec 32) (hw : w.toNat < 1000000) :
    ∀ a, (![w.toNat, 0] : Fin 2 → Nat) a + S1x128.size a ≤ S1000000x128.size a := by
  intro a
  fin_cases a
  · show w.toNat + 1 ≤ 1000000
    omega
  · show 0 + 128 ≤ 128
    omega

variable (m : (ℓ : Loc nD τ sig) → Buf (Elt F) ℓ)

/-- The word the body reads at cell `k` of the table as the region finds it is the launch contents' word `k`, so
    it is below 1000000 when every path word is. -/
theorem word_lt
    (hr : ∀ l : Fin 20, ((m (((0 : Dev nD).tc : Thread nD τ).loc main_arg3) : IVec S20 32) (ValueIdx.ix1 l)).toNat < 1000000)
    (k : Nat) (hk : k < 20) (inb : ∀ a, (![k] : Fin 1 → Nat) a + S1.size a ≤ S20.size a) (h1 : 0 < S1.numel) :
    (tbM0_0.view.readAt (Elt F) (Rect.unit (s := S20) ![k] S1.size inb).toLoadRect (tbl m 0) (Shape.Idx.first h1)).toNat
      < 1000000 := by
  have e : tbl m 0 = m (((0 : Dev nD).tc : Thread nD τ).loc main_arg3) := V_main_arg3 m 0
  rw [e, word_at (F := F) _ k hk inb h1]
  exact hr ⟨k, hk⟩

/-- Every side condition the body assumes holds when every path word names a row of the weight table. -/
theorem hyps_of_range
    (hr : ∀ l : Fin 20, ((m (((0 : Dev nD).tc : Thread nD τ).loc main_arg3) : IVec S20 32) (ValueIdx.ix1 l)).toNat < 1000000) :
    Hyps m :=
  {
    h1 := And.intro (row_fits _ (word_lt m hr 0 (by omega) _ _)) (row_fits _ (word_lt m hr 0 (by omega) _ _))
    h2 := And.intro (row_fits _ (word_lt m hr 1 (by omega) _ _)) (row_fits _ (word_lt m hr 1 (by omega) _ _))
    h3 := And.intro (row_fits _ (word_lt m hr 2 (by omega) _ _)) (row_fits _ (word_lt m hr 2 (by omega) _ _))
    h4 := And.intro (row_fits _ (word_lt m hr 3 (by omega) _ _)) (row_fits _ (word_lt m hr 3 (by omega) _ _))
    h5 := And.intro (row_fits _ (word_lt m hr 4 (by omega) _ _)) (row_fits _ (word_lt m hr 4 (by omega) _ _))
    h6 := And.intro (row_fits _ (word_lt m hr 5 (by omega) _ _)) (row_fits _ (word_lt m hr 5 (by omega) _ _))
    h7 := And.intro (row_fits _ (word_lt m hr 6 (by omega) _ _)) (row_fits _ (word_lt m hr 6 (by omega) _ _))
    h8 := And.intro (row_fits _ (word_lt m hr 7 (by omega) _ _)) (row_fits _ (word_lt m hr 7 (by omega) _ _))
    h9 := And.intro (row_fits _ (word_lt m hr 8 (by omega) _ _)) (row_fits _ (word_lt m hr 8 (by omega) _ _))
    h10 := And.intro (row_fits _ (word_lt m hr 9 (by omega) _ _)) (row_fits _ (word_lt m hr 9 (by omega) _ _))
    h11 := And.intro (row_fits _ (word_lt m hr 10 (by omega) _ _)) (row_fits _ (word_lt m hr 10 (by omega) _ _))
    h12 := And.intro (row_fits _ (word_lt m hr 11 (by omega) _ _)) (row_fits _ (word_lt m hr 11 (by omega) _ _))
    h13 := And.intro (row_fits _ (word_lt m hr 12 (by omega) _ _)) (row_fits _ (word_lt m hr 12 (by omega) _ _))
    h14 := And.intro (row_fits _ (word_lt m hr 13 (by omega) _ _)) (row_fits _ (word_lt m hr 13 (by omega) _ _))
    h15 := And.intro (row_fits _ (word_lt m hr 14 (by omega) _ _)) (row_fits _ (word_lt m hr 14 (by omega) _ _))
    h16 := And.intro (row_fits _ (word_lt m hr 15 (by omega) _ _)) (row_fits _ (word_lt m hr 15 (by omega) _ _))
    h17 := And.intro (row_fits _ (word_lt m hr 16 (by omega) _ _)) (row_fits _ (word_lt m hr 16 (by omega) _ _))
    h18 := And.intro (row_fits _ (word_lt m hr 17 (by omega) _ _)) (row_fits _ (word_lt m hr 17 (by omega) _ _))
    h19 := And.intro (row_fits _ (word_lt m hr 18 (by omega) _ _)) (row_fits _ (word_lt m hr 18 (by omega) _ _))
    h20 := row_fits _ (word_lt m hr 19 (by omega) _ _) }

end Cert.Kernel.Fr

end
-- ==== Proof.KernelIdealFr.Base.lean ====
/-
  The kernel's launch, read for its frame: what the core's buffers hold when the region is entered (the path code
  reshaped to a column by the one host operation before it), the region's continuation (the one reshape after it),
  the prefetched path table as the body is handed it, the three windows' blocks (a 4096-row block of `xw`, the code
  column whole, a 4096-wide block of the [1, 16384] result), the scratch that receives the twenty gathered rows, the
  twenty transfer cells, and the weight table left in HBM, which the body reads by twenty row copies per point.
-/
import proofs.«409180_j48619029790893_3_alg».proof.Proof.Gen.KernelIdeal.Launch
import proofs.«409180_j48619029790893_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- Core `c`'s buffers when the region is entered: the launch memory after the reshape of the path code. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshape, the region, the reshape: it reduces to the region continued by the second reshape, at the
    contents after the first. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-- The weight table, the one unscoped buffer the body moves itself. -/
def H0 : Finset (Ref sig .tc) := {main_arg1}
theorem H0_sub : H0 ⊆ Pipeline.restRefsP sig pre0 spec0 := by decide

/-- The reshape after the region touches the result array and its own result only: no table, not the weight table. -/
theorem sfx_sub : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl
  simp only [hostOps1, List.mem_cons, List.mem_nil_iff, or_false] at hop
  rcases hop with rfl
  refine Pipeline.sub_tailRefsBut pre0 spec0 H0 _ (StableHlo.reshape_bufs_sub ..) (fun k => ?_) (fun b hb => ?_)
  · rw [StableHlo.reshape_bufs]
    fin_cases k
    simp only [Finset.mem_insert, Finset.mem_singleton, not_or]
    exact ⟨StableHlo.devRef_ne_of_ne (by decide), StableHlo.devRef_ne_of_ne (by decide)⟩
  · rw [StableHlo.reshape_bufs]
    obtain rfl : b = main_arg1 := Finset.mem_singleton.mp hb
    simp only [Finset.mem_insert, Finset.mem_singleton, not_or]
    exact ⟨StableHlo.devRef_ne_of_ne (by decide), StableHlo.devRef_ne_of_ne (by decide)⟩
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes only its own result, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The prefetched path table -/

/-- The table's contents when the region is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
theorem V0_pre (c : Dev nD) (j : Fin 1) : V0 m c (Proc.devRef .tc (pre0.ref j)) = tbl m j := V_pre m c j
/-- No index map reads the table: the pipeline's side condition on it is empty. -/
theorem ok : ok0 (F := F) (tbl m) := trivial
abbrev adm : (pcfg0 (F := F)).Adm := ⟨tbl m, ok m⟩
abbrev cfgM : Pipeline.Cfg sig Λ₀ := cfg0 (adm m)

/-- The table as the body is handed it, and the half share the region lends the body. -/
abbrev tbM0_0 : Memref sig .tc .smem S20 .i32 := Memref.whole main_arg3
abbrev htbM0_0 : tbM0_0.IsWhole := Memref.isWhole_whole _
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's current staging buffer holds its block at every point, fetched there or not. -/
theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called with -/

abbrev VO0_2 : View sig .tc .vmem S1x4096 .f32 := (Memref.whole cc0_stg2_0 : Memref sig .tc .vmem S1x4096 .f32).view
abbrev ms0_0 (t : Fin (cfgM m).N) : Memref sig .tc .vmem S4096x128 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S20x1 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1x4096 .f32 := spec0_2.stage ((cfgM m).slots t 2)
abbrev hs0_2 (t : Fin (cfgM m).N) : (ms0_2 m t).IsWhole := hstage0_2 (((cfgM m).slots t 2).cast nbuf0_2)
/-- The scratch that receives the gathered rows, and the weight table, whole. -/
abbrev scM0_0 : Memref sig .tc .vmem S20x128 .f32 := Memref.whole cc0_scratch0
abbrev hbM0_0 : Memref sig .tc .hbm S1000000x128 .f32 := Memref.whole main_arg1
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body at point `t`, on what the pipeline calls it with. -/
abbrev bodyAt0 (t : Fin (cfgM m).N) : Prog (TpuEff nD τ sig (Elt F) Λ₀ .tc) PUnit :=
  cc0__hierarch_kernel (grid0.coords t) tbM0_0 htbM0_0 (ms0_0 m t) (hs0_0 m t) hbM0_0 (Memref.isWhole_whole _) (ms0_1 m t) (hs0_1 m t) (ms0_2 m t) (hs0_2 m t) scM0_0 (Memref.isWhole_whole _) cc0_scratch1

/-! ## The body's own transfer cells and the invariant -/

/-- The twenty cells, one per gathered row. -/
abbrev osem0 : Fin 20 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24] : Fin 20 → SemLoc sig) j
theorem ownSemFacts0 : Pipeline.OwnSemFacts spec0 osem0 := by decide
/-- The cells at zero, listed. -/
def sems0 (c : Dev nD) : sProp 𝕄 :=
  iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0)
theorem ownSems00_eq (c : Dev nD) :
    (Pipeline.ownSems0 (Ix := Unit) (Name := ℕ) (U := Pipeline.UD sig nD τ) (Lvl := ℕ) (Val := Elt F) (τ := τ) osem0 c : sProp 𝕄)
      = sems0 c := by
  rw [Pipeline.ownSems0_eq_of_list c osem0 [0, 1, 2, 3, 4, 5, 6, 7, 8, 9, 10, 11, 12, 13, 14, 15, 16, 17, 18, 19] (by decide) (by decide)]; rfl
theorem hbmPts0_eq (c : Dev nD) :
    (bigSep H0 (fun b => ((c : Thread nD τ).loc b) ↦{fullShare} V m c b) : sProp 𝕄) = iprop(hbPt0 c hbM0_0 (V m c main_arg1)) := by
  rw [BI.bigSep_eq_bigSepL_of_eq [main_arg1] (by decide) (by decide)]; rfl

/-- The invariant conjunct by conjunct: the scratch at some contents, the generator register, the cells at zero, the
    weight table at its launch contents. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ sems0 c ∗ iprop(hbPt0 c hbM0_0 (V m c main_arg1))) := by
  rw [Pipeline.ΦD_eq, scopedRest0_eq, ownSems00_eq, hbmPts0_eq]; simp only [scM0_0, owns_whole]; try rfl

end Cert.KernelIdeal.Fr

end
-- ==== Proof.KernelIdealFr.Rows.lean ====
/-
  The scratch as twenty rows. Each row copy lands in one row of the [20, 128] scratch; the rows are pairwise disjoint
  and cover the scratch, so the scratch held whole is the twenty rows held one by one, and twenty rows each holding a
  payload join to the scratch holding, at (l, d), payload l at d.
-/
import proofs.«409180_j48619029790893_3_alg».proof.Proof.KernelIdealFr.Base
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The row of the scratch at offsets `o`, as a [128] memref: the slice, its unit axis dropped. -/
abbrev rowMo (o : Fin 2 → ℕ) (h : ∀ a, o a + S1x128.size a ≤ S20x128.size a) : Memref sig .tc .vmem S128 .f32 :=
  (scM0_0.slice (Rect.unit (s := S20x128) o S1x128.size h) (fun _ => rfl)).squeeze S128 squeezes_S1x128_S128

/-- That row held at contents `f` of the scratch's buffer. -/
abbrev rowPt (c : Dev nD) (o : Fin 2 → ℕ) (h : ∀ a, o a + S1x128.size a ≤ S20x128.size a)
    (f : Buf (Elt F) ((rowMo o h).view.loc (c : Thread nD τ))) : sProp 𝕄 :=
  (rowMo o h).view.loc (c : Thread nD τ) ↦[(rowMo o h).view.set]{fullShare} f

/-- The row's elements are the rectangle's. -/
theorem rowSet (o : Fin 2 → ℕ) (h : ∀ a, o a + S1x128.size a ≤ S20x128.size a) :
    (rowMo o h).view.set = (Rect.unit (s := S20x128) o S1x128.size h).set :=
  (View.set_reshape (v := (scM0_0.slice (Rect.unit (s := S20x128) o S1x128.size h) (fun _ => rfl)).view) _).trans
    (View.set_slice_whole cc0_scratch0 _)

/-- Row `l`'s offsets. -/
def rowOff (l : Fin 20) : Fin 2 → ℕ := ![l.val, 0]
theorem rowInb (l : Fin 20) : ∀ a, rowOff l a + S1x128.size a ≤ S20x128.size a := by
  intro a; have := l.isLt
  fin_cases a
  · show l.val + 1 ≤ 20; omega
  · show 0 + 128 ≤ 128; omega

/-- Row `l`'s elements, as elements of the scratch's buffer. -/
def rowI (c : Dev nD) (l : Fin 20) : Finset (Idx (scM0_0.view.loc (c : Thread nD τ))) := (rowMo (rowOff l) (rowInb l)).view.set
theorem rowI_eq (c : Dev nD) (l : Fin 20) : rowI c l = (Rect.unit (s := S20x128) (rowOff l) S1x128.size (rowInb l)).set :=
  rowSet _ _

/-- Two different rows share no element. -/
theorem row_disjoint (c : Dev nD) (l l' : Fin 20) (hne : l ≠ l') : Disjoint (rowI c l) (rowI c l') := by
  rw [rowI_eq, rowI_eq]
  refine Rect.unit_disjoint 0 ?_
  show l.val + 1 ≤ l'.val ∨ l'.val + 1 ≤ l.val
  have : l.val ≠ l'.val := fun e => hne (Fin.ext e)
  omega

/-- Every element of the scratch lies in the row its first coordinate names. -/
theorem row_cover (c : Dev nD) : Finset.univ.biUnion (rowI c) = Finset.univ := by
  ext i
  simp only [Finset.mem_biUnion, Finset.mem_univ, true_and, iff_true]
  have h0 : ((i : S20x128.Idx) 0).val < 20 := ((i : S20x128.Idx) 0).isLt
  have h1 : ((i : S20x128.Idx) 1).val < 128 := ((i : S20x128.Idx) 1).isLt
  refine ⟨⟨((i : S20x128.Idx) 0).val, h0⟩, ?_⟩
  rw [rowI_eq, Rect.mem_set_unit]
  intro a
  fin_cases a
  · show ((i : S20x128.Idx) 0).val ≤ ((i : S20x128.Idx) 0).val ∧ ((i : S20x128.Idx) 0).val < ((i : S20x128.Idx) 0).val + 1
    omega
  · show 0 ≤ ((i : S20x128.Idx) 1).val ∧ ((i : S20x128.Idx) 1).val < 0 + 128
    omega

/-- Twenty conjuncts, listed. -/
theorem rows_list (Φ : Fin 20 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

/-- The scratch held whole is its twenty rows held one by one, at the same contents. -/
theorem scratch_split (c : Dev nD) (f : Buf (Elt F) (scM0_0.view.loc (c : Thread nD τ))) :
    (scM0_0.view.loc (c : Thread nD τ) ↦[scM0_0.view.set]{fullShare} f : sProp 𝕄)
      = iprop(rowPt c ![0, 0] inb_S20x128_S1x128_0_0 f ∗ rowPt c ![1, 0] inb_S20x128_S1x128_1_0 f ∗ rowPt c ![2, 0] inb_S20x128_S1x128_2_0 f ∗ rowPt c ![3, 0] inb_S20x128_S1x128_3_0 f ∗ rowPt c ![4, 0] inb_S20x128_S1x128_4_0 f ∗ rowPt c ![5, 0] inb_S20x128_S1x128_5_0 f ∗ rowPt c ![6, 0] inb_S20x128_S1x128_6_0 f ∗ rowPt c ![7, 0] inb_S20x128_S1x128_7_0 f ∗ rowPt c ![8, 0] inb_S20x128_S1x128_8_0 f ∗ rowPt c ![9, 0] inb_S20x128_S1x128_9_0 f ∗ rowPt c ![10, 0] inb_S20x128_S1x128_10_0 f ∗ rowPt c ![11, 0] inb_S20x128_S1x128_11_0 f ∗ rowPt c ![12, 0] inb_S20x128_S1x128_12_0 f ∗ rowPt c ![13, 0] inb_S20x128_S1x128_13_0 f ∗ rowPt c ![14, 0] inb_S20x128_S1x128_14_0 f ∗ rowPt c ![15, 0] inb_S20x128_S1x128_15_0 f ∗ rowPt c ![16, 0] inb_S20x128_S1x128_16_0 f ∗ rowPt c ![17, 0] inb_S20x128_S1x128_17_0 f ∗ rowPt c ![18, 0] inb_S20x128_S1x128_18_0 f ∗ rowPt c ![19, 0] inb_S20x128_S1x128_19_0 f) := by
  rw [show scM0_0.view.set = Finset.univ from View.set_whole _,
    Ring.pointsTo_blocks (Ix := Unit) (Name := ℕ) (U := Pipeline.UD sig nD τ) (Lvl := ℕ) (q := fullShare) (rowI c) (row_disjoint c) (row_cover c) f, rows_list]
  rfl

/-- The scratch's contents with payload `P l` in row `l`: at (l, d), `P l` at d. -/
def joined (P : Fin 20 → S128.Idx → Elt F .f32) : Vec F S20x128 .f32 :=
  fun i => P ⟨(i 0).val, (i 0).isLt⟩ (ValueIdx.ix1 ⟨(i 1).val, (i 1).isLt⟩)

/-- A row written whole with `P l` agrees, on the row, with the joined contents. -/
theorem row_agree (c : Dev nD) (l : Fin 20) (o : Fin 2 → ℕ) (h : ∀ a, o a + S1x128.size a ≤ S20x128.size a) (ho : o = rowOff l)
    (P : Fin 20 → S128.Idx → Elt F .f32) (f : Buf (Elt F) ((rowMo o h).view.loc (c : Thread nD τ))) :
    ∀ i ∈ (rowMo o h).view.set, (rowMo o h).view.writes (Elt F) f [⟨Rect.whole S128, P l⟩] i = joined P i := by
  subst ho
  intro i hi
  obtain ⟨y, -, rfl⟩ := Finset.mem_map.mp hi
  rw [← View.write_univ_eq_writes_whole, View.writes_nil, View.write_emb_of_mem _ _ (Finset.mem_univ y)]
  have hy : Shape.reshapeEquiv (Shape.Squeezes.numel_eq squeezes_S1x128_S128) y = Fin.cons ⟨0, Nat.one_pos⟩ y :=
    Shape.reshapeEquiv_cons_one (d := ![128]) _ y
  have e0 : (((rowMo (rowOff l) (rowInb l)).view.emb y : S20x128.Idx) 0).val = l.val := by
    show rowOff l 0 + 1 * ((Shape.reshapeEquiv (Shape.Squeezes.numel_eq squeezes_S1x128_S128) y) 0).val = l.val
    rw [hy]; show l.val + 1 * 0 = l.val; omega
  have e1 : (((rowMo (rowOff l) (rowInb l)).view.emb y : S20x128.Idx) 1).val = (y 0).val := by
    show rowOff l 1 + 1 * ((Shape.reshapeEquiv (Shape.Squeezes.numel_eq squeezes_S1x128_S128) y) 1).val = (y 0).val
    rw [hy]; show 0 + 1 * (y 0).val = (y 0).val; omega
  show P l y = P ⟨_, _⟩ (ValueIdx.ix1 ⟨_, _⟩)
  congr 1
  · exact Fin.ext e0.symm
  · funext d; match d with | ⟨0, _⟩ => exact Fin.ext e1.symm

/-- So the row held at the written contents is the row held at the joined contents. -/
theorem row_to_joined (c : Dev nD) (l : Fin 20) (o : Fin 2 → ℕ) (h : ∀ a, o a + S1x128.size a ≤ S20x128.size a) (ho : o = rowOff l)
    (P : Fin 20 → S128.Idx → Elt F .f32) (f : Buf (Elt F) ((rowMo o h).view.loc (c : Thread nD τ))) :
    rowPt c o h ((rowMo o h).view.writes (Elt F) f [⟨Rect.whole S128, P l⟩]) ⊢ (rowPt c o h (joined P) : sProp 𝕄) :=
  Entails.of_eq (pointsTo_congr (row_agree c l o h ho P f))

/-- Twenty rows, each written whole with its payload, are the scratch at the joined contents. -/
theorem scratch_join (c : Dev nD)
    (f0 f1 f2 f3 f4 f5 f6 f7 f8 f9 f10 f11 f12 f13 f14 f15 f16 f17 f18 f19 : Buf (Elt F) (scM0_0.view.loc (c : Thread nD τ)))
    (p0 p1 p2 p3 p4 p5 p6 p7 p8 p9 p10 p11 p12 p13 p14 p15 p16 p17 p18 p19 : S128.Idx → Elt F .f32) :
    iprop(rowPt c ![0, 0] inb_S20x128_S1x128_0_0 ((rowMo ![0, 0] inb_S20x128_S1x128_0_0).view.writes (Elt F) f0 [⟨Rect.whole S128, p0⟩]) ∗ rowPt c ![1, 0] inb_S20x128_S1x128_1_0 ((rowMo ![1, 0] inb_S20x128_S1x128_1_0).view.writes (Elt F) f1 [⟨Rect.whole S128, p1⟩]) ∗ rowPt c ![2, 0] inb_S20x128_S1x128_2_0 ((rowMo ![2, 0] inb_S20x128_S1x128_2_0).view.writes (Elt F) f2 [⟨Rect.whole S128, p2⟩]) ∗ rowPt c ![3, 0] inb_S20x128_S1x128_3_0 ((rowMo ![3, 0] inb_S20x128_S1x128_3_0).view.writes (Elt F) f3 [⟨Rect.whole S128, p3⟩]) ∗ rowPt c ![4, 0] inb_S20x128_S1x128_4_0 ((rowMo ![4, 0] inb_S20x128_S1x128_4_0).view.writes (Elt F) f4 [⟨Rect.whole S128, p4⟩]) ∗ rowPt c ![5, 0] inb_S20x128_S1x128_5_0 ((rowMo ![5, 0] inb_S20x128_S1x128_5_0).view.writes (Elt F) f5 [⟨Rect.whole S128, p5⟩]) ∗ rowPt c ![6, 0] inb_S20x128_S1x128_6_0 ((rowMo ![6, 0] inb_S20x128_S1x128_6_0).view.writes (Elt F) f6 [⟨Rect.whole S128, p6⟩]) ∗ rowPt c ![7, 0] inb_S20x128_S1x128_7_0 ((rowMo ![7, 0] inb_S20x128_S1x128_7_0).view.writes (Elt F) f7 [⟨Rect.whole S128, p7⟩]) ∗ rowPt c ![8, 0] inb_S20x128_S1x128_8_0 ((rowMo ![8, 0] inb_S20x128_S1x128_8_0).view.writes (Elt F) f8 [⟨Rect.whole S128, p8⟩]) ∗ rowPt c ![9, 0] inb_S20x128_S1x128_9_0 ((rowMo ![9, 0] inb_S20x128_S1x128_9_0).view.writes (Elt F) f9 [⟨Rect.whole S128, p9⟩]) ∗ rowPt c ![10, 0] inb_S20x128_S1x128_10_0 ((rowMo ![10, 0] inb_S20x128_S1x128_10_0).view.writes (Elt F) f10 [⟨Rect.whole S128, p10⟩]) ∗ rowPt c ![11, 0] inb_S20x128_S1x128_11_0 ((rowMo ![11, 0] inb_S20x128_S1x128_11_0).view.writes (Elt F) f11 [⟨Rect.whole S128, p11⟩]) ∗ rowPt c ![12, 0] inb_S20x128_S1x128_12_0 ((rowMo ![12, 0] inb_S20x128_S1x128_12_0).view.writes (Elt F) f12 [⟨Rect.whole S128, p12⟩]) ∗ rowPt c ![13, 0] inb_S20x128_S1x128_13_0 ((rowMo ![13, 0] inb_S20x128_S1x128_13_0).view.writes (Elt F) f13 [⟨Rect.whole S128, p13⟩]) ∗ rowPt c ![14, 0] inb_S20x128_S1x128_14_0 ((rowMo ![14, 0] inb_S20x128_S1x128_14_0).view.writes (Elt F) f14 [⟨Rect.whole S128, p14⟩]) ∗ rowPt c ![15, 0] inb_S20x128_S1x128_15_0 ((rowMo ![15, 0] inb_S20x128_S1x128_15_0).view.writes (Elt F) f15 [⟨Rect.whole S128, p15⟩]) ∗ rowPt c ![16, 0] inb_S20x128_S1x128_16_0 ((rowMo ![16, 0] inb_S20x128_S1x128_16_0).view.writes (Elt F) f16 [⟨Rect.whole S128, p16⟩]) ∗ rowPt c ![17, 0] inb_S20x128_S1x128_17_0 ((rowMo ![17, 0] inb_S20x128_S1x128_17_0).view.writes (Elt F) f17 [⟨Rect.whole S128, p17⟩]) ∗ rowPt c ![18, 0] inb_S20x128_S1x128_18_0 ((rowMo ![18, 0] inb_S20x128_S1x128_18_0).view.writes (Elt F) f18 [⟨Rect.whole S128, p18⟩]) ∗ rowPt c ![19, 0] inb_S20x128_S1x128_19_0 ((rowMo ![19, 0] inb_S20x128_S1x128_19_0).view.writes (Elt F) f19 [⟨Rect.whole S128, p19⟩]))
      ⊢ (scM0_0.view.loc (c : Thread nD τ) ↦[scM0_0.view.set]{fullShare} joined ![p0, p1, p2, p3, p4, p5, p6, p7, p8, p9, p10, p11, p12, p13, p14, p15, p16, p17, p18, p19] : sProp 𝕄) := by
  rw [scratch_split c (joined ![p0, p1, p2, p3, p4, p5, p6, p7, p8, p9, p10, p11, p12, p13, p14, p15, p16, p17, p18, p19])]
  iintro ⟨H0, H1, H2, H3, H4, H5, H6, H7, H8, H9, H10, H11, H12, H13, H14, H15, H16, H17, H18, H19⟩
  isplitl [H0]; · iapply (row_to_joined c 0 ![0, 0] inb_S20x128_S1x128_0_0 rfl ![p0, p1, p2, p3, p4, p5, p6, p7, p8, p9, p10, p11, p12, p13, p14, p15, p16, p17, p18, p19] f0); iexact H0
  isplitl [H1]; · iapply (row_to_joined c 1 ![1, 0] inb_S20x128_S1x128_1_0 rfl ![p0, p1, p2, p3, p4, p5, p6, p7, p8, p9, p10, p11, p12, p13, p14, p15, p16, p17, p18, p19] f1); iexact H1
  isplitl [H2]; · iapply (row_to_joined c 2 ![2, 0] inb_S20x128_S1x128_2_0 rfl ![p0, p1, p2, p3, p4, p5, p6, p7, p8, p9, p10, p11, p12, p13, p14, p15, p16, p17, p18, p19] f2); iexact H2
  isplitl [H3]; · iapply (row_to_joined c 3 ![3, 0] inb_S20x128_S1x128_3_0 rfl ![p0, p1, p2, p3, p4, p5, p6, p7, p8, p9, p10, p11, p12, p13, p14, p15, p16, p17, p18, p19] f3); iexact H3
  isplitl [H4]; · iapply (row_to_joined c 4 ![4, 0] inb_S20x128_S1x128_4_0 rfl ![p0, p1, p2, p3, p4, p5, p6, p7, p8, p9, p10, p11, p12, p13, p14, p15, p16, p17, p18, p19] f4); iexact H4
  isplitl [H5]; · iapply (row_to_joined c 5 ![5, 0] inb_S20x128_S1x128_5_0 rfl ![p0, p1, p2, p3, p4, p5, p6, p7, p8, p9, p10, p11, p12, p13, p14, p15, p16, p17, p18, p19] f5); iexact H5
  isplitl [H6]; · iapply (row_to_joined c 6 ![6, 0] inb_S20x128_S1x128_6_0 rfl ![p0, p1, p2, p3, p4, p5, p6, p7, p8, p9, p10, p11, p12, p13, p14, p15, p16, p17, p18, p19] f6); iexact H6
  isplitl [H7]; · iapply (row_to_joined c 7 ![7, 0] inb_S20x128_S1x128_7_0 rfl ![p0, p1, p2, p3, p4, p5, p6, p7, p8, p9, p10, p11, p12, p13, p14, p15, p16, p17, p18, p19] f7); iexact H7
  isplitl [H8]; · iapply (row_to_joined c 8 ![8, 0] inb_S20x128_S1x128_8_0 rfl ![p0, p1, p2, p3, p4, p5, p6, p7, p8, p9, p10, p11, p12, p13, p14, p15, p16, p17, p18, p19] f8); iexact H8
  isplitl [H9]; · iapply (row_to_joined c 9 ![9, 0] inb_S20x128_S1x128_9_0 rfl ![p0, p1, p2, p3, p4, p5, p6, p7, p8, p9, p10, p11, p12, p13, p14, p15, p16, p17, p18, p19] f9); iexact H9
  isplitl [H10]; · iapply (row_to_joined c 10 ![10, 0] inb_S20x128_S1x128_10_0 rfl ![p0, p1, p2, p3, p4, p5, p6, p7, p8, p9, p10, p11, p12, p13, p14, p15, p16, p17, p18, p19] f10); iexact H10
  isplitl [H11]; · iapply (row_to_joined c 11 ![11, 0] inb_S20x128_S1x128_11_0 rfl ![p0, p1, p2, p3, p4, p5, p6, p7, p8, p9, p10, p11, p12, p13, p14, p15, p16, p17, p18, p19] f11); iexact H11
  isplitl [H12]; · iapply (row_to_joined c 12 ![12, 0] inb_S20x128_S1x128_12_0 rfl ![p0, p1, p2, p3, p4, p5, p6, p7, p8, p9, p10, p11, p12, p13, p14, p15, p16, p17, p18, p19] f12); iexact H12
  isplitl [H13]; · iapply (row_to_joined c 13 ![13, 0] inb_S20x128_S1x128_13_0 rfl ![p0, p1, p2, p3, p4, p5, p6, p7, p8, p9, p10, p11, p12, p13, p14, p15, p16, p17, p18, p19] f13); iexact H13
  isplitl [H14]; · iapply (row_to_joined c 14 ![14, 0] inb_S20x128_S1x128_14_0 rfl ![p0, p1, p2, p3, p4, p5, p6, p7, p8, p9, p10, p11, p12, p13, p14, p15, p16, p17, p18, p19] f14); iexact H14
  isplitl [H15]; · iapply (row_to_joined c 15 ![15, 0] inb_S20x128_S1x128_15_0 rfl ![p0, p1, p2, p3, p4, p5, p6, p7, p8, p9, p10, p11, p12, p13, p14, p15, p16, p17, p18, p19] f15); iexact H15
  isplitl [H16]; · iapply (row_to_joined c 16 ![16, 0] inb_S20x128_S1x128_16_0 rfl ![p0, p1, p2, p3, p4, p5, p6, p7, p8, p9, p10, p11, p12, p13, p14, p15, p16, p17, p18, p19] f16); iexact H16
  isplitl [H17]; · iapply (row_to_joined c 17 ![17, 0] inb_S20x128_S1x128_17_0 rfl ![p0, p1, p2, p3, p4, p5, p6, p7, p8, p9, p10, p11, p12, p13, p14, p15, p16, p17, p18, p19] f17); iexact H17
  isplitl [H18]; · iapply (row_to_joined c 18 ![18, 0] inb_S20x128_S1x128_18_0 rfl ![p0, p1, p2, p3, p4, p5, p6, p7, p8, p9, p10, p11, p12, p13, p14, p15, p16, p17, p18, p19] f18); iexact H18
  iapply (row_to_joined c 19 ![19, 0] inb_S20x128_S1x128_19_0 rfl ![p0, p1, p2, p3, p4, p5, p6, p7, p8, p9, p10, p11, p12, p13, p14, p15, p16, p17, p18, p19] f19); iexact H19

end Cert.KernelIdeal.Fr

end
-- ==== Proof.KernelIdealFr.Toks.lean ====
/-
  The weight table read by twenty copies at once. A buffer held at the full share is held at a remainder share and at
  one read share per transfer cell; the body's cells are numbers 5 to 24, so the table is the remainder with the five
  shares no cell uses, and the twenty shares the copies read through. The two ways round.
-/
import proofs.«409180_j48619029790893_3_alg».proof.Proof.KernelIdealFr.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The weight table held at the read share of cell `k`. -/
abbrev hbTok0 (c : Dev nD) (k : Fin 25) (f : HbBuf0 (F := F) c hbM0_0) : sProp 𝕄 :=
  hbM0_0.view.loc (c : Thread nD τ) ↦{Transfers.shareTok fullShare 25 k} f
/-- The twenty shares the copies read through. -/
abbrev toksAt (c : Dev nD) (fh0 : HbBuf0 (F := F) c hbM0_0) : sProp 𝕄 := iprop(hbTok0 c 5 fh0 ∗ hbTok0 c 6 fh0 ∗ hbTok0 c 7 fh0 ∗ hbTok0 c 8 fh0 ∗ hbTok0 c 9 fh0 ∗ hbTok0 c 10 fh0 ∗ hbTok0 c 11 fh0 ∗ hbTok0 c 12 fh0 ∗ hbTok0 c 13 fh0 ∗ hbTok0 c 14 fh0 ∗ hbTok0 c 15 fh0 ∗ hbTok0 c 16 fh0 ∗ hbTok0 c 17 fh0 ∗ hbTok0 c 18 fh0 ∗ hbTok0 c 19 fh0 ∗ hbTok0 c 20 fh0 ∗ hbTok0 c 21 fh0 ∗ hbTok0 c 22 fh0 ∗ hbTok0 c 23 fh0 ∗ hbTok0 c 24 fh0)
/-- What stays aside: the remainder share and the five shares no cell of the body indexes. -/
abbrev hbRest (c : Dev nD) (f : HbBuf0 (F := F) c hbM0_0) : sProp 𝕄 :=
  iprop((hbM0_0.view.loc (c : Thread nD τ) ↦{Transfers.shareDrop fullShare 25} f) ∗ hbTok0 c 0 f ∗ hbTok0 c 1 f ∗ hbTok0 c 2 f ∗ hbTok0 c 3 f ∗ hbTok0 c 4 f)

/-- Twenty-five conjuncts, listed. -/
theorem toks_list (Φ : Fin 25 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) :=
  bigSep_univ_eq_bigSepL [0, 1, 2, 3, 4, 5, 6, 7, 8, 9, 10, 11, 12, 13, 14, 15, 16, 17, 18, 19, 20, 21, 22, 23, 24] (by decide) (by decide) Φ

/-- The table at the full share, split. -/
theorem toks_split (c : Dev nD) (f : HbBuf0 (F := F) c hbM0_0) : hbPt0 c hbM0_0 f ⊢ iprop(hbRest c f ∗ toksAt c f) := by
  refine (Transfers.pointsTo_toks_split (Ix := Unit) (Name := ℕ) (U := Pipeline.UD sig nD τ) (Lvl := ℕ) fullShare 25).trans ?_
  rw [toks_list]
  iintro ⟨Hd, T0, T1, T2, T3, T4, T5, T6, T7, T8, T9, T10, T11, T12, T13, T14, T15, T16, T17, T18, T19, T20, T21, T22, T23, T24⟩
  isplitl [Hd T0 T1 T2 T3 T4]
  · isplitl [Hd]; · iexact Hd
    isplitl [T0]; · iexact T0
    isplitl [T1]; · iexact T1
    isplitl [T2]; · iexact T2
    isplitl [T3]; · iexact T3
    iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  iexact T24

/-- And joined again. -/
theorem toks_join (c : Dev nD) (f : HbBuf0 (F := F) c hbM0_0) : iprop(hbRest c f ∗ toksAt c f) ⊢ hbPt0 c hbM0_0 f := by
  refine .trans ?_ (Transfers.pointsTo_toks_join (Ix := Unit) (Name := ℕ) (U := Pipeline.UD sig nD τ) (Lvl := ℕ) fullShare 25)
  rw [toks_list]
  iintro ⟨⟨Hd, T0, T1, T2, T3, T4⟩, T5, T6, T7, T8, T9, T10, T11, T12, T13, T14, T15, T16, T17, T18, T19, T20, T21, T22, T23, T24⟩
  isplitl [Hd]; · iexact Hd
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  iexact T24

end Cert.KernelIdeal.Fr

end
-- ==== Proof.KernelIdealFr.Run.lean ====
/-
  The kernel body run once, on whole staging memrefs: the twenty path words are read from the table, each in range
  by hypothesis; twenty row copies leave the weight table for the twenty rows of the scratch, each on its own cell,
  all outstanding together — the table is read through one share per cell, each row of the scratch is held on its
  own — and all waited for before anything is loaded; the rows then join to the scratch whole, the block of `xw`, the
  scratch and the code column are loaded, and one store covers the output block.
-/
import proofs.«409180_j48619029790893_3_alg».proof.Proof.KernelIdealFr.Rows
import proofs.«409180_j48619029790893_3_alg».proof.Proof.KernelIdealFr.Toks

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The twenty cells at zero. -/
abbrev semsAt0 (c : Dev nD) : sProp 𝕄 := iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0)

set_option maxHeartbeats 4000000 in
/-- What the body's store leaves in the output's staging memref, as pieces, with the proof that the body runs to its
    continuation holding the inputs as they were, the scratch at some contents, the table, the cells at zero and the
    weight table as they were, and the output's buffer with the pieces written. -/
noncomputable def kernelRun0_A (c : Dev nD) (i : grid0.Coords) (arg2 : Memref sig .tc .vmem S4096x128 .f32) (harg2 : arg2.IsWhole) (arg4 : Memref sig .tc .vmem S20x1 .f32) (harg4 : arg4.IsWhole) (arg5 : Memref sig .tc .vmem S1x4096 .f32) (harg5 : arg5.IsWhole)
    (x0 : Vec F S4096x128 .f32) (x1 : Vec F S20x1 .f32) (xt0 : TbBuf0 (F := F) c tbM0_0) (fh0 : HbBuf0 (F := F) c hbM0_0)
    (k0_hw1 : k0_chk1 (tbM0_0.view.readAt (Elt F) (Rect.unit (s := S20) ![0] S1.size inb_S20_S1_0).toLoadRect xt0 (Shape.Idx.first (numel1_S1.symm ▸ Nat.one_pos)))) (k0_hw2 : k0_chk2 (tbM0_0.view.readAt (Elt F) (Rect.unit (s := S20) ![1] S1.size inb_S20_S1_1).toLoadRect xt0 (Shape.Idx.first (numel1_S1.symm ▸ Nat.one_pos)))) (k0_hw3 : k0_chk3 (tbM0_0.view.readAt (Elt F) (Rect.unit (s := S20) ![2] S1.size inb_S20_S1_2).toLoadRect xt0 (Shape.Idx.first (numel1_S1.symm ▸ Nat.one_pos)))) (k0_hw4 : k0_chk4 (tbM0_0.view.readAt (Elt F) (Rect.unit (s := S20) ![3] S1.size inb_S20_S1_3).toLoadRect xt0 (Shape.Idx.first (numel1_S1.symm ▸ Nat.one_pos)))) (k0_hw5 : k0_chk5 (tbM0_0.view.readAt (Elt F) (Rect.unit (s := S20) ![4] S1.size inb_S20_S1_4).toLoadRect xt0 (Shape.Idx.first (numel1_S1.symm ▸ Nat.one_pos)))) (k0_hw6 : k0_chk6 (tbM0_0.view.readAt (Elt F) (Rect.unit (s := S20) ![5] S1.size inb_S20_S1_5).toLoadRect xt0 (Shape.Idx.first (numel1_S1.symm ▸ Nat.one_pos)))) (k0_hw7 : k0_chk7 (tbM0_0.view.readAt (Elt F) (Rect.unit (s := S20) ![6] S1.size inb_S20_S1_6).toLoadRect xt0 (Shape.Idx.first (numel1_S1.symm ▸ Nat.one_pos)))) (k0_hw8 : k0_chk8 (tbM0_0.view.readAt (Elt F) (Rect.unit (s := S20) ![7] S1.size inb_S20_S1_7).toLoadRect xt0 (Shape.Idx.first (numel1_S1.symm ▸ Nat.one_pos)))) (k0_hw9 : k0_chk9 (tbM0_0.view.readAt (Elt F) (Rect.unit (s := S20) ![8] S1.size inb_S20_S1_8).toLoadRect xt0 (Shape.Idx.first (numel1_S1.symm ▸ Nat.one_pos)))) (k0_hw10 : k0_chk10 (tbM0_0.view.readAt (Elt F) (Rect.unit (s := S20) ![9] S1.size inb_S20_S1_9).toLoadRect xt0 (Shape.Idx.first (numel1_S1.symm ▸ Nat.one_pos)))) (k0_hw11 : k0_chk11 (tbM0_0.view.readAt (Elt F) (Rect.unit (s := S20) ![10] S1.size inb_S20_S1_10).toLoadRect xt0 (Shape.Idx.first (numel1_S1.symm ▸ Nat.one_pos)))) (k0_hw12 : k0_chk12 (tbM0_0.view.readAt (Elt F) (Rect.unit (s := S20) ![11] S1.size inb_S20_S1_11).toLoadRect xt0 (Shape.Idx.first (numel1_S1.symm ▸ Nat.one_pos)))) (k0_hw13 : k0_chk13 (tbM0_0.view.readAt (Elt F) (Rect.unit (s := S20) ![12] S1.size inb_S20_S1_12).toLoadRect xt0 (Shape.Idx.first (numel1_S1.symm ▸ Nat.one_pos)))) (k0_hw14 : k0_chk14 (tbM0_0.view.readAt (Elt F) (Rect.unit (s := S20) ![13] S1.size inb_S20_S1_13).toLoadRect xt0 (Shape.Idx.first (numel1_S1.symm ▸ Nat.one_pos)))) (k0_hw15 : k0_chk15 (tbM0_0.view.readAt (Elt F) (Rect.unit (s := S20) ![14] S1.size inb_S20_S1_14).toLoadRect xt0 (Shape.Idx.first (numel1_S1.symm ▸ Nat.one_pos)))) (k0_hw16 : k0_chk16 (tbM0_0.view.readAt (Elt F) (Rect.unit (s := S20) ![15] S1.size inb_S20_S1_15).toLoadRect xt0 (Shape.Idx.first (numel1_S1.symm ▸ Nat.one_pos)))) (k0_hw17 : k0_chk17 (tbM0_0.view.readAt (Elt F) (Rect.unit (s := S20) ![16] S1.size inb_S20_S1_16).toLoadRect xt0 (Shape.Idx.first (numel1_S1.symm ▸ Nat.one_pos)))) (k0_hw18 : k0_chk18 (tbM0_0.view.readAt (Elt F) (Rect.unit (s := S20) ![17] S1.size inb_S20_S1_17).toLoadRect xt0 (Shape.Idx.first (numel1_S1.symm ▸ Nat.one_pos)))) (k0_hw19 : k0_chk19 (tbM0_0.view.readAt (Elt F) (Rect.unit (s := S20) ![18] S1.size inb_S20_S1_18).toLoadRect xt0 (Shape.Idx.first (numel1_S1.symm ▸ Nat.one_pos)))) (k0_hw20 : k0_chk20 (tbM0_0.view.readAt (Elt F) (Rect.unit (s := S20) ![19] S1.size inb_S20_S1_19).toLoadRect xt0 (Shape.Idx.first (numel1_S1.symm ▸ Nat.one_pos)))) :
    { L2 : List (View.Piece (Elt F) S1x4096 .f32) //
      ∀ (W : Waits sig Unit) (K : PUnit → sProp 𝕄),
        iprop(owns (c : Thread nD τ) arg2 fullShare x0 ∗ owns (c : Thread nD τ) arg4 fullShare x1 ∗ (∃ d, owns (c : Thread nD τ) arg5 fullShare d) ∗ (∃ d, owns (c : Thread nD τ) scM0_0 fullShare d) ∗ tbPt0 c tbM0_0 xt0
            ∗ semsAt0 c ∗ hbPt0 c hbM0_0 fh0 ∗ owes (c : Thread nD τ) 0 W
            ∗ (iprop(owns (c : Thread nD τ) arg2 fullShare x0 ∗ owns (c : Thread nD τ) arg4 fullShare x1 ∗ (∃ f, arg5.view.loc (c : Thread nD τ) ↦[arg5.view.set]{fullShare} arg5.view.writes (Elt F) f L2) ∗ (∃ d, owns (c : Thread nD τ) scM0_0 fullShare d) ∗ tbPt0 c tbM0_0 xt0
                ∗ semsAt0 c ∗ hbPt0 c hbM0_0 fh0 ∗ (∃ W', owes (c : Thread nD τ) 0 W')) -∗ K ⟨⟩))
          ⊢ wp frame (wpE (defs₀ (F := F)) Variants.none c none) Set.univ (cc0__hierarch_kernel i tbM0_0 htbM0_0 arg2 harg2 hbM0_0 (Memref.isWhole_whole _) arg4 harg4 arg5 harg5 scM0_0 (Memref.isWhole_whole _) cc0_scratch1) K } := by
  refine ⟨?_, fun W K => ?run⟩
  case run =>
    simp only [cc0__hierarch_kernel_eq_skeleton]; unfold cc0__hierarch_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%d2, %f2, -, H2⟩, ⟨%ds0, %fs0, -, HS0⟩, HT0, ⟨Hq0, Hq1, Hq2, Hq3, Hq4, Hq5, Hq6, Hq7, Hq8, Hq9, Hq10, Hq11, Hq12, Hq13, Hq14, Hq15, Hq16, Hq17, Hq18, Hq19⟩, Hh0, HW, Hk⟩
    obtain rfl := harg2.eq_unread hf0
    obtain rfl := harg4.eq_unread hf1
    -- the scratch row by row, the weight table share by share
    ihave HR := (Entails.of_eq (scratch_split c fs0)) $$ HS0
    icases HR with ⟨HR0, HR1, HR2, HR3, HR4, HR5, HR6, HR7, HR8, HR9, HR10, HR11, HR12, HR13, HR14, HR15, HR16, HR17, HR18, HR19⟩
    ihave HTk := (toks_split c fh0) $$ Hh0
    icases HTk with ⟨Hrest, Ht0, Ht1, Ht2, Ht3, Ht4, Ht5, Ht6, Ht7, Ht8, Ht9, Ht10, Ht11, Ht12, Ht13, Ht14, Ht15, Ht16, Ht17, Ht18, Ht19⟩
    sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20)
    -- the twenty rows, each holding its copy's payload, are the scratch whole
    ihave HS := (scratch_join c fs0 fs0 fs0 fs0 fs0 fs0 fs0 fs0 fs0 fs0 fs0 fs0 fs0 fs0 fs0 fs0 fs0 fs0 fs0 fs0 _ _ _ _ _ _ _ _ _ _ _ _ _ _ _ _ _ _ _ _) $$ [HR0 HR1 HR2 HR3 HR4 HR5 HR6 HR7 HR8 HR9 HR10 HR11 HR12 HR13 HR14 HR15 HR16 HR17 HR18 HR19]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      iexact HR19
    sl_exec
    sl_step
    iapply Hk
    isplitl [H0]
    · iexists _; isplitr; · ipureintro; exact harg2.read_unread _
      iexact H0
    isplitl [H1]
    · iexists _; isplitr; · ipureintro; exact harg4.read_unread _
      iexact H1
    isplitl [H2]; · iexists _; iexact H2
    isplitl [HS]
    · iexists _, _; isplitr; swap; · iexact HS
      ipureintro; rfl
    isplitl [HT0]; · iexact HT0
    isplitl [Hq0 Hq1 Hq2 Hq3 Hq4 Hq5 Hq6 Hq7 Hq8 Hq9 Hq10 Hq11 Hq12 Hq13 Hq14 Hq15 Hq16 Hq17 Hq18 Hq19]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      iexact Hq19
    isplitl [Hrest Ht0 Ht1 Ht2 Ht3 Ht4 Ht5 Ht6 Ht7 Ht8 Ht9 Ht10 Ht11 Ht12 Ht13 Ht14 Ht15 Ht16 Ht17 Ht18 Ht19]
    · iapply (toks_join c fh0)
      isplitl [Hrest]; · iexact Hrest
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      isplitl [Ht13]; · iexact Ht13
      isplitl [Ht14]; · iexact Ht14
      isplitl [Ht15]; · iexact Ht15
      isplitl [Ht16]; · iexact Ht16
      isplitl [Ht17]; · iexact Ht17
      isplitl [Ht18]; · iexact Ht18
      iexact Ht19
    iexists _; iexact HW

end Cert.KernelIdeal.Fr

end
-- ==== Proof.KernelIdealFr.Frame.lean ====
/-
  The frame of the launch. The body's side conditions — each path word names a row of the weight table — are a
  hypothesis on the table's contents at the region's entry. Under it the body runs at every grid point from the
  invariant (the scratch at some contents, the twenty cells at zero, the weight table and the path table at their
  entry contents) back to the invariant, leaves the two input blocks in place and covers the output block by one
  store; so every weakly fair execution of @main terminates, the result array holds what the points wrote back,
  reshaped by the one host operation after the region, and every argument array ends as it began.
-/
import proofs.«409180_j48619029790893_3_alg».proof.Proof.KernelIdealFr.Run
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The side conditions the body assumes, over the table's words at the region's entry: word `l` names a row of the
    weight table. -/
structure Hyps (m : (ℓ : Loc nD τ sig) → Buf (Elt F) ℓ) : Prop where
  h1 : k0_chk1 (tbM0_0.view.readAt (Elt F) (Rect.unit (s := S20) ![0] S1.size inb_S20_S1_0).toLoadRect (tbl m 0) (Shape.Idx.first (numel1_S1.symm ▸ Nat.one_pos)))
  h2 : k0_chk2 (tbM0_0.view.readAt (Elt F) (Rect.unit (s := S20) ![1] S1.size inb_S20_S1_1).toLoadRect (tbl m 0) (Shape.Idx.first (numel1_S1.symm ▸ Nat.one_pos)))
  h3 : k0_chk3 (tbM0_0.view.readAt (Elt F) (Rect.unit (s := S20) ![2] S1.size inb_S20_S1_2).toLoadRect (tbl m 0) (Shape.Idx.first (numel1_S1.symm ▸ Nat.one_pos)))
  h4 : k0_chk4 (tbM0_0.view.readAt (Elt F) (Rect.unit (s := S20) ![3] S1.size inb_S20_S1_3).toLoadRect (tbl m 0) (Shape.Idx.first (numel1_S1.symm ▸ Nat.one_pos)))
  h5 : k0_chk5 (tbM0_0.view.readAt (Elt F) (Rect.unit (s := S20) ![4] S1.size inb_S20_S1_4).toLoadRect (tbl m 0) (Shape.Idx.first (numel1_S1.symm ▸ Nat.one_pos)))
  h6 : k0_chk6 (tbM0_0.view.readAt (Elt F) (Rect.unit (s := S20) ![5] S1.size inb_S20_S1_5).toLoadRect (tbl m 0) (Shape.Idx.first (numel1_S1.symm ▸ Nat.one_pos)))
  h7 : k0_chk7 (tbM0_0.view.readAt (Elt F) (Rect.unit (s := S20) ![6] S1.size inb_S20_S1_6).toLoadRect (tbl m 0) (Shape.Idx.first (numel1_S1.symm ▸ Nat.one_pos)))
  h8 : k0_chk8 (tbM0_0.view.readAt (Elt F) (Rect.unit (s := S20) ![7] S1.size inb_S20_S1_7).toLoadRect (tbl m 0) (Shape.Idx.first (numel1_S1.symm ▸ Nat.one_pos)))
  h9 : k0_chk9 (tbM0_0.view.readAt (Elt F) (Rect.unit (s := S20) ![8] S1.size inb_S20_S1_8).toLoadRect (tbl m 0) (Shape.Idx.first (numel1_S1.symm ▸ Nat.one_pos)))
  h10 : k0_chk10 (tbM0_0.view.readAt (Elt F) (Rect.unit (s := S20) ![9] S1.size inb_S20_S1_9).toLoadRect (tbl m 0) (Shape.Idx.first (numel1_S1.symm ▸ Nat.one_pos)))
  h11 : k0_chk11 (tbM0_0.view.readAt (Elt F) (Rect.unit (s := S20) ![10] S1.size inb_S20_S1_10).toLoadRect (tbl m 0) (Shape.Idx.first (numel1_S1.symm ▸ Nat.one_pos)))
  h12 : k0_chk12 (tbM0_0.view.readAt (Elt F) (Rect.unit (s := S20) ![11] S1.size inb_S20_S1_11).toLoadRect (tbl m 0) (Shape.Idx.first (numel1_S1.symm ▸ Nat.one_pos)))
  h13 : k0_chk13 (tbM0_0.view.readAt (Elt F) (Rect.unit (s := S20) ![12] S1.size inb_S20_S1_12).toLoadRect (tbl m 0) (Shape.Idx.first (numel1_S1.symm ▸ Nat.one_pos)))
  h14 : k0_chk14 (tbM0_0.view.readAt (Elt F) (Rect.unit (s := S20) ![13] S1.size inb_S20_S1_13).toLoadRect (tbl m 0) (Shape.Idx.first (numel1_S1.symm ▸ Nat.one_pos)))
  h15 : k0_chk15 (tbM0_0.view.readAt (Elt F) (Rect.unit (s := S20) ![14] S1.size inb_S20_S1_14).toLoadRect (tbl m 0) (Shape.Idx.first (numel1_S1.symm ▸ Nat.one_pos)))
  h16 : k0_chk16 (tbM0_0.view.readAt (Elt F) (Rect.unit (s := S20) ![15] S1.size inb_S20_S1_15).toLoadRect (tbl m 0) (Shape.Idx.first (numel1_S1.symm ▸ Nat.one_pos)))
  h17 : k0_chk17 (tbM0_0.view.readAt (Elt F) (Rect.unit (s := S20) ![16] S1.size inb_S20_S1_16).toLoadRect (tbl m 0) (Shape.Idx.first (numel1_S1.symm ▸ Nat.one_pos)))
  h18 : k0_chk18 (tbM0_0.view.readAt (Elt F) (Rect.unit (s := S20) ![17] S1.size inb_S20_S1_17).toLoadRect (tbl m 0) (Shape.Idx.first (numel1_S1.symm ▸ Nat.one_pos)))
  h19 : k0_chk19 (tbM0_0.view.readAt (Elt F) (Rect.unit (s := S20) ![18] S1.size inb_S20_S1_18).toLoadRect (tbl m 0) (Shape.Idx.first (numel1_S1.symm ▸ Nat.one_pos)))
  h20 : k0_chk20 (tbM0_0.view.readAt (Elt F) (Rect.unit (s := S20) ![19] S1.size inb_S20_S1_19).toLoadRect (tbl m 0) (Shape.Idx.first (numel1_S1.symm ▸ Nat.one_pos)))

/-- The run's one piece is a store of the whole output block, so the pieces cover it. -/
theorem cover0_A_2 (c : Dev nD) (i : grid0.Coords) (arg2 : Memref sig .tc .vmem S4096x128 .f32) (harg2 : arg2.IsWhole) (arg4 : Memref sig .tc .vmem S20x1 .f32) (harg4 : arg4.IsWhole) (arg5 : Memref sig .tc .vmem S1x4096 .f32) (harg5 : arg5.IsWhole)
    (x0 : Vec F S4096x128 .f32) (x1 : Vec F S20x1 .f32) (xt0 : TbBuf0 (F := F) c tbM0_0) (fh0 : HbBuf0 (F := F) c hbM0_0)
    (k0_hw1 : k0_chk1 (tbM0_0.view.readAt (Elt F) (Rect.unit (s := S20) ![0] S1.size inb_S20_S1_0).toLoadRect xt0 (Shape.Idx.first (numel1_S1.symm ▸ Nat.one_pos)))) (k0_hw2 : k0_chk2 (tbM0_0.view.readAt (Elt F) (Rect.unit (s := S20) ![1] S1.size inb_S20_S1_1).toLoadRect xt0 (Shape.Idx.first (numel1_S1.symm ▸ Nat.one_pos)))) (k0_hw3 : k0_chk3 (tbM0_0.view.readAt (Elt F) (Rect.unit (s := S20) ![2] S1.size inb_S20_S1_2).toLoadRect xt0 (Shape.Idx.first (numel1_S1.symm ▸ Nat.one_pos)))) (k0_hw4 : k0_chk4 (tbM0_0.view.readAt (Elt F) (Rect.unit (s := S20) ![3] S1.size inb_S20_S1_3).toLoadRect xt0 (Shape.Idx.first (numel1_S1.symm ▸ Nat.one_pos)))) (k0_hw5 : k0_chk5 (tbM0_0.view.readAt (Elt F) (Rect.unit (s := S20) ![4] S1.size inb_S20_S1_4).toLoadRect xt0 (Shape.Idx.first (numel1_S1.symm ▸ Nat.one_pos)))) (k0_hw6 : k0_chk6 (tbM0_0.view.readAt (Elt F) (Rect.unit (s := S20) ![5] S1.size inb_S20_S1_5).toLoadRect xt0 (Shape.Idx.first (numel1_S1.symm ▸ Nat.one_pos)))) (k0_hw7 : k0_chk7 (tbM0_0.view.readAt (Elt F) (Rect.unit (s := S20) ![6] S1.size inb_S20_S1_6).toLoadRect xt0 (Shape.Idx.first (numel1_S1.symm ▸ Nat.one_pos)))) (k0_hw8 : k0_chk8 (tbM0_0.view.readAt (Elt F) (Rect.unit (s := S20) ![7] S1.size inb_S20_S1_7).toLoadRect xt0 (Shape.Idx.first (numel1_S1.symm ▸ Nat.one_pos)))) (k0_hw9 : k0_chk9 (tbM0_0.view.readAt (Elt F) (Rect.unit (s := S20) ![8] S1.size inb_S20_S1_8).toLoadRect xt0 (Shape.Idx.first (numel1_S1.symm ▸ Nat.one_pos)))) (k0_hw10 : k0_chk10 (tbM0_0.view.readAt (Elt F) (Rect.unit (s := S20) ![9] S1.size inb_S20_S1_9).toLoadRect xt0 (Shape.Idx.first (numel1_S1.symm ▸ Nat.one_pos)))) (k0_hw11 : k0_chk11 (tbM0_0.view.readAt (Elt F) (Rect.unit (s := S20) ![10] S1.size inb_S20_S1_10).toLoadRect xt0 (Shape.Idx.first (numel1_S1.symm ▸ Nat.one_pos)))) (k0_hw12 : k0_chk12 (tbM0_0.view.readAt (Elt F) (Rect.unit (s := S20) ![11] S1.size inb_S20_S1_11).toLoadRect xt0 (Shape.Idx.first (numel1_S1.symm ▸ Nat.one_pos)))) (k0_hw13 : k0_chk13 (tbM0_0.view.readAt (Elt F) (Rect.unit (s := S20) ![12] S1.size inb_S20_S1_12).toLoadRect xt0 (Shape.Idx.first (numel1_S1.symm ▸ Nat.one_pos)))) (k0_hw14 : k0_chk14 (tbM0_0.view.readAt (Elt F) (Rect.unit (s := S20) ![13] S1.size inb_S20_S1_13).toLoadRect xt0 (Shape.Idx.first (numel1_S1.symm ▸ Nat.one_pos)))) (k0_hw15 : k0_chk15 (tbM0_0.view.readAt (Elt F) (Rect.unit (s := S20) ![14] S1.size inb_S20_S1_14).toLoadRect xt0 (Shape.Idx.first (numel1_S1.symm ▸ Nat.one_pos)))) (k0_hw16 : k0_chk16 (tbM0_0.view.readAt (Elt F) (Rect.unit (s := S20) ![15] S1.size inb_S20_S1_15).toLoadRect xt0 (Shape.Idx.first (numel1_S1.symm ▸ Nat.one_pos)))) (k0_hw17 : k0_chk17 (tbM0_0.view.readAt (Elt F) (Rect.unit (s := S20) ![16] S1.size inb_S20_S1_16).toLoadRect xt0 (Shape.Idx.first (numel1_S1.symm ▸ Nat.one_pos)))) (k0_hw18 : k0_chk18 (tbM0_0.view.readAt (Elt F) (Rect.unit (s := S20) ![17] S1.size inb_S20_S1_17).toLoadRect xt0 (Shape.Idx.first (numel1_S1.symm ▸ Nat.one_pos)))) (k0_hw19 : k0_chk19 (tbM0_0.view.readAt (Elt F) (Rect.unit (s := S20) ![18] S1.size inb_S20_S1_18).toLoadRect xt0 (Shape.Idx.first (numel1_S1.symm ▸ Nat.one_pos)))) (k0_hw20 : k0_chk20 (tbM0_0.view.readAt (Elt F) (Rect.unit (s := S20) ![19] S1.size inb_S20_S1_19).toLoadRect xt0 (Shape.Idx.first (numel1_S1.symm ▸ Nat.one_pos)))) (y : S1x4096.Idx) :
    ∃ pc ∈ (kernelRun0_A c i arg2 harg2 arg4 harg4 arg5 harg5 x0 x1 xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20).1, y ∈ pc.1.set :=
  View.cover_of_tiledL (kernelRun0_A c i arg2 harg2 arg4 harg4 arg5 harg5 x0 x1 xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20).1 S1x4096.size (by sl_kernel_rfl) y

/-- What the run leaves in the output's staging buffer: its pieces read back. -/
def out0_A_2 (c : Dev nD) (i : grid0.Coords) (arg2 : Memref sig .tc .vmem S4096x128 .f32) (harg2 : arg2.IsWhole) (arg4 : Memref sig .tc .vmem S20x1 .f32) (harg4 : arg4.IsWhole) (arg5 : Memref sig .tc .vmem S1x4096 .f32) (harg5 : arg5.IsWhole)
    (x0 : Vec F S4096x128 .f32) (x1 : Vec F S20x1 .f32) (xt0 : TbBuf0 (F := F) c tbM0_0) (fh0 : HbBuf0 (F := F) c hbM0_0)
    (k0_hw1 : k0_chk1 (tbM0_0.view.readAt (Elt F) (Rect.unit (s := S20) ![0] S1.size inb_S20_S1_0).toLoadRect xt0 (Shape.Idx.first (numel1_S1.symm ▸ Nat.one_pos)))) (k0_hw2 : k0_chk2 (tbM0_0.view.readAt (Elt F) (Rect.unit (s := S20) ![1] S1.size inb_S20_S1_1).toLoadRect xt0 (Shape.Idx.first (numel1_S1.symm ▸ Nat.one_pos)))) (k0_hw3 : k0_chk3 (tbM0_0.view.readAt (Elt F) (Rect.unit (s := S20) ![2] S1.size inb_S20_S1_2).toLoadRect xt0 (Shape.Idx.first (numel1_S1.symm ▸ Nat.one_pos)))) (k0_hw4 : k0_chk4 (tbM0_0.view.readAt (Elt F) (Rect.unit (s := S20) ![3] S1.size inb_S20_S1_3).toLoadRect xt0 (Shape.Idx.first (numel1_S1.symm ▸ Nat.one_pos)))) (k0_hw5 : k0_chk5 (tbM0_0.view.readAt (Elt F) (Rect.unit (s := S20) ![4] S1.size inb_S20_S1_4).toLoadRect xt0 (Shape.Idx.first (numel1_S1.symm ▸ Nat.one_pos)))) (k0_hw6 : k0_chk6 (tbM0_0.view.readAt (Elt F) (Rect.unit (s := S20) ![5] S1.size inb_S20_S1_5).toLoadRect xt0 (Shape.Idx.first (numel1_S1.symm ▸ Nat.one_pos)))) (k0_hw7 : k0_chk7 (tbM0_0.view.readAt (Elt F) (Rect.unit (s := S20) ![6] S1.size inb_S20_S1_6).toLoadRect xt0 (Shape.Idx.first (numel1_S1.symm ▸ Nat.one_pos)))) (k0_hw8 : k0_chk8 (tbM0_0.view.readAt (Elt F) (Rect.unit (s := S20) ![7] S1.size inb_S20_S1_7).toLoadRect xt0 (Shape.Idx.first (numel1_S1.symm ▸ Nat.one_pos)))) (k0_hw9 : k0_chk9 (tbM0_0.view.readAt (Elt F) (Rect.unit (s := S20) ![8] S1.size inb_S20_S1_8).toLoadRect xt0 (Shape.Idx.first (numel1_S1.symm ▸ Nat.one_pos)))) (k0_hw10 : k0_chk10 (tbM0_0.view.readAt (Elt F) (Rect.unit (s := S20) ![9] S1.size inb_S20_S1_9).toLoadRect xt0 (Shape.Idx.first (numel1_S1.symm ▸ Nat.one_pos)))) (k0_hw11 : k0_chk11 (tbM0_0.view.readAt (Elt F) (Rect.unit (s := S20) ![10] S1.size inb_S20_S1_10).toLoadRect xt0 (Shape.Idx.first (numel1_S1.symm ▸ Nat.one_pos)))) (k0_hw12 : k0_chk12 (tbM0_0.view.readAt (Elt F) (Rect.unit (s := S20) ![11] S1.size inb_S20_S1_11).toLoadRect xt0 (Shape.Idx.first (numel1_S1.symm ▸ Nat.one_pos)))) (k0_hw13 : k0_chk13 (tbM0_0.view.readAt (Elt F) (Rect.unit (s := S20) ![12] S1.size inb_S20_S1_12).toLoadRect xt0 (Shape.Idx.first (numel1_S1.symm ▸ Nat.one_pos)))) (k0_hw14 : k0_chk14 (tbM0_0.view.readAt (Elt F) (Rect.unit (s := S20) ![13] S1.size inb_S20_S1_13).toLoadRect xt0 (Shape.Idx.first (numel1_S1.symm ▸ Nat.one_pos)))) (k0_hw15 : k0_chk15 (tbM0_0.view.readAt (Elt F) (Rect.unit (s := S20) ![14] S1.size inb_S20_S1_14).toLoadRect xt0 (Shape.Idx.first (numel1_S1.symm ▸ Nat.one_pos)))) (k0_hw16 : k0_chk16 (tbM0_0.view.readAt (Elt F) (Rect.unit (s := S20) ![15] S1.size inb_S20_S1_15).toLoadRect xt0 (Shape.Idx.first (numel1_S1.symm ▸ Nat.one_pos)))) (k0_hw17 : k0_chk17 (tbM0_0.view.readAt (Elt F) (Rect.unit (s := S20) ![16] S1.size inb_S20_S1_16).toLoadRect xt0 (Shape.Idx.first (numel1_S1.symm ▸ Nat.one_pos)))) (k0_hw18 : k0_chk18 (tbM0_0.view.readAt (Elt F) (Rect.unit (s := S20) ![17] S1.size inb_S20_S1_17).toLoadRect xt0 (Shape.Idx.first (numel1_S1.symm ▸ Nat.one_pos)))) (k0_hw19 : k0_chk19 (tbM0_0.view.readAt (Elt F) (Rect.unit (s := S20) ![18] S1.size inb_S20_S1_18).toLoadRect xt0 (Shape.Idx.first (numel1_S1.symm ▸ Nat.one_pos)))) (k0_hw20 : k0_chk20 (tbM0_0.view.readAt (Elt F) (Rect.unit (s := S20) ![19] S1.size inb_S20_S1_19).toLoadRect xt0 (Shape.Idx.first (numel1_S1.symm ▸ Nat.one_pos)))) : Vec F S1x4096 .f32 :=
  VO0_2.read (Elt F) (VO0_2.writes (Elt F) VO0_2.junk (kernelRun0_A c i arg2 harg2 arg4 harg4 arg5 harg5 x0 x1 xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20).1)

/-- What the output's staging buffer holds after the body at point `t`. -/
def outsAt0 (hH : Hyps m) (c : Dev nD) (t : Fin (cfgM m).N) : Vec F S1x4096 .f32 :=
  out0_A_2 c (grid0.coords t) (ms0_0 m t) (hs0_0 m t) (ms0_1 m t) (hs0_1 m t) (ms0_2 m t) (hs0_2 m t) (iblk m c 0 t) (iblk m c 1 t) (tbl m 0) (V m c main_arg1) hH.h1 hH.h2 hH.h3 hH.h4 hH.h5 hH.h6 hH.h7 hH.h8 hH.h9 hH.h10 hH.h11 hH.h12 hH.h13 hH.h14 hH.h15 hH.h16 hH.h17 hH.h18 hH.h19 hH.h20

/-- The proof data of the pipeline on core `c`: the arrays as the region finds them; after the body each input's
    buffer at its block and the output's at `outsAt0`; the invariant; nothing owed; full shares. -/
def dats (hH : Hyps m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => (outsAt0 m hH c t)
  Φ _ := iprop(Pipeline.ΦD osem0 spec0 H0 (V m) c ∗ Pipeline.ΦT pre0 (tbl m) c)
  q _ := fullShare
  owed _ := 0

theorem A_eq (hH : Hyps m) (c : Dev nD) (w : Fin (cfgM m).W) : (dats m hH 0 c).A w = V m c (Pipeline.arrRef spec0 w) := by
  dsimp only [dats]

theorem after0_0 (hH : Hyps m) (c : Dev nD) (t : Fin (cfgM m).N) : (dats m hH 0 c).after 0 t = iblk m c 0 t := by dsimp only [dats]; try rfl
theorem after0_1 (hH : Hyps m) (c : Dev nD) (t : Fin (cfgM m).N) : (dats m hH 0 c).after 1 t = iblk m c 1 t := by dsimp only [dats]; try rfl
theorem after0_2 (hH : Hyps m) (c : Dev nD) (t : Fin (cfgM m).N) : (dats m hH 0 c).after 2 t = (outsAt0 m hH c t) := by dsimp only [dats]; try rfl

theorem before0_0 (hH : Hyps m) (c : Dev nD) (t : Fin (cfgM m).N) (d) : (dats m hH 0 c).before 0 t d = iblk m c 0 t :=
  before0_0_of m (dats m hH 0 c) (A_eq m hH c 0) (after0_0 m hH c) t d
theorem before0_1 (hH : Hyps m) (c : Dev nD) (t : Fin (cfgM m).N) (d) : (dats m hH 0 c).before 1 t d = iblk m c 1 t :=
  before0_1_of m (dats m hH 0 c) (A_eq m hH c 1) (after0_1 m hH c) t d

/-- What the body is called with at point `t`, -/
def bodyPre (hH : Hyps m) (c : Dev nD) (t : Fin (cfgM m).N) : sProp 𝕄 :=
  iprop((dats m hH 0 c).Φ t.castSucc ∗ (dats m hH 0 c).owesAt () t.castSucc
    ∗ (∃ d, owns (c : Thread nD τ) (ms0_0 m t) fullShare ((dats m hH 0 c).before 0 t d))
    ∗ (∃ d, owns (c : Thread nD τ) (ms0_1 m t) fullShare ((dats m hH 0 c).before 1 t d))
    ∗ (∃ d, owns (c : Thread nD τ) (ms0_2 m t) fullShare ((dats m hH 0 c).before 2 t d)))

/-- and what it returns. -/
def bodyPost (hH : Hyps m) (c : Dev nD) (t : Fin (cfgM m).N) : sProp 𝕄 :=
  iprop((dats m hH 0 c).Φ t.succ ∗ (dats m hH 0 c).owesAt () t.succ
    ∗ owns (c : Thread nD τ) (ms0_0 m t) fullShare ((dats m hH 0 c).after 0 t)
    ∗ owns (c : Thread nD τ) (ms0_1 m t) fullShare ((dats m hH 0 c).after 1 t)
    ∗ owns (c : Thread nD τ) (ms0_2 m t) fullShare ((dats m hH 0 c).after 2 t))

/-- The body at any point: the inputs' memrefs hold their blocks, so the run applies; the invariant hands the body
    its scratch, the cells at zero, the weight table and the path table, and takes them back as they were. -/
theorem sound_body (hH : Hyps m) (c : Dev nD) (t : Fin (cfgM m).N) :
    bodyPre m hH c t ⊢ wp frame (wpE (defs₀ (F := F)) Variants.none c none) Set.univ (bodyAt0 m t) (fun _ => bodyPost m hH c t) := by
  unfold bodyPre bodyPost bodyAt0
  simp only [before0_0, before0_1]
  rw [show (dats m hH 0 c).Φ t.succ = (dats m hH 0 c).Φ t.castSucc from rfl,
    after0_0, after0_1, after0_2]
  rw [show (dats m hH 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hH 0 c).owed t.castSucc = 0 from rfl, show (dats m hH 0 c).owed t.succ = 0 from rfl]
  unfold outsAt0
  unfold out0_A_2
  unfold sems0
  iintro ⟨⟨⟨HS0, Hg, Hq, Hh0⟩, HT0⟩, ⟨%W, -, HW⟩, ⟨%d0, H0⟩, ⟨%d1, H1⟩, ⟨%d2, H2⟩⟩
  iapply ((kernelRun0_A c (grid0.coords t) _ _ _ _ _ _ (iblk m c 0 t) (iblk m c 1 t) (tbl m 0) (V m c main_arg1) hH.h1 hH.h2 hH.h3 hH.h4 hH.h5 hH.h6 hH.h7 hH.h8 hH.h9 hH.h10 hH.h11 hH.h12 hH.h13 hH.h14 hH.h15 hH.h16 hH.h17 hH.h18 hH.h19 hH.h20).2 W _)
  isplitl [H0]; · iexact H0
  isplitl [H1]; · iexact H1
  isplitl [H2]; · iexists _; iexact H2
  isplitl [HS0]; · iexact HS0
  isplitl [HT0]; · iexact HT0
  isplitl [Hq]; · iexact Hq
  isplitl [Hh0]; · iexact Hh0
  isplitl [HW]; · iexact HW
  iintro ⟨H0, H1, ⟨%e2, H2⟩, HS0, HT0, Hq, Hh0, ⟨%W', HW'⟩⟩
  isplitl [HS0 Hg Hq Hh0 HT0]
  · isplitl [HS0 Hg Hq Hh0]
    · isplitl [HS0]; · iexact HS0
      isplitl [Hg]; · iexact Hg
      isplitl [Hq]; · iexact Hq
      iexact Hh0
    iexact HT0
  isplitl [HW']
  · iexists W'; isplitr; · ipureintro; exact fun _ _ => Or.inl trivial
    iexact HW'
  isplitl [H0]; · iexact H0
  isplitl [H1]; · iexact H1
  unfold owns; iexists _; isplitr
  swap; · iexact H2
  ipureintro; exact View.read_writes_of_cover _ _ _ _ _ (cover0_A_2 c _ _ _ _ _ _ _ _ _ _ _ _ _ _ _ _ _ _ _ _ _ _ _ _ _ _ _ _ _ _ _)

/-- The body obligation, at every point. -/
theorem body_obligation (hH : Hyps m) (c : Dev nD) : BodyObligation (dats (F := F) m hH 0 c) (defs₀ (F := F)) Variants.none () Set.univ := fun t => by
  rw [bigSep_W0, bigSep_W0]
  exact sound_body m hH c t

set_option backward.isDefEq.respectTransparency.types false in
/-- Every weakly fair execution of @main terminates; every array of the pipeline ends at what the points' write-backs
    make of it, every other unscoped buffer at the reshape after the region applied to the region's exit
    contents. -/
theorem run_main (hH : Hyps m) : θ_run defs (onTc (τ := τ) (main (F := F))) (s₀ m ρ)
    (Pipeline.FramePost (Pipeline.pin pcfgs fun _ => adm m) (dats m hH) 0 (Pipeline.afterTail pcfgs (fun _ => adm m) (dats m hH) 0 (V0 m) [hostOps1])) :=
  Pipeline.θ_run_frameP_dma_around pcfgs (fun _ => adm m) (dats m hH) (0 : Fin 1) launch0 osem0 defs₀ Variants.none ownSemFacts0 H0 H0_sub m ρ main
    (hbody := fun c => (body_obligation m hH c).loose) (hshare := fun c => (dats m hH 0 c).share_full fun _ => rfl)
    (howed := fun _ _ => rfl) (V₀ := V0 m) (opss := [hostOps1]) (hsub := sfx_sub) (hfresh := sfx_fresh) (hkeep := sfx_keeps)
    (hmain := hmain m Variants.none) (hA := A_eq m hH) (hpf := V0_pre m)
    (hin := fun _ => .rfl) (hout := fun c => (Entails.of_eq (show (dats m hH 0 c).Φ _ = iprop(Pipeline.ΦD osem0 spec0 H0 (V m) c ∗ Pipeline.ΦT pre0 (tbl m) c) from rfl)).trans (by iintro ⟨H, -⟩; iexact H))

/-! ## The region's entry contents, argument by argument -/

theorem V_main_arg0 (c : Dev nD) : V m c main_arg0 = m ((c : Thread nD τ).loc main_arg0) := by
  show StableHlo.after hostOps0 (fun b => m (c, b)) (Proc.devRef .tc main_arg0) = _; after_results
theorem V_main_arg1 (c : Dev nD) : V m c main_arg1 = m ((c : Thread nD τ).loc main_arg1) := by
  show StableHlo.after hostOps0 (fun b => m (c, b)) (Proc.devRef .tc main_arg1) = _; after_results
theorem V_main_arg2 (c : Dev nD) : V m c main_arg2 = m ((c : Thread nD τ).loc main_arg2) := by
  show StableHlo.after hostOps0 (fun b => m (c, b)) (Proc.devRef .tc main_arg2) = _; after_results
theorem V_main_arg3 (c : Dev nD) : V m c main_arg3 = m ((c : Thread nD τ).loc main_arg3) := by
  show StableHlo.after hostOps0 (fun b => m (c, b)) (Proc.devRef .tc main_arg3) = _; after_results
/-- The path code as the region finds it: the argument cast to a column. -/
theorem V_main_v0 (c : Dev nD) : (V m c main_v0 : Vec F S20x1 .f32) = shapeCast S20x1 (m ((c : Thread nD τ).loc main_arg2) : Vec F S20 .f32) shapeCasts_S20_S20x1 := by
  show StableHlo.after hostOps0 (fun b => m (c, b)) (Proc.devRef .tc main_v0) = _; after_results; rfl

/-! ## After the region -/

/-- The reshape after the region leaves every buffer but its own result at the region's exit contents; a buffer
    that is no window's array left the region as it entered it. -/
theorem tail_keeps (hH : Hyps m) (c : Dev nD) (b : Ref sig .tc) (hb : b ≠ main_v2) (harr : ∀ w, Pipeline.arrRef spec0 w ≠ b) :
    Pipeline.afterTail pcfgs (fun _ => adm m) (dats m hH) 0 (V0 m) [hostOps1] c b = V m c b := by
  unfold Pipeline.afterTail
  rw [StableHlo.after_of_forall_not_mem _ _ fun op hop hw => ?_, Pipeline.withArrays_of_ne _ c (V0 m c) _ b harr]
  simp only [List.flatten_cons, List.flatten_nil, List.append_nil, hostOps1, List.mem_cons, List.mem_nil_iff, or_false] at hop
  subst hop
  rw [StableHlo.reshape_writes, Finset.mem_singleton] at hw
  exact hb (Proc.devRef_injective (τ := τ) _ hw)

/-- The result: the [1, 16384] array the points wrote back, cast to a column. -/
theorem tail_result (hH : Hyps m) (c : Dev nD) :
    (Pipeline.afterTail pcfgs (fun _ => adm m) (dats m hH) 0 (V0 m) [hostOps1] c main_v2 : Vec F S16384x1 .f32)
      = shapeCast S16384x1 ((dats m hH 0 c).arrAt 2 (cfgM m).N : Vec F S1x16384 .f32) shapeCasts_S1x16384_S16384x1 := by
  unfold Pipeline.afterTail
  show StableHlo.after hostOps1 _ (Proc.devRef .tc main_v2) = _
  after_results
  exact congrArg (fun v : Vec F S1x16384 .f32 => shapeCast S16384x1 v shapeCasts_S1x16384_S16384x1)
    (Pipeline.withArrays_arr spec0 (launch0 (F := F)).win.arr_inj c _ _ 2)

/-! ## The frame -/

/-- Every weakly fair execution of @main terminates and the four argument arrays end as they began. -/
theorem frame (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).1 0).trans (((dats m hH 0 c).arrAt_in 0 rfl _).trans ((A_eq m hH c 0).trans (V_main_arg0 m c))),
      ((h c).2 main_arg1 (show main_arg1 ∈ Pipeline.restRefs sig spec0 from Pipeline.mem_restRefs_of main_arg1 (by decide) (by decide))).trans
        ((tail_keeps m hH c main_arg1 (by decide) (by decide)).trans (V_main_arg1 m c)),
      ((h c).2 main_arg2 (show main_arg2 ∈ Pipeline.restRefs sig spec0 from Pipeline.mem_restRefs_of main_arg2 (by decide) (by decide))).trans
        ((tail_keeps m hH c main_arg2 (by decide) (by decide)).trans (V_main_arg2 m c)),
      ((h c).2 main_arg3 (show main_arg3 ∈ Pipeline.restRefs sig spec0 from Pipeline.mem_restRefs_of main_arg3 (by decide) (by decide))).trans
        ((tail_keeps m hH c main_arg3 (by decide) (by decide)).trans (V_main_arg3 m c))⟩)
    (run_main m ρ hH)

end Cert.KernelIdeal.Fr

end
-- ==== Proof.KernelIdealFr.HypsOfRange.lean ====
/-
  The body's side conditions from the range of the path words.

  The body reads the path table one cell at a time and, of each word `w` it reads, assumes that the one-row block
  of the weight table starting at row `w.toNat` lies inside the table: `w.toNat + 1 ≤ 1000000` on the row axis and
  `0 + 128 ≤ 128` on the column axis. The table the body is handed is the whole argument array, unchanged by the
  one reshape before the region (which touches the path code only), so the word read at cell `l` is the launch
  contents at index `l`; if every path word is below 1000000 every side condition holds.
-/
import proofs.«409180_j48619029790893_3_alg».proof.Proof.KernelIdealFr.Frame
import Idealize.ShloMosaic.Lib.ValueIdx

set_option maxRecDepth 16384

noncomputable section

namespace Cert.KernelIdeal.Fr

open Idealize.ShloMosaic Idealize.ShloMosaic.TcCoe Idealize.SL.Sem Cert.KernelIdeal Cert.KernelIdeal.Gen

variable {F : FTy → Type} [FloatOps F]

/-- Reading the one cell at position `k` of the whole path table off contents `f` gives `f` at index `k`: the view
    of the whole table places an index at itself, and the unit rectangle at offset `k` places its first (only)
    index at `k + 1 * 0`. -/
theorem word_at (f : IVec S20 32) (k : Nat) (hk : k < 20)
    (inb : ∀ a, (![k] : Fin 1 → Nat) a + S1.size a ≤ S20.size a) (h1 : 0 < S1.numel) :
    tbM0_0.view.readAt (Elt F) (Rect.unit (s := S20) ![k] S1.size inb).toLoadRect f (Shape.Idx.first h1)
      = f (ValueIdx.ix1 ⟨k, hk⟩) := by
  rw [View.readAt_apply]
  show f _ = f _
  congr 1
  funext a
  apply Fin.ext
  fin_cases a
  show k + 1 * 0 = k
  omega

/-- A word below 1000000 names a row of the weight table: the [1, 128] block at row `w.toNat`, column 0 fits in
    the [1000000, 128] table. -/
theorem row_fits (w : BitVec 32) (hw : w.toNat < 1000000) :
    ∀ a, (![w.toNat, 0] : Fin 2 → Nat) a + S1x128.size a ≤ S1000000x128.size a := by
  intro a
  fin_cases a
  · show w.toNat + 1 ≤ 1000000
    omega
  · show 0 + 128 ≤ 128
    omega

variable (m : (ℓ : Loc nD τ sig) → Buf (Elt F) ℓ)

/-- The word the body reads at cell `k` of the table as the region finds it is the launch contents' word `k`, so
    it is below 1000000 when every path word is. -/
theorem word_lt
    (hr : ∀ l : Fin 20, ((m (((0 : Dev nD).tc : Thread nD τ).loc main_arg3) : IVec S20 32) (ValueIdx.ix1 l)).toNat < 1000000)
    (k : Nat) (hk : k < 20) (inb : ∀ a, (![k] : Fin 1 → Nat) a + S1.size a ≤ S20.size a) (h1 : 0 < S1.numel) :
    (tbM0_0.view.readAt (Elt F) (Rect.unit (s := S20) ![k] S1.size inb).toLoadRect (tbl m 0) (Shape.Idx.first h1)).toNat
      < 1000000 := by
  have e : tbl m 0 = m (((0 : Dev nD).tc : Thread nD τ).loc main_arg3) := V_main_arg3 m 0
  rw [e, word_at (F := F) _ k hk inb h1]
  exact hr ⟨k, hk⟩

/-- Every side condition the body assumes holds when every path word names a row of the weight table. -/
theorem hyps_of_range
    (hr : ∀ l : Fin 20, ((m (((0 : Dev nD).tc : Thread nD τ).loc main_arg3) : IVec S20 32) (ValueIdx.ix1 l)).toNat < 1000000) :
    Hyps m :=
  {
    h1 := And.intro (row_fits _ (word_lt m hr 0 (by omega) _ _)) (row_fits _ (word_lt m hr 0 (by omega) _ _))
    h2 := And.intro (row_fits _ (word_lt m hr 1 (by omega) _ _)) (row_fits _ (word_lt m hr 1 (by omega) _ _))
    h3 := And.intro (row_fits _ (word_lt m hr 2 (by omega) _ _)) (row_fits _ (word_lt m hr 2 (by omega) _ _))
    h4 := And.intro (row_fits _ (word_lt m hr 3 (by omega) _ _)) (row_fits _ (word_lt m hr 3 (by omega) _ _))
    h5 := And.intro (row_fits _ (word_lt m hr 4 (by omega) _ _)) (row_fits _ (word_lt m hr 4 (by omega) _ _))
    h6 := And.intro (row_fits _ (word_lt m hr 5 (by omega) _ _)) (row_fits _ (word_lt m hr 5 (by omega) _ _))
    h7 := And.intro (row_fits _ (word_lt m hr 6 (by omega) _ _)) (row_fits _ (word_lt m hr 6 (by omega) _ _))
    h8 := And.intro (row_fits _ (word_lt m hr 7 (by omega) _ _)) (row_fits _ (word_lt m hr 7 (by omega) _ _))
    h9 := And.intro (row_fits _ (word_lt m hr 8 (by omega) _ _)) (row_fits _ (word_lt m hr 8 (by omega) _ _))
    h10 := And.intro (row_fits _ (word_lt m hr 9 (by omega) _ _)) (row_fits _ (word_lt m hr 9 (by omega) _ _))
    h11 := And.intro (row_fits _ (word_lt m hr 10 (by omega) _ _)) (row_fits _ (word_lt m hr 10 (by omega) _ _))
    h12 := And.intro (row_fits _ (word_lt m hr 11 (by omega) _ _)) (row_fits _ (word_lt m hr 11 (by omega) _ _))
    h13 := And.intro (row_fits _ (word_lt m hr 12 (by omega) _ _)) (row_fits _ (word_lt m hr 12 (by omega) _ _))
    h14 := And.intro (row_fits _ (word_lt m hr 13 (by omega) _ _)) (row_fits _ (word_lt m hr 13 (by omega) _ _))
    h15 := And.intro (row_fits _ (word_lt m hr 14 (by omega) _ _)) (row_fits _ (word_lt m hr 14 (by omega) _ _))
    h16 := And.intro (row_fits _ (word_lt m hr 15 (by omega) _ _)) (row_fits _ (word_lt m hr 15 (by omega) _ _))
    h17 := And.intro (row_fits _ (word_lt m hr 16 (by omega) _ _)) (row_fits _ (word_lt m hr 16 (by omega) _ _))
    h18 := And.intro (row_fits _ (word_lt m hr 17 (by omega) _ _)) (row_fits _ (word_lt m hr 17 (by omega) _ _))
    h19 := And.intro (row_fits _ (word_lt m hr 18 (by omega) _ _)) (row_fits _ (word_lt m hr 18 (by omega) _ _))
    h20 := row_fits _ (word_lt m hr 19 (by omega) _ _) }

end Cert.KernelIdeal.Fr

end
-- ==== Proof.Spec.lean ====
/-
  The value both programs compute, as one function of the four argument arrays.

  For a batch row `b` and a path position `l` the logit is the inner product of row `b` of `xw` with the row of the
  weight table that the path word `hp l` selects, `z b l = ∑ d, W (hp l, d) · xw (b, d)`. With
  `s z = log (1 + exp (0 - |z|))` the two log-sigmoids are `min z 0 - s z` (of `z`) and `(0 - max z 0) - s z` (of `-z`),
  and the result at row `b` is `∑ l, h l · (min z 0 - s z) + (1 - h l) · ((0 - max z 0) - s z)` with `h` the path code.
  All of it on the extended reals; the literal one is kept as its float word.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![16384, 128]⟩
abbrev SW : Shape := ⟨2, ![1000000, 128]⟩
abbrev SH : Shape := ⟨1, ![20]⟩
abbrev SO : Shape := ⟨2, ![16384, 1]⟩

/-- The float word of one, read on the extended reals. -/
def one : EReal := Ideal.ofBits .f32 0x3F800000#32

/-- The row of the weight table that path position `l` selects: the path word read unsigned (a word outside the
    table is cut to the last row; for words inside the table this is the word itself). -/
def row (hp : IVec SH 32) (l : Fin 20) : Fin 1000000 := ⟨min (hp (ix1 l)).toNat 999999, by omega⟩

theorem row_val_of_lt (hp : IVec SH 32) (l : Fin 20) (h : (hp (ix1 l)).toNat < 1000000) :
    (row hp l).val = (hp (ix1 l)).toNat := by
  show min _ _ = _; omega

/-- The logit of batch row `b` at path position `l`. -/
def logit (xw : FVec Ideal SX .f32) (W : FVec Ideal SW .f32) (hp : IVec SH 32) (b : Fin 16384) (l : Fin 20) : EReal :=
  ∑ d : Fin 128, W (ix2 (row hp l) d) * xw (ix2 b d)

/-- `log (1 + exp (0 - |z|))`, the part the two log-sigmoids share. -/
def soft (z : EReal) : EReal := Ideal.log1p (Ideal.exp (0 - max z (-z)))

/-- One path position's contribution: the code `h` times the log-sigmoid of `z`, plus `1 - h` times that of `-z`. -/
def term (h z : EReal) : EReal := h * (min z 0 - soft z) + (one - h) * ((0 - max z 0) - soft z)

/-- The result at batch row `b`. -/
def Gb (xw : FVec Ideal SX .f32) (W : FVec Ideal SW .f32) (hc : FVec Ideal SH .f32) (hp : IVec SH 32) (b : Fin 16384) : EReal :=
  ∑ l : Fin 20, term (hc (ix1 l)) (logit xw W hp b l)

/-- The result array, [16384, 1]. -/
def G (xw : FVec Ideal SX .f32) (W : FVec Ideal SW .f32) (hc : FVec Ideal SH .f32) (hp : IVec SH 32) : FVec Ideal SO .f32 :=
  fun i => Gb xw W hc hp (i 0)

theorem G_apply (xw : FVec Ideal SX .f32) (W : FVec Ideal SW .f32) (hc : FVec Ideal SH .f32) (hp : IVec SH 32)
    (b : Fin 16384) (q : Fin 1) : G xw W hc hp (ix2 b q) = Gb xw W hc hp b := rfl

/-- A finite sum of products of reals is a real: the logit of finite inputs is finite. -/
theorem logit_real (xw : FVec Ideal SX .f32) (W : FVec Ideal SW .f32) (hp : IVec SH 32)
    (hx : ∀ i, ∃ r : ℝ, xw i = (r : EReal)) (hw : ∀ i, ∃ r : ℝ, W i = (r : EReal)) (b : Fin 16384) (l : Fin 20) :
    ∃ r : ℝ, logit xw W hp b l = (r : EReal) := by
  unfold logit
  choose fx hfx using hx
  choose fw hfw using hw
  refine ⟨∑ d : Fin 128, fw (ix2 (row hp l) d) * fx (ix2 b d), ?_⟩
  simp only [hfx, hfw, ← EReal.coe_mul]
  induction (Finset.univ : Finset (Fin 128)) using Finset.induction_on with
  | empty => simp
  | insert a s ha ih => rw [Finset.sum_insert ha, Finset.sum_insert ha, ih, EReal.coe_add]

end Cert.Spec

end
-- ==== Proof.PayIdx.lean ====
/-
  The kernel's payload read at one lane.

  The payload is: the product of the twenty gathered weight rows with a block of 4096 batch rows (a contraction over
  the 128 features into a zero accumulator), the two log-sigmoids taken elementwise on the [20, 4096] array of logits,
  each weighted by the path code (broadcast along the lanes) or by one minus it, the two added, the sum over the twenty
  path positions, and a cast of the 4096 results to one row. Read at lane q it is
  ∑ l, term (code l) (∑ d, weight (l, d) · batch (q, d)): each layout operation is read at an index given by
  coordinates, the contraction is re-indexed by its one coordinate, and the elementwise chain is the specification's
  term on the nose. No order of summation changes and nothing is assumed finite.
-/
import proofs.«409180_j48619029790893_3_alg».proof.Proof.Spec
import proofs.«409180_j48619029790893_3_alg».proof.Proof.Gen.KernelIdeal.Skeleton
import Idealize.ShloMosaic.PureOps.Ideal.Laws
import Idealize.ShloMosaic.Lib.ValueLayout

noncomputable section

open scoped BigOperators

namespace Cert.KernelSide

open Idealize.ShloMosaic Idealize.ShloMosaic.ValueIdx Cert.KernelIdeal Cert.KernelIdeal.Gen

variable [Cert.KernelIdeal.Facts]

/-! ## The layout operations at an index -/

/-- A [4096] vector cast to [1, 4096] reads, at (0, q), the vector at q. -/
theorem cast_row (v : FVec Ideal S4096 .f32) (h : S4096.ShapeCasts S1x4096) (q : Fin 4096) :
    shapeCast S1x4096 v h (ix2 (0 : Fin 1) q) = v (ix1 q) :=
  shapeCast_a_1a_apply v h 0 q

/-- A [20, 1] column broadcast to [20, 4096] reads, at (l, q), the column at (l, 0): the unit axis is read at 0, the
    other axis at the same coordinate. -/
theorem bcast_col (v : FVec Ideal S20x1 .f32) (h : S20x1.Broadcasts S20x4096) (l : Fin 20) (q : Fin 4096) :
    broadcastTo S20x4096 v h (ix2 l q) = v (ix2 l (0 : Fin 1)) := by
  refine broadcastTo_apply v h (ix2 l q) (ix2 l (0 : Fin 1)) fun ax => ?_
  match ax with
  | ⟨0, _⟩ =>
    show l.val = if (20 : ℕ) = 1 then 0 else l.val
    rw [if_neg (by decide)]
  | ⟨1, _⟩ =>
    show (0 : ℕ) = if (1 : ℕ) = 1 then 0 else q.val
    rw [if_pos rfl]

/-- The sum over axis 0 of a [20, 4096] array, read at lane q, is the sum over the twenty rows of the array at
    (l, q). The accumulator word is zero, the neutral one, and does not enter. -/
theorem sum_rows (src : FVec Ideal S20x4096 .f32) (h : S20x4096.Reduces [0] S4096) (hφ : FKind.Formats .f32)
    (hacc : (0x00000000#32 : BitVec 32) = 0x00000000#32) (q : Fin 4096) :
    multiReduction (F := Ideal) .add [0] S4096 src 0x00000000#32 h hφ hacc (ix1 q) = ∑ l : Fin 20, src (ix2 l q) := by
  refine (Ideal.multiReduction_add_single src 0x00000000#32 h hφ hacc (ix1 q)).trans ?_
  refine Finset.sum_congr rfl fun l _ => congrArg src (funext fun c => Fin.ext ?_)
  rw [h.lift_val]
  match c with
  | ⟨0, _⟩ => rfl
  | ⟨1, _⟩ => rfl

/-! ## The contraction at an index -/

/-- Axis 0 of the left operand is free: it is the result's axis 0. -/
theorem lhs_mm_0 (i : S20x4096.Idx) (k : dot_S20x128_S4096x128_S20x4096_1_1_0_0_n_n.contr.Idx) :
    (dot_S20x128_S4096x128_S20x4096_1_1_0_0_n_n.lhsIdx i k 0).val = (i 0).val := by
  unfold DotDims.lhsIdx
  rw [dif_neg (show ¬(0 : Fin S20x128.rank) ∈ dot_S20x128_S4096x128_S20x4096_1_1_0_0_n_n.lhsBatch by decide),
    dif_pos (show (0 : Fin S20x128.rank) ∈ dot_S20x128_S4096x128_S20x4096_1_1_0_0_n_n.lhsNonContracting by decide)]
  rfl

/-- Axis 1 of the left operand is the contracted one. -/
theorem lhs_mm_1 (i : S20x4096.Idx) (k : dot_S20x128_S4096x128_S20x4096_1_1_0_0_n_n.contr.Idx) :
    (dot_S20x128_S4096x128_S20x4096_1_1_0_0_n_n.lhsIdx i k 1).val = (k ⟨0, by decide⟩).val :=
  dot_S20x128_S4096x128_S20x4096_1_1_0_0_n_n.lhsIdx_val_of_single rfl i k

/-- Axis 0 of the right operand is free: it is the result's axis 1. -/
theorem rhs_mm_0 (i : S20x4096.Idx) (k : dot_S20x128_S4096x128_S20x4096_1_1_0_0_n_n.contr.Idx) :
    (dot_S20x128_S4096x128_S20x4096_1_1_0_0_n_n.rhsIdx i k 0).val = (i 1).val := by
  unfold DotDims.rhsIdx
  rw [dif_neg (show ¬(0 : Fin S4096x128.rank) ∈ dot_S20x128_S4096x128_S20x4096_1_1_0_0_n_n.rhsBatch by decide),
    dif_pos (show (0 : Fin S4096x128.rank) ∈ dot_S20x128_S4096x128_S20x4096_1_1_0_0_n_n.rhsNonContracting by decide)]
  rfl

/-- Axis 1 of the right operand is the contracted one. -/
theorem rhs_mm_1 (i : S20x4096.Idx) (k : dot_S20x128_S4096x128_S20x4096_1_1_0_0_n_n.contr.Idx) :
    (dot_S20x128_S4096x128_S20x4096_1_1_0_0_n_n.rhsIdx i k 1).val = (k ⟨0, by decide⟩).val :=
  dot_S20x128_S4096x128_S20x4096_1_1_0_0_n_n.rhsIdx_val_of_single rfl i k

/-- The product into a zero accumulator, read at (l, q): the inner product over the 128 features of row l of the
    left operand with row q of the right one. -/
theorem mm_apply (wp : FVec Ideal S20x128 .f32) (x0 : FVec Ideal S4096x128 .f32) (l : Fin 20) (q : Fin 4096) :
    matmul dot_S20x128_S4096x128_S20x4096_1_1_0_0_n_n none wp x0 (constant (F := Ideal) S20x4096 .f32 0x00000000#32) (ix2 l q)
      = ∑ d : Fin 128, wp (ix2 l d) * x0 (ix2 q d) := by
  refine (Ideal.matmul_constant_zero_apply dot_S20x128_S4096x128_S20x4096_1_1_0_0_n_n none wp x0 (ix2 l q)).trans ?_
  rw [← Equiv.sum_comp (contrEquiv1 dot_S20x128_S4096x128_S20x4096_1_1_0_0_n_n 128 rfl rfl).symm]
  refine Finset.sum_congr rfl fun k _ => ?_
  have hk := contrEquiv1_symm_val dot_S20x128_S4096x128_S20x4096_1_1_0_0_n_n 128 rfl rfl k
  have el : dot_S20x128_S4096x128_S20x4096_1_1_0_0_n_n.lhsIdx (ix2 l q)
      ((contrEquiv1 dot_S20x128_S4096x128_S20x4096_1_1_0_0_n_n 128 rfl rfl).symm k) = ix2 l k :=
    funext fun a => Fin.ext (by
      match a with
      | ⟨0, _⟩ => exact lhs_mm_0 _ _
      | ⟨1, _⟩ => exact (lhs_mm_1 _ _).trans hk)
  have er : dot_S20x128_S4096x128_S20x4096_1_1_0_0_n_n.rhsIdx (ix2 l q)
      ((contrEquiv1 dot_S20x128_S4096x128_S20x4096_1_1_0_0_n_n 128 rfl rfl).symm k) = ix2 q k :=
    funext fun a => Fin.ext (by
      match a with
      | ⟨0, _⟩ => exact rhs_mm_0 _ _
      | ⟨1, _⟩ => exact (rhs_mm_1 _ _).trans hk)
  rw [el, er]

/-! ## The elementwise chain at an index -/

/-- The two weighted log-sigmoids of an array of logits m, with weights b1 and b2, read at an index: every operation
    is elementwise, the zero words are the real zero, and the absolute value is max z (-z). -/
theorem chain_apply (m b1 b2 : FVec Ideal S20x4096 .f32) (i : S20x4096.Idx) :
    addf
      (mulf b1
        (subf (minimumf m (broadcast S20x4096 (Scalar.ofBits (F := Ideal) .f32 0x00000000#32)))
          (log1p (exp (subf (broadcast S20x4096 (Scalar.ofBits (F := Ideal) .f32 0x00000000#32)) (absf m))))))
      (mulf b2
        (subf
          (subf (broadcast S20x4096 (Scalar.ofBits (F := Ideal) .f32 0x00000000#32))
            (maximumf m (broadcast S20x4096 (Scalar.ofBits (F := Ideal) .f32 0x00000000#32))))
          (log1p (exp (subf (broadcast S20x4096 (Scalar.ofBits (F := Ideal) .f32 0x00000000#32)) (absf m)))))) i
      = b1 i * (min (m i) 0 - Cert.Spec.soft (m i)) + b2 i * ((0 - max (m i) 0) - Cert.Spec.soft (m i)) := by
  show b1 i * (min (m i) (Ideal.ofBits .f32 0x00000000#32)
        - Ideal.log1p (Ideal.exp (Ideal.ofBits .f32 0x00000000#32 - max (m i) (-(m i)))))
      + b2 i * ((Ideal.ofBits .f32 0x00000000#32 - max (m i) (Ideal.ofBits .f32 0x00000000#32))
        - Ideal.log1p (Ideal.exp (Ideal.ofBits .f32 0x00000000#32 - max (m i) (-(m i))))) = _
  rw [Ideal.ofBits_zero_f32]
  rfl

/-! ## The payload -/

/-- The kernel's payload at lane q of its one row. -/
theorem pay_apply (x0 : Vec Ideal S4096x128 .f32) (wp : Vec Ideal S20x128 .f32) (hc : Vec Ideal S20x1 .f32) (q : Fin 4096) :
    k0_pay1 (F := Ideal) (k0_pay2 (F := Ideal) x0 wp hc) (ix2 (0 : Fin 1) q)
      = ∑ l : Fin 20, Cert.Spec.term (hc (ix2 l (0 : Fin 1))) (∑ d : Fin 128, wp (ix2 l d) * x0 (ix2 q d)) := by
  unfold k0_pay1
  refine (cast_row _ _ q).trans ?_
  unfold k0_pay2
  refine (sum_rows _ _ _ _ q).trans ?_
  refine Finset.sum_congr rfl fun l _ => ?_
  refine (chain_apply _ _ _ _).trans ?_
  rw [mm_apply wp x0 l q, bcast_col, bcast_col, shapeCast_self]
  rfl

end Cert.KernelSide

end
-- ==== Proof.KernelIdealFr.Value.lean ====
/-
  The value the idealized kernel leaves. What the body's one store writes at a grid point is the payload of the point's
  block of `xw`, the gathered rows and the code column; the gathered rows are the weight table's rows at the path
  words; read at a lane, the payload is the specification's value at the lane's batch row; the four blocks cover the
  [1, 16384] result, and the reshape after the region turns it into the specification's [16384, 1] array.
-/
import proofs.«409180_j48619029790893_3_alg».proof.Proof.KernelIdealFr.Frame
import proofs.«409180_j48619029790893_3_alg».proof.Proof.KernelIdealFr.HypsOfRange
import proofs.«409180_j48619029790893_3_alg».proof.Proof.PayIdx
import proofs.«409180_j48619029790893_3_alg».proof.Proof.Spec
import Idealize.ShloMosaic.Lib.Pipeline.Value

set_option maxRecDepth 16384

noncomputable section

namespace Cert.KernelIdeal.Fr

open Idealize.ShloMosaic Idealize.ShloMosaic.TcCoe Idealize.SL.Sem
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl

local notation "𝕄" => MT nD τ sig Unit (Elt F) ℕ (Pipeline.UD sig nD τ) ℕ

/-- The row of the weight table at offsets `o`, as a [128] memref: the source of one row copy. -/
abbrev srcRow (o : Fin 2 → ℕ) (h : ∀ a, o a + S1x128.size a ≤ S1000000x128.size a) : Memref sig .tc .hbm S128 .f32 :=
  (hbM0_0.slice (Rect.unit (s := S1000000x128) o S1x128.size h) (fun _ => rfl)).squeeze S128 squeezes_S1x128_S128

/-- The scratch after the twenty copies: row `l` is the weight table's row at path word `l`. -/
def gathered (c : Dev nD) (xt0 : TbBuf0 (F := F) c tbM0_0) (fh0 : HbBuf0 (F := F) c hbM0_0)
    (k0_hw1 : k0_chk1 (tbM0_0.view.readAt (Elt F) (Rect.unit (s := S20) ![0] S1.size inb_S20_S1_0).toLoadRect xt0 (Shape.Idx.first (numel1_S1.symm ▸ Nat.one_pos)))) (k0_hw2 : k0_chk2 (tbM0_0.view.readAt (Elt F) (Rect.unit (s := S20) ![1] S1.size inb_S20_S1_1).toLoadRect xt0 (Shape.Idx.first (numel1_S1.symm ▸ Nat.one_pos)))) (k0_hw3 : k0_chk3 (tbM0_0.view.readAt (Elt F) (Rect.unit (s := S20) ![2] S1.size inb_S20_S1_2).toLoadRect xt0 (Shape.Idx.first (numel1_S1.symm ▸ Nat.one_pos)))) (k0_hw4 : k0_chk4 (tbM0_0.view.readAt (Elt F) (Rect.unit (s := S20) ![3] S1.size inb_S20_S1_3).toLoadRect xt0 (Shape.Idx.first (numel1_S1.symm ▸ Nat.one_pos)))) (k0_hw5 : k0_chk5 (tbM0_0.view.readAt (Elt F) (Rect.unit (s := S20) ![4] S1.size inb_S20_S1_4).toLoadRect xt0 (Shape.Idx.first (numel1_S1.symm ▸ Nat.one_pos)))) (k0_hw6 : k0_chk6 (tbM0_0.view.readAt (Elt F) (Rect.unit (s := S20) ![5] S1.size inb_S20_S1_5).toLoadRect xt0 (Shape.Idx.first (numel1_S1.symm ▸ Nat.one_pos)))) (k0_hw7 : k0_chk7 (tbM0_0.view.readAt (Elt F) (Rect.unit (s := S20) ![6] S1.size inb_S20_S1_6).toLoadRect xt0 (Shape.Idx.first (numel1_S1.symm ▸ Nat.one_pos)))) (k0_hw8 : k0_chk8 (tbM0_0.view.readAt (Elt F) (Rect.unit (s := S20) ![7] S1.size inb_S20_S1_7).toLoadRect xt0 (Shape.Idx.first (numel1_S1.symm ▸ Nat.one_pos)))) (k0_hw9 : k0_chk9 (tbM0_0.view.readAt (Elt F) (Rect.unit (s := S20) ![8] S1.size inb_S20_S1_8).toLoadRect xt0 (Shape.Idx.first (numel1_S1.symm ▸ Nat.one_pos)))) (k0_hw10 : k0_chk10 (tbM0_0.view.readAt (Elt F) (Rect.unit (s := S20) ![9] S1.size inb_S20_S1_9).toLoadRect xt0 (Shape.Idx.first (numel1_S1.symm ▸ Nat.one_pos)))) (k0_hw11 : k0_chk11 (tbM0_0.view.readAt (Elt F) (Rect.unit (s := S20) ![10] S1.size inb_S20_S1_10).toLoadRect xt0 (Shape.Idx.first (numel1_S1.symm ▸ Nat.one_pos)))) (k0_hw12 : k0_chk12 (tbM0_0.view.readAt (Elt F) (Rect.unit (s := S20) ![11] S1.size inb_S20_S1_11).toLoadRect xt0 (Shape.Idx.first (numel1_S1.symm ▸ Nat.one_pos)))) (k0_hw13 : k0_chk13 (tbM0_0.view.readAt (Elt F) (Rect.unit (s := S20) ![12] S1.size inb_S20_S1_12).toLoadRect xt0 (Shape.Idx.first (numel1_S1.symm ▸ Nat.one_pos)))) (k0_hw14 : k0_chk14 (tbM0_0.view.readAt (Elt F) (Rect.unit (s := S20) ![13] S1.size inb_S20_S1_13).toLoadRect xt0 (Shape.Idx.first (numel1_S1.symm ▸ Nat.one_pos)))) (k0_hw15 : k0_chk15 (tbM0_0.view.readAt (Elt F) (Rect.unit (s := S20) ![14] S1.size inb_S20_S1_14).toLoadRect xt0 (Shape.Idx.first (numel1_S1.symm ▸ Nat.one_pos)))) (k0_hw16 : k0_chk16 (tbM0_0.view.readAt (Elt F) (Rect.unit (s := S20) ![15] S1.size inb_S20_S1_15).toLoadRect xt0 (Shape.Idx.first (numel1_S1.symm ▸ Nat.one_pos)))) (k0_hw17 : k0_chk17 (tbM0_0.view.readAt (Elt F) (Rect.unit (s := S20) ![16] S1.size inb_S20_S1_16).toLoadRect xt0 (Shape.Idx.first (numel1_S1.symm ▸ Nat.one_pos)))) (k0_hw18 : k0_chk18 (tbM0_0.view.readAt (Elt F) (Rect.unit (s := S20) ![17] S1.size inb_S20_S1_17).toLoadRect xt0 (Shape.Idx.first (numel1_S1.symm ▸ Nat.one_pos)))) (k0_hw19 : k0_chk19 (tbM0_0.view.readAt (Elt F) (Rect.unit (s := S20) ![18] S1.size inb_S20_S1_18).toLoadRect xt0 (Shape.Idx.first (numel1_S1.symm ▸ Nat.one_pos)))) (k0_hw20 : k0_chk20 (tbM0_0.view.readAt (Elt F) (Rect.unit (s := S20) ![19] S1.size inb_S20_S1_19).toLoadRect xt0 (Shape.Idx.first (numel1_S1.symm ▸ Nat.one_pos)))) : Vec F S20x128 .f32 :=
  joined ![ReadAs.same.apply ((srcRow (k0_off1 (tbM0_0.view.readAt (Elt F) (Rect.unit (s := S20) ![0] S1.size inb_S20_S1_0).toLoadRect xt0 (Shape.Idx.first (numel1_S1.symm ▸ Nat.one_pos)))) (k0_off1_inb _ k0_hw1)).view.read (Elt F) fh0),
      ReadAs.same.apply ((srcRow (k0_off2 (tbM0_0.view.readAt (Elt F) (Rect.unit (s := S20) ![1] S1.size inb_S20_S1_1).toLoadRect xt0 (Shape.Idx.first (numel1_S1.symm ▸ Nat.one_pos)))) (k0_off2_inb _ k0_hw2)).view.read (Elt F) fh0),
      ReadAs.same.apply ((srcRow (k0_off3 (tbM0_0.view.readAt (Elt F) (Rect.unit (s := S20) ![2] S1.size inb_S20_S1_2).toLoadRect xt0 (Shape.Idx.first (numel1_S1.symm ▸ Nat.one_pos)))) (k0_off3_inb _ k0_hw3)).view.read (Elt F) fh0),
      ReadAs.same.apply ((srcRow (k0_off4 (tbM0_0.view.readAt (Elt F) (Rect.unit (s := S20) ![3] S1.size inb_S20_S1_3).toLoadRect xt0 (Shape.Idx.first (numel1_S1.symm ▸ Nat.one_pos)))) (k0_off4_inb _ k0_hw4)).view.read (Elt F) fh0),
      ReadAs.same.apply ((srcRow (k0_off5 (tbM0_0.view.readAt (Elt F) (Rect.unit (s := S20) ![4] S1.size inb_S20_S1_4).toLoadRect xt0 (Shape.Idx.first (numel1_S1.symm ▸ Nat.one_pos)))) (k0_off5_inb _ k0_hw5)).view.read (Elt F) fh0),
      ReadAs.same.apply ((srcRow (k0_off6 (tbM0_0.view.readAt (Elt F) (Rect.unit (s := S20) ![5] S1.size inb_S20_S1_5).toLoadRect xt0 (Shape.Idx.first (numel1_S1.symm ▸ Nat.one_pos)))) (k0_off6_inb _ k0_hw6)).view.read (Elt F) fh0),
      ReadAs.same.apply ((srcRow (k0_off7 (tbM0_0.view.readAt (Elt F) (Rect.unit (s := S20) ![6] S1.size inb_S20_S1_6).toLoadRect xt0 (Shape.Idx.first (numel1_S1.symm ▸ Nat.one_pos)))) (k0_off7_inb _ k0_hw7)).view.read (Elt F) fh0),
      ReadAs.same.apply ((srcRow (k0_off8 (tbM0_0.view.readAt (Elt F) (Rect.unit (s := S20) ![7] S1.size inb_S20_S1_7).toLoadRect xt0 (Shape.Idx.first (numel1_S1.symm ▸ Nat.one_pos)))) (k0_off8_inb _ k0_hw8)).view.read (Elt F) fh0),
      ReadAs.same.apply ((srcRow (k0_off9 (tbM0_0.view.readAt (Elt F) (Rect.unit (s := S20) ![8] S1.size inb_S20_S1_8).toLoadRect xt0 (Shape.Idx.first (numel1_S1.symm ▸ Nat.one_pos)))) (k0_off9_inb _ k0_hw9)).view.read (Elt F) fh0),
      ReadAs.same.apply ((srcRow (k0_off10 (tbM0_0.view.readAt (Elt F) (Rect.unit (s := S20) ![9] S1.size inb_S20_S1_9).toLoadRect xt0 (Shape.Idx.first (numel1_S1.symm ▸ Nat.one_pos)))) (k0_off10_inb _ k0_hw10)).view.read (Elt F) fh0),
      ReadAs.same.apply ((srcRow (k0_off11 (tbM0_0.view.readAt (Elt F) (Rect.unit (s := S20) ![10] S1.size inb_S20_S1_10).toLoadRect xt0 (Shape.Idx.first (numel1_S1.symm ▸ Nat.one_pos)))) (k0_off11_inb _ k0_hw11)).view.read (Elt F) fh0),
      ReadAs.same.apply ((srcRow (k0_off12 (tbM0_0.view.readAt (Elt F) (Rect.unit (s := S20) ![11] S1.size inb_S20_S1_11).toLoadRect xt0 (Shape.Idx.first (numel1_S1.symm ▸ Nat.one_pos)))) (k0_off12_inb _ k0_hw12)).view.read (Elt F) fh0),
      ReadAs.same.apply ((srcRow (k0_off13 (tbM0_0.view.readAt (Elt F) (Rect.unit (s := S20) ![12] S1.size inb_S20_S1_12).toLoadRect xt0 (Shape.Idx.first (numel1_S1.symm ▸ Nat.one_pos)))) (k0_off13_inb _ k0_hw13)).view.read (Elt F) fh0),
      ReadAs.same.apply ((srcRow (k0_off14 (tbM0_0.view.readAt (Elt F) (Rect.unit (s := S20) ![13] S1.size inb_S20_S1_13).toLoadRect xt0 (Shape.Idx.first (numel1_S1.symm ▸ Nat.one_pos)))) (k0_off14_inb _ k0_hw14)).view.read (Elt F) fh0),
      ReadAs.same.apply ((srcRow (k0_off15 (tbM0_0.view.readAt (Elt F) (Rect.unit (s := S20) ![14] S1.size inb_S20_S1_14).toLoadRect xt0 (Shape.Idx.first (numel1_S1.symm ▸ Nat.one_pos)))) (k0_off15_inb _ k0_hw15)).view.read (Elt F) fh0),
      ReadAs.same.apply ((srcRow (k0_off16 (tbM0_0.view.readAt (Elt F) (Rect.unit (s := S20) ![15] S1.size inb_S20_S1_15).toLoadRect xt0 (Shape.Idx.first (numel1_S1.symm ▸ Nat.one_pos)))) (k0_off16_inb _ k0_hw16)).view.read (Elt F) fh0),
      ReadAs.same.apply ((srcRow (k0_off17 (tbM0_0.view.readAt (Elt F) (Rect.unit (s := S20) ![16] S1.size inb_S20_S1_16).toLoadRect xt0 (Shape.Idx.first (numel1_S1.symm ▸ Nat.one_pos)))) (k0_off17_inb _ k0_hw17)).view.read (Elt F) fh0),
      ReadAs.same.apply ((srcRow (k0_off18 (tbM0_0.view.readAt (Elt F) (Rect.unit (s := S20) ![17] S1.size inb_S20_S1_17).toLoadRect xt0 (Shape.Idx.first (numel1_S1.symm ▸ Nat.one_pos)))) (k0_off18_inb _ k0_hw18)).view.read (Elt F) fh0),
      ReadAs.same.apply ((srcRow (k0_off19 (tbM0_0.view.readAt (Elt F) (Rect.unit (s := S20) ![18] S1.size inb_S20_S1_18).toLoadRect xt0 (Shape.Idx.first (numel1_S1.symm ▸ Nat.one_pos)))) (k0_off19_inb _ k0_hw19)).view.read (Elt F) fh0),
      ReadAs.same.apply ((srcRow (k0_off20 (tbM0_0.view.readAt (Elt F) (Rect.unit (s := S20) ![19] S1.size inb_S20_S1_19).toLoadRect xt0 (Shape.Idx.first (numel1_S1.symm ▸ Nat.one_pos)))) (k0_off20_inb _ k0_hw20)).view.read (Elt F) fh0)]

/-- What the run's one piece holds: the payload of the block of `xw`, the gathered rows and the code column. -/
theorem out_eq (c : Dev nD) (i : grid0.Coords) (arg2 : Memref sig .tc .vmem S4096x128 .f32) (harg2 : arg2.IsWhole) (arg4 : Memref sig .tc .vmem S20x1 .f32) (harg4 : arg4.IsWhole) (arg5 : Memref sig .tc .vmem S1x4096 .f32) (harg5 : arg5.IsWhole)
    (x0 : Vec F S4096x128 .f32) (x1 : Vec F S20x1 .f32) (xt0 : TbBuf0 (F := F) c tbM0_0) (fh0 : HbBuf0 (F := F) c hbM0_0)
    (k0_hw1 : k0_chk1 (tbM0_0.view.readAt (Elt F) (Rect.unit (s := S20) ![0] S1.size inb_S20_S1_0).toLoadRect xt0 (Shape.Idx.first (numel1_S1.symm ▸ Nat.one_pos)))) (k0_hw2 : k0_chk2 (tbM0_0.view.readAt (Elt F) (Rect.unit (s := S20) ![1] S1.size inb_S20_S1_1).toLoadRect xt0 (Shape.Idx.first (numel1_S1.symm ▸ Nat.one_pos)))) (k0_hw3 : k0_chk3 (tbM0_0.view.readAt (Elt F) (Rect.unit (s := S20) ![2] S1.size inb_S20_S1_2).toLoadRect xt0 (Shape.Idx.first (numel1_S1.symm ▸ Nat.one_pos)))) (k0_hw4 : k0_chk4 (tbM0_0.view.readAt (Elt F) (Rect.unit (s := S20) ![3] S1.size inb_S20_S1_3).toLoadRect xt0 (Shape.Idx.first (numel1_S1.symm ▸ Nat.one_pos)))) (k0_hw5 : k0_chk5 (tbM0_0.view.readAt (Elt F) (Rect.unit (s := S20) ![4] S1.size inb_S20_S1_4).toLoadRect xt0 (Shape.Idx.first (numel1_S1.symm ▸ Nat.one_pos)))) (k0_hw6 : k0_chk6 (tbM0_0.view.readAt (Elt F) (Rect.unit (s := S20) ![5] S1.size inb_S20_S1_5).toLoadRect xt0 (Shape.Idx.first (numel1_S1.symm ▸ Nat.one_pos)))) (k0_hw7 : k0_chk7 (tbM0_0.view.readAt (Elt F) (Rect.unit (s := S20) ![6] S1.size inb_S20_S1_6).toLoadRect xt0 (Shape.Idx.first (numel1_S1.symm ▸ Nat.one_pos)))) (k0_hw8 : k0_chk8 (tbM0_0.view.readAt (Elt F) (Rect.unit (s := S20) ![7] S1.size inb_S20_S1_7).toLoadRect xt0 (Shape.Idx.first (numel1_S1.symm ▸ Nat.one_pos)))) (k0_hw9 : k0_chk9 (tbM0_0.view.readAt (Elt F) (Rect.unit (s := S20) ![8] S1.size inb_S20_S1_8).toLoadRect xt0 (Shape.Idx.first (numel1_S1.symm ▸ Nat.one_pos)))) (k0_hw10 : k0_chk10 (tbM0_0.view.readAt (Elt F) (Rect.unit (s := S20) ![9] S1.size inb_S20_S1_9).toLoadRect xt0 (Shape.Idx.first (numel1_S1.symm ▸ Nat.one_pos)))) (k0_hw11 : k0_chk11 (tbM0_0.view.readAt (Elt F) (Rect.unit (s := S20) ![10] S1.size inb_S20_S1_10).toLoadRect xt0 (Shape.Idx.first (numel1_S1.symm ▸ Nat.one_pos)))) (k0_hw12 : k0_chk12 (tbM0_0.view.readAt (Elt F) (Rect.unit (s := S20) ![11] S1.size inb_S20_S1_11).toLoadRect xt0 (Shape.Idx.first (numel1_S1.symm ▸ Nat.one_pos)))) (k0_hw13 : k0_chk13 (tbM0_0.view.readAt (Elt F) (Rect.unit (s := S20) ![12] S1.size inb_S20_S1_12).toLoadRect xt0 (Shape.Idx.first (numel1_S1.symm ▸ Nat.one_pos)))) (k0_hw14 : k0_chk14 (tbM0_0.view.readAt (Elt F) (Rect.unit (s := S20) ![13] S1.size inb_S20_S1_13).toLoadRect xt0 (Shape.Idx.first (numel1_S1.symm ▸ Nat.one_pos)))) (k0_hw15 : k0_chk15 (tbM0_0.view.readAt (Elt F) (Rect.unit (s := S20) ![14] S1.size inb_S20_S1_14).toLoadRect xt0 (Shape.Idx.first (numel1_S1.symm ▸ Nat.one_pos)))) (k0_hw16 : k0_chk16 (tbM0_0.view.readAt (Elt F) (Rect.unit (s := S20) ![15] S1.size inb_S20_S1_15).toLoadRect xt0 (Shape.Idx.first (numel1_S1.symm ▸ Nat.one_pos)))) (k0_hw17 : k0_chk17 (tbM0_0.view.readAt (Elt F) (Rect.unit (s := S20) ![16] S1.size inb_S20_S1_16).toLoadRect xt0 (Shape.Idx.first (numel1_S1.symm ▸ Nat.one_pos)))) (k0_hw18 : k0_chk18 (tbM0_0.view.readAt (Elt F) (Rect.unit (s := S20) ![17] S1.size inb_S20_S1_17).toLoadRect xt0 (Shape.Idx.first (numel1_S1.symm ▸ Nat.one_pos)))) (k0_hw19 : k0_chk19 (tbM0_0.view.readAt (Elt F) (Rect.unit (s := S20) ![18] S1.size inb_S20_S1_18).toLoadRect xt0 (Shape.Idx.first (numel1_S1.symm ▸ Nat.one_pos)))) (k0_hw20 : k0_chk20 (tbM0_0.view.readAt (Elt F) (Rect.unit (s := S20) ![19] S1.size inb_S20_S1_19).toLoadRect xt0 (Shape.Idx.first (numel1_S1.symm ▸ Nat.one_pos)))) :
    out0_A_2 c i arg2 harg2 arg4 harg4 arg5 harg5 x0 x1 xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 = k0_pay1 (k0_pay2 x0 (gathered c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20) x1) := by
  unfold out0_A_2
  rw [View.read_writes_eq_canon _ _ _ (cover0_A_2 c i arg2 harg2 arg4 harg4 arg5 harg5 x0 x1 xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20)]
  unfold kernelRun0_A
  dsimp only
  sl_unfold_words
  rw [View.canon_unit_zero hz2]
  simp only [View.readAt_eq_ld, harg2.read_unread, harg4.read_unread, View.ld_unit_zero (S := S4096x128) hz2,
    View.ld_unit_zero (S := S20x128) hz2, View.ld_unit_zero (S := S20x1) hz2, Memref.view_whole, View.read_whole]
  rfl

/-! ## The windows' blocks: where a block index sits in its array -/

/-- The index maps at a grid point, read off the point: the block of `xw` is (t, 0), of the code (0, 0), of the
    result (0, t). -/
theorem ix_facts : ∀ t : Fin grid0.N,
    cc0_transform_0 (grid0.coords t) 0 = t.val ∧ cc0_transform_0 (grid0.coords t) 1 = 0
    ∧ cc0_transform_2 (grid0.coords t) 0 = 0 ∧ cc0_transform_2 (grid0.coords t) 1 = 0
    ∧ cc0_transform_3 (grid0.coords t) 0 = 0 ∧ cc0_transform_3 (grid0.coords t) 1 = t.val := by decide +kernel

/-- The result's window is written back at every point. -/
theorem flush2 (a : (pcfg0 (F := F)).Adm) : ∀ t : Fin (cfg0 a).N, ((cfg0 a).win 2).flush t = true :=
  (by decide +kernel : ∀ t : Fin grid0.N, Pipeline.Window.flushOf grid0 true cc0_transform_3 t = true)

theorem emb0_eq (a : (pcfg0 (F := F)).Adm) (t : Fin (cfg0 a).N) (x : (((cfg0 a).win 0).xblock ((cfg0 a).grid.coords t)).Idx) (ax : Fin 2) :
    ((((cfg0 a).win 0).blk t).view.emb x ax).val = (![4096 * t.val, 0] : Fin 2 → ℕ) ax + (x ax).val := by
  have e : cc0_transform_0 (grid0.coords t) ax * S4096x128.size ax = (![4096 * t.val, 0] : Fin 2 → ℕ) ax := by
    have h := ix_facts t
    fin_cases ax
    · show cc0_transform_0 (grid0.coords t) 0 * 4096 = 4096 * t.val
      rw [h.1] <;> omega
    · show cc0_transform_0 (grid0.coords t) 1 * 128 = 0
      rw [h.2.1] <;> omega
  show cc0_transform_0 (grid0.coords t) ax * S4096x128.size ax + 1 * (x ax).val = _
  omega
theorem emb1_eq (a : (pcfg0 (F := F)).Adm) (t : Fin (cfg0 a).N) (x : (((cfg0 a).win 1).xblock ((cfg0 a).grid.coords t)).Idx) (ax : Fin 2) :
    ((((cfg0 a).win 1).blk t).view.emb x ax).val = (![0, 0] : Fin 2 → ℕ) ax + (x ax).val := by
  have e : cc0_transform_2 (grid0.coords t) ax * S20x1.size ax = (![0, 0] : Fin 2 → ℕ) ax := by
    have h := ix_facts t
    fin_cases ax
    · show cc0_transform_2 (grid0.coords t) 0 * 20 = 0
      rw [h.2.2.1] <;> omega
    · show cc0_transform_2 (grid0.coords t) 1 * 1 = 0
      rw [h.2.2.2.1] <;> omega
  show cc0_transform_2 (grid0.coords t) ax * S20x1.size ax + 1 * (x ax).val = _
  omega
theorem emb2_eq (a : (pcfg0 (F := F)).Adm) (t : Fin (cfg0 a).N) (x : (((cfg0 a).win 2).xblock ((cfg0 a).grid.coords t)).Idx) (ax : Fin 2) :
    ((((cfg0 a).win 2).blk t).view.emb x ax).val = (![0, 4096 * t.val] : Fin 2 → ℕ) ax + (x ax).val := by
  have e : cc0_transform_3 (grid0.coords t) ax * S1x4096.size ax = (![0, 4096 * t.val] : Fin 2 → ℕ) ax := by
    have h := ix_facts t
    fin_cases ax
    · show cc0_transform_3 (grid0.coords t) 0 * 1 = 0
      rw [h.2.2.2.2.1] <;> omega
    · show cc0_transform_3 (grid0.coords t) 1 * 4096 = 4096 * t.val
      rw [h.2.2.2.2.2] <;> omega
  show cc0_transform_3 (grid0.coords t) ax * S1x4096.size ax + 1 * (x ax).val = _
  omega

/-- The same as equations between indices. -/
theorem emb0_ix (a : (pcfg0 (F := F)).Adm) (t : Fin (cfg0 a).N) (q : Fin 4096) (d : Fin 128) (b : Fin 16384) (hb : b.val = 4096 * t.val + q.val) :
    (((cfg0 a).win 0).blk t).view.emb (ValueIdx.ix2 q d) = (ValueIdx.ix2 b d : S16384x128.Idx) := by
  funext ax
  apply Fin.ext
  refine (emb0_eq a t (ValueIdx.ix2 q d) ax).trans ?_
  fin_cases ax
  · show 4096 * t.val + q.val = b.val; omega
  · show 0 + d.val = d.val; omega
theorem emb1_ix (a : (pcfg0 (F := F)).Adm) (t : Fin (cfg0 a).N) (l : Fin 20) :
    (((cfg0 a).win 1).blk t).view.emb (ValueIdx.ix2 l (0 : Fin 1)) = (ValueIdx.ix2 l (0 : Fin 1) : S20x1.Idx) := by
  funext ax
  apply Fin.ext
  refine (emb1_eq a t (ValueIdx.ix2 l (0 : Fin 1)) ax).trans ?_
  fin_cases ax
  · show 0 + l.val = l.val; omega
  · show 0 + 0 = 0; rfl
theorem emb2_ix (a : (pcfg0 (F := F)).Adm) (t : Fin (cfg0 a).N) (q : Fin 4096) (b : Fin 16384) (hb : b.val = 4096 * t.val + q.val) :
    (((cfg0 a).win 2).blk t).view.emb (ValueIdx.ix2 (0 : Fin 1) q) = (ValueIdx.ix2 (0 : Fin 1) b : S1x16384.Idx) := by
  funext ax
  apply Fin.ext
  refine (emb2_eq a t (ValueIdx.ix2 (0 : Fin 1) q) ax).trans ?_
  fin_cases ax
  · show 0 + 0 = 0; rfl
  · show 4096 * t.val + q.val = b.val; omega

/-! ## A row of the weight table read through a copy's source -/

/-- The copy's source at offsets `o`, read at lane `d`: the weight table at row `o 0`, column `o 1 + d`. -/
theorem src_read (c : Dev nD) (o : Fin 2 → ℕ) (h : ∀ a, o a + S1x128.size a ≤ S1000000x128.size a)
    (fh0 : HbBuf0 (F := F) c hbM0_0) (d : Fin 128) (i : S1000000x128.Idx) (h0 : (i 0).val = o 0) (h1 : (i 1).val = o 1 + d.val) :
    ReadAs.same.apply ((srcRow o h).view.read (Elt F) fh0) (ValueIdx.ix1 d) = (fh0 : Vec F S1000000x128 .f32) i := by
  show (fh0 : Vec F S1000000x128 .f32) ((srcRow o h).view.emb (ValueIdx.ix1 d)) = _
  refine congrArg (fh0 : Vec F S1000000x128 .f32) (funext fun ax => Fin.ext ?_)
  have hy : Shape.reshapeEquiv (Shape.Squeezes.numel_eq squeezes_S1x128_S128) (ValueIdx.ix1 d) = Fin.cons ⟨0, Nat.one_pos⟩ (ValueIdx.ix1 d) :=
    Shape.reshapeEquiv_cons_one (d := ![128]) _ _
  show o ax + 1 * ((Shape.reshapeEquiv (Shape.Squeezes.numel_eq squeezes_S1x128_S128) (ValueIdx.ix1 d)) ax).val = (i ax).val
  rw [hy]
  fin_cases ax
  · show o 0 + 1 * 0 = (i 0).val; omega
  · show o 1 + 1 * d.val = (i 1).val; omega

/-- The word at cell `k` of the table, the cell's position below twenty read off the rectangle's bound. -/
theorem word_at' (f : IVec S20 32) (k : Nat) (inb : ∀ a, (![k] : Fin 1 → Nat) a + S1.size a ≤ S20.size a) (h1 : 0 < S1.numel) :
    tbM0_0.view.readAt (Elt F) (Rect.unit (s := S20) ![k] S1.size inb).toLoadRect f (Shape.Idx.first h1)
      = f (ValueIdx.ix1 ⟨k, by have := inb 0; show k < 20; have e : (![k] : Fin 1 → Nat) 0 + S1.size 0 = k + 1 := rfl; have e' : S20.size 0 = 20 := rfl; omega⟩) :=
  word_at f k _ inb h1

/-- The gathered rows at (l, d): the weight table at the row path word `l` names, column `d`. -/
theorem gathered_apply (c : Dev nD) (xt0 : TbBuf0 (F := F) c tbM0_0) (fh0 : HbBuf0 (F := F) c hbM0_0)
    (k0_hw1 : k0_chk1 (tbM0_0.view.readAt (Elt F) (Rect.unit (s := S20) ![0] S1.size inb_S20_S1_0).toLoadRect xt0 (Shape.Idx.first (numel1_S1.symm ▸ Nat.one_pos)))) (k0_hw2 : k0_chk2 (tbM0_0.view.readAt (Elt F) (Rect.unit (s := S20) ![1] S1.size inb_S20_S1_1).toLoadRect xt0 (Shape.Idx.first (numel1_S1.symm ▸ Nat.one_pos)))) (k0_hw3 : k0_chk3 (tbM0_0.view.readAt (Elt F) (Rect.unit (s := S20) ![2] S1.size inb_S20_S1_2).toLoadRect xt0 (Shape.Idx.first (numel1_S1.symm ▸ Nat.one_pos)))) (k0_hw4 : k0_chk4 (tbM0_0.view.readAt (Elt F) (Rect.unit (s := S20) ![3] S1.size inb_S20_S1_3).toLoadRect xt0 (Shape.Idx.first (numel1_S1.symm ▸ Nat.one_pos)))) (k0_hw5 : k0_chk5 (tbM0_0.view.readAt (Elt F) (Rect.unit (s := S20) ![4] S1.size inb_S20_S1_4).toLoadRect xt0 (Shape.Idx.first (numel1_S1.symm ▸ Nat.one_pos)))) (k0_hw6 : k0_chk6 (tbM0_0.view.readAt (Elt F) (Rect.unit (s := S20) ![5] S1.size inb_S20_S1_5).toLoadRect xt0 (Shape.Idx.first (numel1_S1.symm ▸ Nat.one_pos)))) (k0_hw7 : k0_chk7 (tbM0_0.view.readAt (Elt F) (Rect.unit (s := S20) ![6] S1.size inb_S20_S1_6).toLoadRect xt0 (Shape.Idx.first (numel1_S1.symm ▸ Nat.one_pos)))) (k0_hw8 : k0_chk8 (tbM0_0.view.readAt (Elt F) (Rect.unit (s := S20) ![7] S1.size inb_S20_S1_7).toLoadRect xt0 (Shape.Idx.first (numel1_S1.symm ▸ Nat.one_pos)))) (k0_hw9 : k0_chk9 (tbM0_0.view.readAt (Elt F) (Rect.unit (s := S20) ![8] S1.size inb_S20_S1_8).toLoadRect xt0 (Shape.Idx.first (numel1_S1.symm ▸ Nat.one_pos)))) (k0_hw10 : k0_chk10 (tbM0_0.view.readAt (Elt F) (Rect.unit (s := S20) ![9] S1.size inb_S20_S1_9).toLoadRect xt0 (Shape.Idx.first (numel1_S1.symm ▸ Nat.one_pos)))) (k0_hw11 : k0_chk11 (tbM0_0.view.readAt (Elt F) (Rect.unit (s := S20) ![10] S1.size inb_S20_S1_10).toLoadRect xt0 (Shape.Idx.first (numel1_S1.symm ▸ Nat.one_pos)))) (k0_hw12 : k0_chk12 (tbM0_0.view.readAt (Elt F) (Rect.unit (s := S20) ![11] S1.size inb_S20_S1_11).toLoadRect xt0 (Shape.Idx.first (numel1_S1.symm ▸ Nat.one_pos)))) (k0_hw13 : k0_chk13 (tbM0_0.view.readAt (Elt F) (Rect.unit (s := S20) ![12] S1.size inb_S20_S1_12).toLoadRect xt0 (Shape.Idx.first (numel1_S1.symm ▸ Nat.one_pos)))) (k0_hw14 : k0_chk14 (tbM0_0.view.readAt (Elt F) (Rect.unit (s := S20) ![13] S1.size inb_S20_S1_13).toLoadRect xt0 (Shape.Idx.first (numel1_S1.symm ▸ Nat.one_pos)))) (k0_hw15 : k0_chk15 (tbM0_0.view.readAt (Elt F) (Rect.unit (s := S20) ![14] S1.size inb_S20_S1_14).toLoadRect xt0 (Shape.Idx.first (numel1_S1.symm ▸ Nat.one_pos)))) (k0_hw16 : k0_chk16 (tbM0_0.view.readAt (Elt F) (Rect.unit (s := S20) ![15] S1.size inb_S20_S1_15).toLoadRect xt0 (Shape.Idx.first (numel1_S1.symm ▸ Nat.one_pos)))) (k0_hw17 : k0_chk17 (tbM0_0.view.readAt (Elt F) (Rect.unit (s := S20) ![16] S1.size inb_S20_S1_16).toLoadRect xt0 (Shape.Idx.first (numel1_S1.symm ▸ Nat.one_pos)))) (k0_hw18 : k0_chk18 (tbM0_0.view.readAt (Elt F) (Rect.unit (s := S20) ![17] S1.size inb_S20_S1_17).toLoadRect xt0 (Shape.Idx.first (numel1_S1.symm ▸ Nat.one_pos)))) (k0_hw19 : k0_chk19 (tbM0_0.view.readAt (Elt F) (Rect.unit (s := S20) ![18] S1.size inb_S20_S1_18).toLoadRect xt0 (Shape.Idx.first (numel1_S1.symm ▸ Nat.one_pos)))) (k0_hw20 : k0_chk20 (tbM0_0.view.readAt (Elt F) (Rect.unit (s := S20) ![19] S1.size inb_S20_S1_19).toLoadRect xt0 (Shape.Idx.first (numel1_S1.symm ▸ Nat.one_pos))))
    (l : Fin 20) (d : Fin 128) (r : Fin 1000000) (hr : r.val = ((xt0 : IVec S20 32) (ValueIdx.ix1 l)).toNat) :
    gathered c xt0 fh0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 (ValueIdx.ix2 l d) = (fh0 : Vec F S1000000x128 .f32) (ValueIdx.ix2 r d) := by
  fin_cases l
  · exact src_read c (k0_off1 (tbM0_0.view.readAt (Elt F) (Rect.unit (s := S20) ![0] S1.size inb_S20_S1_0).toLoadRect xt0 (Shape.Idx.first (numel1_S1.symm ▸ Nat.one_pos)))) (k0_off1_inb _ k0_hw1) fh0 d (ValueIdx.ix2 r d)
      (hr.trans (congrArg BitVec.toNat (word_at' (F := F) (xt0 : IVec S20 32) 0 inb_S20_S1_0 _).symm))
      (by show d.val = 0 + d.val; omega)
  · exact src_read c (k0_off2 (tbM0_0.view.readAt (Elt F) (Rect.unit (s := S20) ![1] S1.size inb_S20_S1_1).toLoadRect xt0 (Shape.Idx.first (numel1_S1.symm ▸ Nat.one_pos)))) (k0_off2_inb _ k0_hw2) fh0 d (ValueIdx.ix2 r d)
      (hr.trans (congrArg BitVec.toNat (word_at' (F := F) (xt0 : IVec S20 32) 1 inb_S20_S1_1 _).symm))
      (by show d.val = 0 + d.val; omega)
  · exact src_read c (k0_off3 (tbM0_0.view.readAt (Elt F) (Rect.unit (s := S20) ![2] S1.size inb_S20_S1_2).toLoadRect xt0 (Shape.Idx.first (numel1_S1.symm ▸ Nat.one_pos)))) (k0_off3_inb _ k0_hw3) fh0 d (ValueIdx.ix2 r d)
      (hr.trans (congrArg BitVec.toNat (word_at' (F := F) (xt0 : IVec S20 32) 2 inb_S20_S1_2 _).symm))
      (by show d.val = 0 + d.val; omega)
  · exact src_read c (k0_off4 (tbM0_0.view.readAt (Elt F) (Rect.unit (s := S20) ![3] S1.size inb_S20_S1_3).toLoadRect xt0 (Shape.Idx.first (numel1_S1.symm ▸ Nat.one_pos)))) (k0_off4_inb _ k0_hw4) fh0 d (ValueIdx.ix2 r d)
      (hr.trans (congrArg BitVec.toNat (word_at' (F := F) (xt0 : IVec S20 32) 3 inb_S20_S1_3 _).symm))
      (by show d.val = 0 + d.val; omega)
  · exact src_read c (k0_off5 (tbM0_0.view.readAt (Elt F) (Rect.unit (s := S20) ![4] S1.size inb_S20_S1_4).toLoadRect xt0 (Shape.Idx.first (numel1_S1.symm ▸ Nat.one_pos)))) (k0_off5_inb _ k0_hw5) fh0 d (ValueIdx.ix2 r d)
      (hr.trans (congrArg BitVec.toNat (word_at' (F := F) (xt0 : IVec S20 32) 4 inb_S20_S1_4 _).symm))
      (by show d.val = 0 + d.val; omega)
  · exact src_read c (k0_off6 (tbM0_0.view.readAt (Elt F) (Rect.unit (s := S20) ![5] S1.size inb_S20_S1_5).toLoadRect xt0 (Shape.Idx.first (numel1_S1.symm ▸ Nat.one_pos)))) (k0_off6_inb _ k0_hw6) fh0 d (ValueIdx.ix2 r d)
      (hr.trans (congrArg BitVec.toNat (word_at' (F := F) (xt0 : IVec S20 32) 5 inb_S20_S1_5 _).symm))
      (by show d.val = 0 + d.val; omega)
  · exact src_read c (k0_off7 (tbM0_0.view.readAt (Elt F) (Rect.unit (s := S20) ![6] S1.size inb_S20_S1_6).toLoadRect xt0 (Shape.Idx.first (numel1_S1.symm ▸ Nat.one_pos)))) (k0_off7_inb _ k0_hw7) fh0 d (ValueIdx.ix2 r d)
      (hr.trans (congrArg BitVec.toNat (word_at' (F := F) (xt0 : IVec S20 32) 6 inb_S20_S1_6 _).symm))
      (by show d.val = 0 + d.val; omega)
  · exact src_read c (k0_off8 (tbM0_0.view.readAt (Elt F) (Rect.unit (s := S20) ![7] S1.size inb_S20_S1_7).toLoadRect xt0 (Shape.Idx.first (numel1_S1.symm ▸ Nat.one_pos)))) (k0_off8_inb _ k0_hw8) fh0 d (ValueIdx.ix2 r d)
      (hr.trans (congrArg BitVec.toNat (word_at' (F := F) (xt0 : IVec S20 32) 7 inb_S20_S1_7 _).symm))
      (by show d.val = 0 + d.val; omega)
  · exact src_read c (k0_off9 (tbM0_0.view.readAt (Elt F) (Rect.unit (s := S20) ![8] S1.size inb_S20_S1_8).toLoadRect xt0 (Shape.Idx.first (numel1_S1.symm ▸ Nat.one_pos)))) (k0_off9_inb _ k0_hw9) fh0 d (ValueIdx.ix2 r d)
      (hr.trans (congrArg BitVec.toNat (word_at' (F := F) (xt0 : IVec S20 32) 8 inb_S20_S1_8 _).symm))
      (by show d.val = 0 + d.val; omega)
  · exact src_read c (k0_off10 (tbM0_0.view.readAt (Elt F) (Rect.unit (s := S20) ![9] S1.size inb_S20_S1_9).toLoadRect xt0 (Shape.Idx.first (numel1_S1.symm ▸ Nat.one_pos)))) (k0_off10_inb _ k0_hw10) fh0 d (ValueIdx.ix2 r d)
      (hr.trans (congrArg BitVec.toNat (word_at' (F := F) (xt0 : IVec S20 32) 9 inb_S20_S1_9 _).symm))
      (by show d.val = 0 + d.val; omega)
  · exact src_read c (k0_off11 (tbM0_0.view.readAt (Elt F) (Rect.unit (s := S20) ![10] S1.size inb_S20_S1_10).toLoadRect xt0 (Shape.Idx.first (numel1_S1.symm ▸ Nat.one_pos)))) (k0_off11_inb _ k0_hw11) fh0 d (ValueIdx.ix2 r d)
      (hr.trans (congrArg BitVec.toNat (word_at' (F := F) (xt0 : IVec S20 32) 10 inb_S20_S1_10 _).symm))
      (by show d.val = 0 + d.val; omega)
  · exact src_read c (k0_off12 (tbM0_0.view.readAt (Elt F) (Rect.unit (s := S20) ![11] S1.size inb_S20_S1_11).toLoadRect xt0 (Shape.Idx.first (numel1_S1.symm ▸ Nat.one_pos)))) (k0_off12_inb _ k0_hw12) fh0 d (ValueIdx.ix2 r d)
      (hr.trans (congrArg BitVec.toNat (word_at' (F := F) (xt0 : IVec S20 32) 11 inb_S20_S1_11 _).symm))
      (by show d.val = 0 + d.val; omega)
  · exact src_read c (k0_off13 (tbM0_0.view.readAt (Elt F) (Rect.unit (s := S20) ![12] S1.size inb_S20_S1_12).toLoadRect xt0 (Shape.Idx.first (numel1_S1.symm ▸ Nat.one_pos)))) (k0_off13_inb _ k0_hw13) fh0 d (ValueIdx.ix2 r d)
      (hr.trans (congrArg BitVec.toNat (word_at' (F := F) (xt0 : IVec S20 32) 12 inb_S20_S1_12 _).symm))
      (by show d.val = 0 + d.val; omega)
  · exact src_read c (k0_off14 (tbM0_0.view.readAt (Elt F) (Rect.unit (s := S20) ![13] S1.size inb_S20_S1_13).toLoadRect xt0 (Shape.Idx.first (numel1_S1.symm ▸ Nat.one_pos)))) (k0_off14_inb _ k0_hw14) fh0 d (ValueIdx.ix2 r d)
      (hr.trans (congrArg BitVec.toNat (word_at' (F := F) (xt0 : IVec S20 32) 13 inb_S20_S1_13 _).symm))
      (by show d.val = 0 + d.val; omega)
  · exact src_read c (k0_off15 (tbM0_0.view.readAt (Elt F) (Rect.unit (s := S20) ![14] S1.size inb_S20_S1_14).toLoadRect xt0 (Shape.Idx.first (numel1_S1.symm ▸ Nat.one_pos)))) (k0_off15_inb _ k0_hw15) fh0 d (ValueIdx.ix2 r d)
      (hr.trans (congrArg BitVec.toNat (word_at' (F := F) (xt0 : IVec S20 32) 14 inb_S20_S1_14 _).symm))
      (by show d.val = 0 + d.val; omega)
  · exact src_read c (k0_off16 (tbM0_0.view.readAt (Elt F) (Rect.unit (s := S20) ![15] S1.size inb_S20_S1_15).toLoadRect xt0 (Shape.Idx.first (numel1_S1.symm ▸ Nat.one_pos)))) (k0_off16_inb _ k0_hw16) fh0 d (ValueIdx.ix2 r d)
      (hr.trans (congrArg BitVec.toNat (word_at' (F := F) (xt0 : IVec S20 32) 15 inb_S20_S1_15 _).symm))
      (by show d.val = 0 + d.val; omega)
  · exact src_read c (k0_off17 (tbM0_0.view.readAt (Elt F) (Rect.unit (s := S20) ![16] S1.size inb_S20_S1_16).toLoadRect xt0 (Shape.Idx.first (numel1_S1.symm ▸ Nat.one_pos)))) (k0_off17_inb _ k0_hw17) fh0 d (ValueIdx.ix2 r d)
      (hr.trans (congrArg BitVec.toNat (word_at' (F := F) (xt0 : IVec S20 32) 16 inb_S20_S1_16 _).symm))
      (by show d.val = 0 + d.val; omega)
  · exact src_read c (k0_off18 (tbM0_0.view.readAt (Elt F) (Rect.unit (s := S20) ![17] S1.size inb_S20_S1_17).toLoadRect xt0 (Shape.Idx.first (numel1_S1.symm ▸ Nat.one_pos)))) (k0_off18_inb _ k0_hw18) fh0 d (ValueIdx.ix2 r d)
      (hr.trans (congrArg BitVec.toNat (word_at' (F := F) (xt0 : IVec S20 32) 17 inb_S20_S1_17 _).symm))
      (by show d.val = 0 + d.val; omega)
  · exact src_read c (k0_off19 (tbM0_0.view.readAt (Elt F) (Rect.unit (s := S20) ![18] S1.size inb_S20_S1_18).toLoadRect xt0 (Shape.Idx.first (numel1_S1.symm ▸ Nat.one_pos)))) (k0_off19_inb _ k0_hw19) fh0 d (ValueIdx.ix2 r d)
      (hr.trans (congrArg BitVec.toNat (word_at' (F := F) (xt0 : IVec S20 32) 18 inb_S20_S1_18 _).symm))
      (by show d.val = 0 + d.val; omega)
  · exact src_read c (k0_off20 (tbM0_0.view.readAt (Elt F) (Rect.unit (s := S20) ![19] S1.size inb_S20_S1_19).toLoadRect xt0 (Shape.Idx.first (numel1_S1.symm ▸ Nat.one_pos)))) (k0_off20_inb _ k0_hw20) fh0 d (ValueIdx.ix2 r d)
      (hr.trans (congrArg BitVec.toNat (word_at' (F := F) (xt0 : IVec S20 32) 19 inb_S20_S1_19 _).symm))
      (by show d.val = 0 + d.val; omega)

/-! ## From here on the floats are extended reals -/

section AtIdeal

open Idealize.ShloMosaic.ValueIdx

variable (m : (ℓ : Loc nD τ sig) → Buf (Elt Ideal) ℓ) (ρ : Dev nD → PrngReg)

/-- The four argument arrays as launched. -/
abbrev XW (c : Dev nD) : Vec Ideal S16384x128 .f32 := m ((c : Thread nD τ).loc main_arg0)
abbrev WT (c : Dev nD) : Vec Ideal S1000000x128 .f32 := m ((c : Thread nD τ).loc main_arg1)
abbrev HC (c : Dev nD) : Vec Ideal S20 .f32 := m ((c : Thread nD τ).loc main_arg2)
abbrev HP (c : Dev nD) : IVec S20 32 := m ((c : Thread nD τ).loc main_arg3)

/-- What the [1, 16384] result array is shown to hold: at (0, b), the specification's value at batch row b. -/
def val (c : Dev nD) : Vec Ideal S1x16384 .f32 :=
  fun j => Cert.Spec.Gb (XW m c) (WT m c) (HC m c) (HP m c) ⟨(j 1).val, idx2_lt1 j⟩

/-- The two input blocks at point `t`, named at their literal types. -/
abbrev xblk (c : Dev nD) (t : Fin (cfgM m).N) : Vec Ideal S4096x128 .f32 := iblk m c 0 t
abbrev hblk (c : Dev nD) (t : Fin (cfgM m).N) : Vec Ideal S20x1 .f32 := iblk m c 1 t

/-- The block of `xw` at point `t`, at (q, d): `xw` at row 4096 t + q. -/
theorem blk0_apply (c : Dev nD) (t : Fin (cfgM m).N) (q : Fin 4096) (d : Fin 128) (b : Fin 16384) (hb : b.val = 4096 * t.val + q.val) :
    xblk m c t (ix2 q d) = XW m c (ix2 b d) := by
  show V m c main_arg0 ((((cfgM m).win 0).blk t).view.emb (ix2 q d)) = _
  refine (congrArg (V m c main_arg0) (emb0_ix (adm m) t q d b hb)).trans ?_
  exact congrFun (V_main_arg0 m c) _

/-- The code block, at (l, 0): the path code at l. -/
theorem blk1_apply (c : Dev nD) (t : Fin (cfgM m).N) (l : Fin 20) :
    hblk m c t (ix2 l (0 : Fin 1)) = HC m c (ix1 l) := by
  show (V m c main_v0 : Vec Ideal S20x1 .f32) ((((cfgM m).win 1).blk t).view.emb (ix2 l (0 : Fin 1))) = _
  refine (congrArg (V m c main_v0 : Vec Ideal S20x1 .f32) (emb1_ix (adm m) t l)).trans ?_
  refine (congrFun (V_main_v0 m c) _).trans ?_
  refine shapeCast_apply _ _ _ (ix1 l) ?_
  rw [Shape.rowMajor_val_one, Shape.rowMajor_val_two]
  show l.val = l.val * 1 + 0
  omega

end AtIdeal

section AtIdeal2

open Idealize.ShloMosaic.ValueIdx

variable (m : (ℓ : Loc nD τ sig) → Buf (Elt Ideal) ℓ) (ρ : Dev nD → PrngReg)

/-- The stored block at lane q: the kernel-shaped double sum over path positions and features of the point's blocks. -/
theorem outs_apply (hH : Hyps m) (t : Fin (cfgM m).N) (q : Fin 4096) :
    (outsAt0 m hH 0 t) (ix2 (0 : Fin 1) q)
      = ∑ l : Fin 20, Cert.Spec.term ((hblk m 0 t (ix2 l (0 : Fin 1))))
          (∑ d : Fin 128, (gathered (F := Ideal) 0 (tbl m 0) (V m 0 main_arg1) hH.h1 hH.h2 hH.h3 hH.h4 hH.h5 hH.h6 hH.h7 hH.h8 hH.h9 hH.h10 hH.h11 hH.h12 hH.h13 hH.h14 hH.h15 hH.h16 hH.h17 hH.h18 hH.h19 hH.h20) (ix2 l d) * xblk m 0 t (ix2 q d)) := by
  unfold outsAt0
  refine (congrFun (out_eq (F := Ideal) 0 (grid0.coords t) (ms0_0 m t) (hs0_0 m t) (ms0_1 m t) (hs0_1 m t) (ms0_2 m t) (hs0_2 m t) (xblk m 0 t) (hblk m 0 t) (tbl m 0) (V m 0 main_arg1) hH.h1 hH.h2 hH.h3 hH.h4 hH.h5 hH.h6 hH.h7 hH.h8 hH.h9 hH.h10 hH.h11 hH.h12 hH.h13 hH.h14 hH.h15 hH.h16 hH.h17 hH.h18 hH.h19 hH.h20) (ix2 (0 : Fin 1) q)).trans ?_
  exact Cert.KernelSide.pay_apply _ _ _ q

/-- That sum is the specification's value at batch row 4096 t + q. -/
theorem target_apply (hH : Hyps m) (hr : ∀ l : Fin 20, ((HP m 0) (ix1 l)).toNat < 1000000) (t : Fin (cfgM m).N) (q : Fin 4096)
    (b : Fin 16384) (hb : b.val = 4096 * t.val + q.val) :
    (∑ l : Fin 20, Cert.Spec.term ((hblk m 0 t (ix2 l (0 : Fin 1))))
          (∑ d : Fin 128, (gathered (F := Ideal) 0 (tbl m 0) (V m 0 main_arg1) hH.h1 hH.h2 hH.h3 hH.h4 hH.h5 hH.h6 hH.h7 hH.h8 hH.h9 hH.h10 hH.h11 hH.h12 hH.h13 hH.h14 hH.h15 hH.h16 hH.h17 hH.h18 hH.h19 hH.h20) (ix2 l d) * xblk m 0 t (ix2 q d)))
      = Cert.Spec.Gb (XW m 0) (WT m 0) (HC m 0) (HP m 0) b := by
  unfold Cert.Spec.Gb Cert.Spec.logit
  refine Finset.sum_congr rfl fun l _ => ?_
  refine congrArg₂ Cert.Spec.term (blk1_apply m 0 t l) (Finset.sum_congr rfl fun d _ => ?_)
  refine congrArg₂ (· * ·) ?_ ?_
  · refine (gathered_apply (F := Ideal) 0 (tbl m 0) (V m 0 main_arg1) hH.h1 hH.h2 hH.h3 hH.h4 hH.h5 hH.h6 hH.h7 hH.h8 hH.h9 hH.h10 hH.h11 hH.h12 hH.h13 hH.h14 hH.h15 hH.h16 hH.h17 hH.h18 hH.h19 hH.h20 l d (Cert.Spec.row (HP m 0) l) ?_).trans ?_
    · refine (Cert.Spec.row_val_of_lt (HP m 0) l (hr l)).trans ?_
      exact congrArg (fun f : IVec S20 32 => (f (ix1 l)).toNat) (V_main_arg3 m 0).symm
    · exact congrFun (V_main_arg1 m 0) _
  · exact blk0_apply m 0 t q d b hb

/-- The result's block is not clipped: what the body leaves is what is written back. -/
theorem cut2 (a : (pcfg0 (F := Ideal)).Adm) (t : Fin (cfg0 a).N) (v : Vec Ideal S1x4096 .f32) :
    ((cfg0 a).win 2).cut (grid0.coords t) v = v := rfl

/-- What point `t` writes back is the target through the result's block at `t`. -/
theorem flushed_eq (hH : Hyps m) (hr : ∀ l : Fin 20, ((HP m 0) (ix1 l)).toNat < 1000000) (c : Dev nD) (t : Fin (cfgM m).N) :
    (dats m hH 0 c).flushed 2 t = (((cfgM m).win 2).blk t).view.read (Elt Ideal) (val m c) := by
  obtain rfl : c = 0 := Subsingleton.elim _ _
  have ht : t.val < 4 := lt_of_lt_of_eq t.isLt (show (cfgM m).N = 4 from N_0)
  show ((cfgM m).win 2).cut (grid0.coords t) ((dats m hH 0 0).after 2 t) = _
  rw [after0_2, cut2 (adm m) t]
  refine funext (fun (x : S1x4096.Idx) => ?_)
  obtain ⟨p, q, rfl⟩ : ∃ (p : Fin 1) (q : Fin 4096), x = ix2 p q := ⟨x 0, x 1, eq_ix2 x⟩
  obtain rfl : p = 0 := Subsingleton.elim _ _
  have hq := q.isLt
  refine (outs_apply m hH t q).trans ?_
  refine (target_apply m hH hr t q ⟨4096 * t.val + q.val, by omega⟩ rfl).trans ?_
  exact (congrArg (val m 0) (emb2_ix (adm m) t q ⟨4096 * t.val + q.val, by omega⟩ rfl)).symm

/-- Every index of the result lies in the block of the point its lane's quotient by 4096 names. -/
theorem cover (a : (pcfg0 (F := Ideal)).Adm) (i : S1x16384.Idx) :
    ∃ t : Fin (cfg0 a).N, ((cfg0 a).win 2).flush t = true ∧ i ∈ (((cfg0 a).win 2).blk t).view.set := by
  have h1 : (i 1).val < 16384 := idx2_lt1 i
  have h0 : (i 0).val < 1 := idx2_lt0 i
  have hN : (cfg0 a).N = 4 := N_0
  let t : Fin (cfg0 a).N := ⟨(i 1).val / 4096, by rw [hN]; omega⟩
  refine ⟨t, flush2 a t, ?_⟩
  have hq : (i 1).val % 4096 < 4096 := Nat.mod_lt _ (by decide)
  have hx := View.emb_mem_set (((cfg0 a).win 2).blk t).view (ix2 (0 : Fin 1) (⟨(i 1).val % 4096, hq⟩ : Fin 4096))
  have e : (((cfg0 a).win 2).blk t).view.emb (ix2 (0 : Fin 1) (⟨(i 1).val % 4096, hq⟩ : Fin 4096)) = i := by
    refine (emb2_ix a t ⟨(i 1).val % 4096, hq⟩ ⟨(i 1).val, h1⟩ ?_).trans ?_
    · show (i 1).val = 4096 * ((i 1).val / 4096) + (i 1).val % 4096
      omega
    · refine Eq.trans ?_ (eq_ix2 i).symm
      exact congrArg₂ ix2 (Subsingleton.elim _ _) (Fin.ext rfl)
  exact e ▸ hx

/-- The result array [1, 16384] the launch leaves is the target. -/
theorem final_o (hH : Hyps m) (hr : ∀ l : Fin 20, ((HP m 0) (ix1 l)).toNat < 1000000) (c : Dev nD) :
    (dats m hH 0 c).arrAt 2 (cfgM m).N = val m c :=
  (dats m hH 0 c).arrAt_eq_of_cover 2 (val m c) (fun t _ => flushed_eq m hH hr c t) (cover (adm m))

/-- The target cast to a column is the specification's array. -/
theorem val_cast (c : Dev nD) :
    shapeCast S16384x1 (val m c) shapeCasts_S1x16384_S16384x1 = Cert.Spec.G (XW m c) (WT m c) (HC m c) (HP m c) := by
  funext i
  obtain ⟨b, p, rfl⟩ : ∃ (b : Fin 16384) (p : Fin 1), i = ix2 b p := ⟨i 0, i 1, eq_ix2 i⟩
  obtain rfl : p = 0 := Subsingleton.elim _ _
  refine (shapeCast_apply _ _ _ (ix2 (0 : Fin 1) b) ?_).trans rfl
  rw [Shape.rowMajor_val_two, Shape.rowMajor_val_two]
  show 0 * 16384 + b.val = b.val * 1 + 0
  omega

/-- The kernel's run, read: every weakly fair execution of @main terminates with the result at the specification's
    array of the four arguments, and the arguments unchanged. -/
theorem run_value (hH : Hyps m) (hr : ∀ l : Fin 20, ((HP m 0) (ix1 l)).toNat < 1000000) :
    θ_run defs (onTc (τ := τ) (main (F := Ideal))) ⟨m, fun _ => 0, ρ⟩ (fun r => ∀ c : Dev nD,
      r.2.mem ((c.tc : Thread nD τ).loc main_v2) = Cert.Spec.G (XW m c) (WT m c) (HC m c) (HP m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_v2 (show main_v2 ∈ Pipeline.restRefs sig spec0 from Pipeline.mem_restRefs_of main_v2 (by decide) (by decide))).trans
        ((tail_result m hH c).trans ((congrArg (fun v : Vec Ideal S1x16384 .f32 => shapeCast S16384x1 v shapeCasts_S1x16384_S16384x1) (final_o m hH hr c)).trans (val_cast m c))),
      ((h c).1 0).trans (((dats m hH 0 c).arrAt_in 0 rfl _).trans ((A_eq m hH c 0).trans (V_main_arg0 m c))),
      ((h c).2 main_arg1 (show main_arg1 ∈ Pipeline.restRefs sig spec0 from Pipeline.mem_restRefs_of main_arg1 (by decide) (by decide))).trans
        ((tail_keeps m hH c main_arg1 (by decide) (by decide)).trans (V_main_arg1 m c)),
      ((h c).2 main_arg2 (show main_arg2 ∈ Pipeline.restRefs sig spec0 from Pipeline.mem_restRefs_of main_arg2 (by decide) (by decide))).trans
        ((tail_keeps m hH c main_arg2 (by decide) (by decide)).trans (V_main_arg2 m c)),
      ((h c).2 main_arg3 (show main_arg3 ∈ Pipeline.restRefs sig spec0 from Pipeline.mem_restRefs_of main_arg3 (by decide) (by decide))).trans
        ((tail_keeps m hH c main_arg3 (by decide) (by decide)).trans (V_main_arg3 m c))⟩)
    (run_main m ρ hH)

end AtIdeal2

end Cert.KernelIdeal.Fr

end
-- ==== Proof.PreFacts.lean ====
/-
  The precondition read back.

  The printed predicate is one conjunction of four "for all" statements: each of the three real arrays has every
  entry of absolute value below +∞, and every word of the path array is, read signed, at least 0 and below 1000000.
  A conjunction of bits that is 1 has both bits 1; a reduction by "and" into a single cell that is 1 met a 1 at every
  element. So the claim that the predicate is 1 gives each of the four statements at every element.

  Two consequences are drawn from them. On any number system: a 32-bit word that is signed-nonnegative and
  signed-below 1000000 has unsigned value below 1000000 (its top bit is clear, so the two readings agree). On the
  extended reals: +∞ is the value of the word 0x7F800000, and |x| = max x (-x) is below +∞ only when x is neither
  infinity, that is, when x is a real number.
-/
import Idealize.ShloMosaic.Lib.ReduceAll
import Idealize.ShloMosaic.PureOps.Ideal
import Idealize.ShloMosaic.Lib.ValueIdx
import proofs.«409180_j48619029790893_3_alg».proof.Pre_finite_inputs

noncomputable section

namespace Cert.PreFacts

open Idealize.ShloMosaic Idealize.ShloMosaic.ValueIdx Cert.Pre_finite_inputs

/-- The shape with no axes has one index. -/
instance : Subsingleton S_.Idx := ⟨fun a b => funext fun d => d.elim0⟩

/-- The predicate split into its four statements, each at every element, on any number system. -/
theorem parts_of_pre {F : FTy → Type} [FloatOps F] [Cert.Pre_finite_inputs.Facts]
    (a0 : FVec F S16384x128 .f32) (a1 : FVec F S1000000x128 .f32) (a2 : FVec F S20 .f32) (a3 : IVec S20 32)
    (h : Cert.Pre_finite_inputs.fn (F := F) a0 a1 a2 a3 = fun _ => 1#1) :
    (∀ i, FloatOps.cmpf .olt (FloatOps.hostAbsf (a0 i)) (FloatOps.ofBits (F := F) .f32 0x7F800000#32) = 1#1) ∧
    (∀ i, FloatOps.cmpf .olt (FloatOps.hostAbsf (a1 i)) (FloatOps.ofBits (F := F) .f32 0x7F800000#32) = 1#1) ∧
    (∀ i, FloatOps.cmpf .olt (FloatOps.hostAbsf (a2 i)) (FloatOps.ofBits (F := F) .f32 0x7F800000#32) = 1#1) ∧
    (∀ i, IntOp.cmpi .sge (a3 i) 0#32 = 1#1 ∧ IntOp.cmpi .slt (a3 i) 1000000#32 = 1#1) := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact Host.reduce_andi_all _ _ _ _ ix0 h1 i
  · exact Host.reduce_andi_all _ _ _ _ ix0 h2 i
  · exact Host.reduce_andi_all _ _ _ _ ix0 h3 i
  · exact IntOp.andi_eq_one.1 (Host.reduce_andi_all _ _ _ _ ix0 h4 i)

/-- A 32-bit word that is signed-nonnegative and signed-below 1000000 has unsigned value below 1000000. -/
theorem toNat_lt_of_signed (w : BitVec 32) (h0 : IntOp.cmpi .sge w 0#32 = 1#1) (h1 : IntOp.cmpi .slt w 1000000#32 = 1#1) :
    w.toNat < 1000000 := by
  have e0 : (0#32 : BitVec 32).toInt = 0 := by decide
  have e1 : (1000000#32 : BitVec 32).toInt = 1000000 := by decide
  have g0 := IntOp.cmpi_sge.1 h0
  have g1 := IntOp.cmpi_slt.1 h1
  rw [e0] at g0
  rw [e1] at g1
  rw [BitVec.toInt_eq_toNat_cond] at g0 g1
  have hw := w.isLt
  split at g0 <;> omega

/-- Every path word, read unsigned, is a row of the table. -/
theorem range_of_pre {F : FTy → Type} [FloatOps F] [Cert.Pre_finite_inputs.Facts]
    (a0 : FVec F S16384x128 .f32) (a1 : FVec F S1000000x128 .f32) (a2 : FVec F S20 .f32) (a3 : IVec S20 32)
    (h : Cert.Pre_finite_inputs.fn (F := F) a0 a1 a2 a3 = fun _ => 1#1) :
    ∀ l : Fin 20, (a3 (ix1 l)).toNat < 1000000 := fun l =>
  let hl := (parts_of_pre a0 a1 a2 a3 h).2.2.2 (ix1 l)
  toNat_lt_of_signed _ hl.1 hl.2

/-- The word 0x7F800000 is +∞. -/
theorem ofBits_inf : Ideal.ofBits .f32 0x7F800000#32 = (⊤ : EReal) := by
  simp [Ideal.ofBits, Ideal.ieee]

/-- An extended real whose absolute value is below +∞ is a real number. -/
theorem real_of_abs_lt (x : EReal)
    (hx : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have hlt : max x (-x) < (⊤ : EReal) := by
    have e : FloatOps.ofBits (F := Ideal) .f32 0x7F800000#32 = (⊤ : EReal) := ofBits_inf
    rw [e] at hx
    change BitVec.ofBool (decide (max x (-x) < (⊤ : EReal))) = 1#1 at hx
    by_contra hn
    rw [decide_eq_false hn] at hx
    exact absurd hx (by decide)
  induction x using EReal.rec with
  | bot => exact absurd hlt (by simp)
  | coe r => exact ⟨r, rfl⟩
  | top => exact absurd hlt (by simp)

/-- Every entry of the three real arrays is a real number. -/
theorem finite_of_pre [Cert.Pre_finite_inputs.Facts]
    (a0 : FVec Ideal S16384x128 .f32) (a1 : FVec Ideal S1000000x128 .f32) (a2 : FVec Ideal S20 .f32) (a3 : IVec S20 32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  obtain ⟨h0, h1, h2, -⟩ := parts_of_pre a0 a1 a2 a3 h
  exact ⟨fun i => real_of_abs_lt _ (h0 i), fun i => real_of_abs_lt _ (h1 i), fun i => real_of_abs_lt _ (h2 i)⟩

end Cert.PreFacts

end
-- ==== Proof.RefTerm.lean ====
/-
  The reference's result as one pure term of its four arguments: the host operations of its @main composed in
  order, the two outlined functions (the softplus `max x 0 + log (1 + exp (-|x - 0|))` with its not-a-number branch,
  and the log-sigmoid `-softplus (-x)`) as functions of their operand.
-/
import proofs.«409180_j48619029790893_3_alg».proof.ReferenceIdeal

noncomputable section

namespace Cert.RefSide

open Idealize.ShloMosaic Cert.ReferenceIdeal Cert.ReferenceIdeal.Facts₀

variable {F : FTy → Type} [FloatOps F] [Cert.ReferenceIdeal.Facts]

/-- The outlined softplus of a [16384, 20] operand, operation by operation. -/
def softplusT (x : FVec F S16384x20 .f32) : FVec F S16384x20 .f32 :=
  let cst : FVec F S_ .f32 := constant S_ .f32 0x00000000#32
  let v0 : FVec F S16384x20 .f32 := broadcastInDim S16384x20 ![] bcast_S_S16384x20 cst
  let v1 : FVec F S16384x20 .f32 := maximumf x v0
  let v2 : FVec F S16384x20 .f32 := broadcastInDim S16384x20 ![] bcast_S_S16384x20 cst
  let v3 : FVec F S16384x20 .f32 := subf x v2
  let v4 : IVec S16384x20 1 := cmpf .une v3 v3
  let v5 : FVec F S16384x20 .f32 := broadcastInDim S16384x20 ![] bcast_S_S16384x20 cst
  let v6 : FVec F S16384x20 .f32 := addf x v5
  let v7 : FVec F S16384x20 .f32 := Host.absf v3
  let v8 : FVec F S16384x20 .f32 := Host.negf v7
  let v9 : FVec F S16384x20 .f32 := Host.exp v8
  let v10 : FVec F S16384x20 .f32 := Host.log1p v9
  let v11 : FVec F S16384x20 .f32 := addf v1 v10
  select v4 v6 v11

/-- The outlined log-sigmoid: minus the softplus of minus the operand. -/
def logSigmoidT (x : FVec F S16384x20 .f32) : FVec F S16384x20 .f32 :=
  Host.negf (softplusT (Host.negf x))

/-- The path words with a negative word moved up by the table's height (the host's index normalisation). -/
def pathT (a3 : IVec S20 32) : IVec S20x1 32 :=
  let c : IVec S_ 32 := constantI S_ 32 0#32
  let v0 : IVec S20 32 := broadcastInDim S20 ![] bcast_S_S20 c
  let v1 : IVec S20 1 := cmpi .slt a3 v0
  let c_0 : IVec S_ 32 := constantI S_ 32 1000000#32
  let v2 : IVec S20 32 := broadcastInDim S20 ![] bcast_S_S20 c_0
  let v3 : IVec S20 32 := addi a3 v2
  let v4 : IVec S20 32 := select v1 v3 a3
  broadcastInDim S20x1 ![0] bcast_S20_S20x1_0 v4

/-- The logits [16384, 20]: the gathered rows contracted with `xw` along the feature axis. -/
def logitsT (a0 : FVec F S16384x128 .f32) (a1 : FVec F S1000000x128 .f32) (a3 : IVec S20 32) : FVec F S16384x20 .f32 :=
  let v6 : FVec F S20x128 .f32 := Host.gather gather_S1000000x128_S20x1_S20x128_1_0_n_n_0_1_1128 a1 (pathT a3)
  Host.dotGeneral dot_S16384x128_S20x128_S16384x20_1_1_0_0_n_n none a0 v6

/-- The reference's result [16384, 1]. -/
def refTerm (a0 : FVec F S16384x128 .f32) (a1 : FVec F S1000000x128 .f32) (a2 : FVec F S20 .f32) (a3 : IVec S20 32) :
    FVec F S16384x1 .f32 :=
  let v7 : FVec F S16384x20 .f32 := logitsT a0 a1 a3
  let v8 : FVec F S16384x20 .f32 := logSigmoidT v7
  let v9 : FVec F S1x20 .f32 := broadcastInDim S1x20 ![1] bcast_S20_S1x20_1 a2
  let v10 : FVec F S16384x20 .f32 := broadcastInDim S16384x20 ![0, 1] bcast_S1x20_S16384x20_0_1 v9
  let v11 : FVec F S16384x20 .f32 := mulf v10 v8
  let cst : FVec F S_ .f32 := constant S_ .f32 0x3F800000#32
  let v12 : FVec F S20 .f32 := broadcastInDim S20 ![] bcast_S_S20 cst
  let v13 : FVec F S20 .f32 := subf v12 a2
  let v14 : FVec F S16384x20 .f32 := Host.negf v7
  let v15 : FVec F S16384x20 .f32 := logSigmoidT v14
  let v16 : FVec F S1x20 .f32 := broadcastInDim S1x20 ![1] bcast_S20_S1x20_1 v13
  let v17 : FVec F S16384x20 .f32 := broadcastInDim S16384x20 ![0, 1] bcast_S1x20_S16384x20_0_1 v16
  let v18 : FVec F S16384x20 .f32 := mulf v17 v15
  let v19 : FVec F S16384x20 .f32 := addf v11 v18
  let cst_1 : FVec F S_ .f32 := constant S_ .f32 0x00000000#32
  let v20 : FVec F S16384 .f32 := Host.reduceAdd v19 cst_1 reducesTo_S16384x20_S16384_d1 h_S_
  broadcastInDim S16384x1 ![0] bcast_S16384_S16384x1_0 v20

end Cert.RefSide

end
-- ==== Proof.RefRun.lean ====
/-
  The reference's run. With the two calls of the outlined log-sigmoid unfolded at their call sites (each: its operand
  negated, the fourteen operations of the outlined softplus over that call's own buffers, the softplus's result negated)
  the reference's @main is a straight line of fifty-six host operations, every one writing a buffer of its own. Every weakly fair
  execution of it terminates with each buffer at the fold of the operations' results over the launch contents; read at
  the result buffer that fold is `refTerm` of the four arguments, and at an argument buffer, which no operation
  writes, it is the argument.
-/
import proofs.«409180_j48619029790893_3_alg».proof.Proof.RefTerm
import proofs.«409180_j48619029790893_3_alg».proof.Proof.Gen.ReferenceIdeal
import Idealize.ShloMosaic.Lib.StableHlo.Run

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- @main's fifty-six operations in order, the two calls unfolded: the ten that form the logits; the first
    log-sigmoid (the operand negated, the softplus's fourteen over that call's buffers, its result negated), of the
    logits; the code broadcast over the batch and multiplied in, one minus the code, the logits negated; the second
    log-sigmoid, of the negated logits; the second product, the sum of the two products, its reduction along the path axis from zero
    and the result as a column. -/
abbrev ops : List (HloOp τ sig (Elt F)) :=
  [ -- the logits: a negative path word moved up by the table's height, the selected rows gathered, the contraction with `xw`
    nullary main_c (constantI S_ 32 0#32),
    unary main_c main_v0 (broadcastInDim S20 ![] bcast_S_S20 : (⟨S_, .i32⟩ : BufTy).Contents (Elt F) → (⟨S20, .i32⟩ : BufTy).Contents (Elt F)),
    binary main_arg3 main_v0 main_v1 (cmpi .slt : (⟨S20, .i32⟩ : BufTy).Contents (Elt F) → (⟨S20, .i32⟩ : BufTy).Contents (Elt F) → (⟨S20, .i1⟩ : BufTy).Contents (Elt F)),
    nullary main_c_0 (constantI S_ 32 1000000#32),
    unary main_c_0 main_v2 (broadcastInDim S20 ![] bcast_S_S20 : (⟨S_, .i32⟩ : BufTy).Contents (Elt F) → (⟨S20, .i32⟩ : BufTy).Contents (Elt F)),
    binary main_arg3 main_v2 main_v3 (addi : (⟨S20, .i32⟩ : BufTy).Contents (Elt F) → (⟨S20, .i32⟩ : BufTy).Contents (Elt F) → (⟨S20, .i32⟩ : BufTy).Contents (Elt F)),
    ternary main_v1 main_v3 main_arg3 main_v4 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    unary main_v4 main_v5 (broadcastInDim S20x1 ![0] bcast_S20_S20x1_0 : (⟨S20, .i32⟩ : BufTy).Contents (Elt F) → (⟨S20x1, .i32⟩ : BufTy).Contents (Elt F)),
    binary main_arg1 main_v5 main_v6 ((fun x i => Host.gather gather_S1000000x128_S20x1_S20x128_1_0_n_n_0_1_1128 x i) : (⟨S1000000x128, .f32⟩ : BufTy).Contents (Elt F) → (⟨S20x1, .i32⟩ : BufTy).Contents (Elt F) → (⟨S20x128, .f32⟩ : BufTy).Contents (Elt F)),
    binary main_arg0 main_v6 main_v7 ((fun l r => Host.dotGeneral dot_S16384x128_S20x128_S16384x20_1_1_0_0_n_n none l r) : (⟨S16384x128, .f32⟩ : BufTy).Contents (Elt F) → (⟨S20x128, .f32⟩ : BufTy).Contents (Elt F) → (⟨S16384x20, .f32⟩ : BufTy).Contents (Elt F)),
    -- the log-sigmoid of the logits
    TRef.unary (.of main_v7 : TRef sig ⟨S16384x20, .f32⟩) main_call0.v0 Host.negf,
    TRef.nullary main_call0.call0.cst (constant S_ .f32 0x00000000#32),
    TRef.unary main_call0.call0.cst main_call0.call0.v0 (broadcastInDim S16384x20 ![] bcast_S_S16384x20),
    TRef.binary main_call0.v0 main_call0.call0.v0 main_call0.call0.v1 maximumf,
    TRef.unary main_call0.call0.cst main_call0.call0.v2 (broadcastInDim S16384x20 ![] bcast_S_S16384x20),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S16384x20 ![] bcast_S_S16384x20),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    -- the code times it; one minus the code; the logits negated
    unary main_arg2 main_v9 (broadcastInDim S1x20 ![1] bcast_S20_S1x20_1 : (⟨S20, .f32⟩ : BufTy).Contents (Elt F) → (⟨S1x20, .f32⟩ : BufTy).Contents (Elt F)),
    unary main_v9 main_v10 (broadcastInDim S16384x20 ![0, 1] bcast_S1x20_S16384x20_0_1 : (⟨S1x20, .f32⟩ : BufTy).Contents (Elt F) → (⟨S16384x20, .f32⟩ : BufTy).Contents (Elt F)),
    binary main_v10 main_v8 main_v11 (mulf : (⟨S16384x20, .f32⟩ : BufTy).Contents (Elt F) → (⟨S16384x20, .f32⟩ : BufTy).Contents (Elt F) → (⟨S16384x20, .f32⟩ : BufTy).Contents (Elt F)),
    nullary main_cst (constant S_ .f32 0x3F800000#32),
    unary main_cst main_v12 (broadcastInDim S20 ![] bcast_S_S20 : (⟨S_, .f32⟩ : BufTy).Contents (Elt F) → (⟨S20, .f32⟩ : BufTy).Contents (Elt F)),
    binary main_v12 main_arg2 main_v13 (subf : (⟨S20, .f32⟩ : BufTy).Contents (Elt F) → (⟨S20, .f32⟩ : BufTy).Contents (Elt F) → (⟨S20, .f32⟩ : BufTy).Contents (Elt F)),
    unary main_v7 main_v14 (Host.negf : (⟨S16384x20, .f32⟩ : BufTy).Contents (Elt F) → (⟨S16384x20, .f32⟩ : BufTy).Contents (Elt F)),
    -- the log-sigmoid of the negated logits
    TRef.unary (.of main_v14 : TRef sig ⟨S16384x20, .f32⟩) main_call1.v0 Host.negf,
    TRef.nullary main_call1.call0.cst (constant S_ .f32 0x00000000#32),
    TRef.unary main_call1.call0.cst main_call1.call0.v0 (broadcastInDim S16384x20 ![] bcast_S_S16384x20),
    TRef.binary main_call1.v0 main_call1.call0.v0 main_call1.call0.v1 maximumf,
    TRef.unary main_call1.call0.cst main_call1.call0.v2 (broadcastInDim S16384x20 ![] bcast_S_S16384x20),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S16384x20 ![] bcast_S_S16384x20),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    -- one minus the code times it; the sum; the sum over the path positions; the column
    unary main_v13 main_v16 (broadcastInDim S1x20 ![1] bcast_S20_S1x20_1 : (⟨S20, .f32⟩ : BufTy).Contents (Elt F) → (⟨S1x20, .f32⟩ : BufTy).Contents (Elt F)),
    unary main_v16 main_v17 (broadcastInDim S16384x20 ![0, 1] bcast_S1x20_S16384x20_0_1 : (⟨S1x20, .f32⟩ : BufTy).Contents (Elt F) → (⟨S16384x20, .f32⟩ : BufTy).Contents (Elt F)),
    binary main_v17 main_v15 main_v18 (mulf : (⟨S16384x20, .f32⟩ : BufTy).Contents (Elt F) → (⟨S16384x20, .f32⟩ : BufTy).Contents (Elt F) → (⟨S16384x20, .f32⟩ : BufTy).Contents (Elt F)),
    binary main_v11 main_v18 main_v19 (addf : (⟨S16384x20, .f32⟩ : BufTy).Contents (Elt F) → (⟨S16384x20, .f32⟩ : BufTy).Contents (Elt F) → (⟨S16384x20, .f32⟩ : BufTy).Contents (Elt F)),
    nullary main_cst_1 (constant S_ .f32 0x00000000#32),
    binary main_v19 main_cst_1 main_v20 ((fun x v => Host.reduceAdd x v reducesTo_S16384x20_S16384_d1 h_S_) : (⟨S16384x20, .f32⟩ : BufTy).Contents (Elt F) → (⟨S_, .f32⟩ : BufTy).Contents (Elt F) → (⟨S16384, .f32⟩ : BufTy).Contents (Elt F)),
    unary main_v20 main_v21 (broadcastInDim S16384x1 ![0] bcast_S16384_S16384x1_0 : (⟨S16384, .f32⟩ : BufTy).Contents (Elt F) → (⟨S16384x1, .f32⟩ : BufTy).Contents (Elt F)) ]

-- fifty-six binds re-associated: one level of recursion per statement
set_option maxRecDepth 2048 in
/-- @main is that straight line: a call is its callee's body on the call's buffers, so with the two outlined functions'
    definitions unfolded and sequencing re-associated both sides are the same chain of steps. -/
theorem main_eq (c : Dev nD) : main (F := F) c = seq ops := by
  simp only [main, fn_log_sigmoid.body, fn_softplus.body, seq, bind_assoc, pure_bind]

/-- No buffer of the signature is scoped. -/
theorem scopedRefs_eq : (Finset.univ.filter fun b : Ref sig .tc => b.isScoped) = ∅ := by decide
/-- No semaphore of the signature is scoped (there is none). -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub .., unary_bufs_sub .., unary_bufs_sub .., unary_bufs_sub .., binary_bufs_sub .., nullary_bufs_sub ..,
    unary_bufs_sub .., binary_bufs_sub .., unary_bufs_sub .., unary_bufs_sub .., nullary_bufs_sub .., unary_bufs_sub ..,
    binary_bufs_sub .., unary_bufs_sub .., binary_bufs_sub .., binary_bufs_sub .., unary_bufs_sub .., binary_bufs_sub ..,
    unary_bufs_sub .., unary_bufs_sub .., unary_bufs_sub .., unary_bufs_sub .., binary_bufs_sub .., ternary_bufs_sub ..,
    unary_bufs_sub .., unary_bufs_sub .., unary_bufs_sub .., binary_bufs_sub .., binary_bufs_sub .., nullary_bufs_sub ..,
    binary_bufs_sub .., unary_bufs_sub ..⟩

-- the composed term is deep (the logits occur under each softplus four times over), hence the bounds
set_option maxRecDepth 8192 in
set_option maxHeartbeats 1600000 in
/-- On every device, for any float values, from any memory with zero counters: every weakly fair execution of @main
    terminates with the result buffer at `refTerm` of the four arguments' launch contents and the arguments unchanged.
    Each buffer ends at the fold of the operations' results over the launch contents. At the result buffer the fold
    unrolls, each operation giving its function's value at the buffer it writes and leaving every other buffer, to the
    operations composed in order; a call's buffers carry their value's type, so the transports between a buffer's
    contents and its value are the identity, and that composition is `refTerm` with its definitions unfolded. No
    operation writes an argument buffer, so there the fold is the launch contents. -/
theorem run (m : (ℓ : Loc nD τ sig) → Buf (Elt F) ℓ) (g : Dev nD → PrngReg) :
    θ_run (Cert.ReferenceIdeal.defs (F := F)) (onTc (τ := τ) (Cert.ReferenceIdeal.main (F := F))) ⟨m, fun _ => 0, g⟩ (fun r => ∀ c : Dev nD,
      r.2.mem ((c.tc : Thread nD τ).loc main_v21) = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v21).trans (by after_results_simp; rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m g)

end Cert.RefSide

end
-- ==== Proof.RefValue.lean ====
/-
  The reference's result is the specification's function of the four arguments.

  Read at an output index (b, q), the closing broadcast reads the row sums at b; the sum over axis 1 from a zero
  initial value is the sum over the twenty path positions l; at (b, l) the summand is
  h l · logσ (z b l) + (1 - h l) · logσ (-(z b l)), where logσ x = -(softplus (-x)),
  softplus x = max x 0 + log (1 + exp (-|x - 0|)) (the not-a-number branch of the printed softplus is never taken on
  the extended reals: no element differs from itself), and z b l is the contraction over the feature axis of row b of
  the first argument with the gathered row l of the table. The gathered row is the table's row at the path word: a
  word below 10⁶ is not negative read signed (10⁶ < 2³¹), so the normalising select keeps it and the clamp into
  [0, 10⁶ - 1] keeps it. For a finite logit z the two log-sigmoids are min z 0 - s z and (0 - max z 0) - s z with
  s z = log (1 + exp (0 - |z|)): real arithmetic, -(max (-z) 0) = min z 0 and |-z| = |z|. The path code h is not
  assumed finite: the two sides carry the same factors h and 1 - h, and nothing is distributed over them.
-/
import proofs.«409180_j48619029790893_3_alg».proof.Proof.Spec
import proofs.«409180_j48619029790893_3_alg».proof.Proof.RefTerm
import Idealize.ShloMosaic.PureOps.Ideal.Laws
import Idealize.ShloMosaic.Lib.IdealHost
import Idealize.ShloMosaic.Lib.Pipeline.Value
import Idealize.ShloMosaic.Lib.StableHlo.Predicate

noncomputable section

open scoped BigOperators

namespace Cert.RefSide

open Idealize.ShloMosaic Idealize.ShloMosaic.ValueIdx Cert.ReferenceIdeal Cert.ReferenceIdeal.Facts₀

/-! ## Scalars: the two log-sigmoids of a finite logit -/

/-- The inclusion of the reals in the extended reals is monotone, so it commutes with max … -/
theorem coe_max (a b : ℝ) : ((max a b : ℝ) : EReal) = max (a : EReal) (b : EReal) :=
  EReal.coe_strictMono.monotone.map_max
/-- … and with min. -/
theorem coe_min (a b : ℝ) : ((min a b : ℝ) : EReal) = min (a : EReal) (b : EReal) :=
  EReal.coe_strictMono.monotone.map_min

/-- The shared part log (1 + exp (0 - |z|)) of the specification at a real z: 1 + exp is positive, so the logarithm
    is the real one. -/
theorem soft_coe (r : ℝ) : Cert.Spec.soft (r : EReal) = ((Real.log (1 + Real.exp (-(max r (-r)))) : ℝ) : EReal) := by
  unfold Cert.Spec.soft Ideal.log1p
  have hpos : ¬ (1 + Real.exp (0 - (max r (-r))) ≤ 0) := not_le.mpr (by positivity)
  rw [← EReal.coe_neg, ← coe_max, ← EReal.coe_zero, ← EReal.coe_sub, Ideal.exp_coe, ← EReal.coe_one, ← EReal.coe_add,
    Ideal.log_coe, if_neg hpos, zero_sub]

/-- The reference's softplus at one element: max x 0 + log (1 + exp (-|x - 0|)), the absolute value as max a (-a). -/
def sp (x : EReal) : EReal := max x 0 + Ideal.log1p (Ideal.exp (-(max (x - 0) (-(x - 0)))))

/-- At a real x it is the real max x 0 + log (1 + exp (-|x|)). -/
theorem sp_coe (x : ℝ) : sp (x : EReal) = ((max x 0 + Real.log (1 + Real.exp (-(max x (-x)))) : ℝ) : EReal) := by
  unfold sp Ideal.log1p
  have hpos : ¬ (1 + Real.exp (-(max x (-x))) ≤ 0) := not_le.mpr (by positivity)
  rw [sub_zero, ← EReal.coe_neg, ← coe_max, ← EReal.coe_neg, Ideal.exp_coe, ← EReal.coe_one, ← EReal.coe_add,
    Ideal.log_coe, if_neg hpos, ← EReal.coe_zero, ← coe_max, ← EReal.coe_add]

/-- The log-sigmoid of a real z, -(softplus (-z)), is min z 0 - s z: -(max (-z) 0) = min z 0 and |-z| = |z|. -/
theorem logSigmoid_pos (r : ℝ) : -(sp (-(r : EReal))) = min (r : EReal) 0 - Cert.Spec.soft (r : EReal) := by
  rw [← EReal.coe_neg, sp_coe, soft_coe, ← EReal.coe_neg, ← EReal.coe_zero, ← coe_min, ← EReal.coe_sub, neg_neg,
    max_comm (-r) r]
  congr 1
  rw [neg_add, sub_eq_add_neg]
  congr 1
  rw [← neg_zero (G := ℝ), max_neg_neg, neg_neg, neg_zero]

/-- The log-sigmoid of -z, -(softplus (-(-z))), is (0 - max z 0) - s z. -/
theorem logSigmoid_neg (r : ℝ) : -(sp (-(-(r : EReal)))) = (0 - max (r : EReal) 0) - Cert.Spec.soft (r : EReal) := by
  rw [neg_neg, sp_coe, soft_coe, ← EReal.coe_neg, ← EReal.coe_zero, ← coe_max, ← EReal.coe_sub, ← EReal.coe_sub]
  congr 1
  rw [neg_add, zero_sub, sub_eq_add_neg]

variable [Cert.ReferenceIdeal.Facts]

/-! ## The outlined functions at an index -/

/-- The zero splat reads zero. -/
theorem zeroSplat_apply (i : S16384x20.Idx) :
    broadcastInDim S16384x20 ![] bcast_S_S16384x20 (constant (F := Ideal) S_ .f32 0x00000000#32) i = 0 := by
  rw [broadcastInDim_scalar_apply, constant_apply, Ideal.ofBits_zero_f32]

/-- The softplus at an index: no extended real differs from itself, so the select takes the sum. -/
theorem softplusT_apply (x : FVec Ideal S16384x20 .f32) (i : S16384x20.Idx) :
    softplusT (F := Ideal) x i = sp (x i) := by
  unfold softplusT
  simp only []
  rw [select_apply, cmpf_apply, Ideal.cmpf_def]
  have h0 : ∀ a : EReal, Ideal.cmp .une a a = 0#1 := fun a => by simp [Ideal.cmp]
  rw [h0, select_zero, addf_apply, maximumf_apply, zeroSplat_apply]
  show _ + Ideal.log1p (Ideal.exp (-(max _ (-_)))) = _
  rw [subf_apply, zeroSplat_apply]
  rfl

/-- The log-sigmoid at an index. -/
theorem logSigmoidT_apply (x : FVec Ideal S16384x20 .f32) (i : S16384x20.Idx) :
    logSigmoidT (F := Ideal) x i = -(sp (-(x i))) := by
  unfold logSigmoidT
  show -(softplusT (F := Ideal) (Host.negf x) i) = _
  rw [softplusT_apply]
  rfl

/-! ## The gathered rows -/

/-- A path word inside the table is not negative read signed, so the normalisation keeps it. -/
theorem pathT_apply (a3 : IVec S20 32) (l : Fin 20) (q : Fin 1) (h : (a3 (ix1 l)).toNat < 1000000) :
    pathT a3 (ix2 l q) = a3 (ix1 l) := by
  unfold pathT
  simp only []
  rw [broadcastInDim_apply ![0] bcast_S20_S20x1_0 _ (ix2 l q) (ix1 l)
    (fun a => by match a with | ⟨0, _⟩ => rfl)]
  rw [select_apply]
  have hc : cmpi .slt a3 (broadcastInDim S20 ![] bcast_S_S20 (constantI S_ 32 0#32)) (ix1 l) = 0#1 := by
    show IntOp.cmpi .slt (a3 (ix1 l)) (broadcastInDim S20 ![] bcast_S_S20 (constantI S_ 32 0#32) (ix1 l)) = 0#1
    rw [broadcastInDim_scalar_apply]
    show IntOp.cmpi .slt (a3 (ix1 l)) 0#32 = 0#1
    refine eq_zero_of_ne_one fun h1 => ?_
    have := (StableHlo.Predicate.slt_iff_toNat (a := a3 (ix1 l)) (b := 0#32) (by omega) (by decide)).mp h1
    simp at this
  rw [hc, select_zero]

/-- The row gather at (l, d): the operand at the row the start index (l, 0) names, read signed and clamped into the
    table, and at column d. On the collapsed axis 0 the operand index is the clamped start; on axis 1 the start and
    the batching coordinate are zero and the offset coordinate is the result's second coordinate. -/
theorem gather_row_apply {α : Type} (x : S1000000x128.Idx → α) (idx : IVec S20x1 32) (l : Fin 20) (d : Fin 128) :
    Host.gather gather_S1000000x128_S20x1_S20x128_1_0_n_n_0_1_1128 x idx (ix2 l d)
      = x (ix2 (⟨min (idx (ix2 l (0 : Fin 1))).toInt.toNat 999999, by omega⟩ : Fin 1000000) d) := by
  unfold Host.gather
  congr 1
  funext a
  refine Fin.ext ?_
  match a with
  | ⟨0, _⟩ =>
    show gather_S1000000x128_S20x1_S20x128_1_0_n_n_0_1_1128.start (ix2 l d) idx (0 : Fin 2)
      + gather_S1000000x128_S20x1_S20x128_1_0_n_n_0_1_1128.batchCoord (ix2 l d) (0 : Fin 2)
      + gather_S1000000x128_S20x1_S20x128_1_0_n_n_0_1_1128.offCoord (ix2 l d) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x128_S20x1_S20x128_1_0_n_n_0_1_1128.startIndexMap from
      List.mem_singleton.mpr rfl)]
    have hsi : gather_S1000000x128_S20x1_S20x128_1_0_n_n_0_1_1128.siIdx (ix2 l d)
        ⟨List.idxOf (0 : Fin 2) gather_S1000000x128_S20x1_S20x128_1_0_n_n_0_1_1128.startIndexMap,
          List.idxOf_lt_length_iff.2 (List.mem_singleton.mpr rfl)⟩ = ix2 l (0 : Fin 1) := by
      funext b; refine Fin.ext ?_
      match b with
      | ⟨0, _⟩ => rfl
      | ⟨1, _⟩ => rfl
    rw [hsi]
    rfl
  | ⟨1, _⟩ =>
    show gather_S1000000x128_S20x1_S20x128_1_0_n_n_0_1_1128.start (ix2 l d) idx (1 : Fin 2)
      + gather_S1000000x128_S20x1_S20x128_1_0_n_n_0_1_1128.batchCoord (ix2 l d) (1 : Fin 2)
      + gather_S1000000x128_S20x1_S20x128_1_0_n_n_0_1_1128.offCoord (ix2 l d) (1 : Fin 2) = _
    rw [GatherDims.batchCoord_eq_zero _ _ _ List.not_mem_nil]
    unfold GatherDims.start
    rw [dif_neg (show ¬ (1 : Fin 2) ∈ gather_S1000000x128_S20x1_S20x128_1_0_n_n_0_1_1128.startIndexMap from
      fun h => absurd (List.mem_singleton.mp h) (by decide))]
    unfold GatherDims.offCoord
    rw [dif_pos ((GatherDims.mem_sKept _ _).mpr
      ⟨fun h => absurd (List.mem_singleton.mp h) (by decide), List.not_mem_nil⟩)]
    have key : ∀ (p : Nat) (hp : p < gather_S1000000x128_S20x1_S20x128_1_0_n_n_0_1_1128.offsetDims.length), p = 0 →
        0 + 0 + (ix2 l d (gather_S1000000x128_S20x1_S20x128_1_0_n_n_0_1_1128.offsetDims[p]'hp)).val = d.val :=
      fun p hp h => by subst h; rw [Nat.zero_add]; rfl
    exact key _ _ (show List.idxOf (1 : Fin 2) (S1000000x128.kept ([0] ++ [])) = 0 by decide)

/-! ## The contraction over the feature axis -/

/-- The left operand's index on its free axis 0 is the output's first coordinate … -/
theorem lhs_dot_0 (j : S16384x20.Idx) (k : dot_S16384x128_S20x128_S16384x20_1_1_0_0_n_n.contr.Idx) :
    (dot_S16384x128_S20x128_S16384x20_1_1_0_0_n_n.lhsIdx j k (0 : Fin 2)).val = (j (0 : Fin 2)).val := by
  unfold DotDims.lhsIdx
  rw [dif_neg (show ¬ (0 : Fin 2) ∈ dot_S16384x128_S20x128_S16384x20_1_1_0_0_n_n.lhsBatch from List.not_mem_nil),
    dif_pos (show (0 : Fin 2) ∈ dot_S16384x128_S20x128_S16384x20_1_1_0_0_n_n.lhsNonContracting from
      List.mem_singleton.mpr rfl)]
  rfl

/-- … and on its contracted axis 1 the contraction position's one coordinate. -/
theorem lhs_dot_1 (j : S16384x20.Idx) (k : dot_S16384x128_S20x128_S16384x20_1_1_0_0_n_n.contr.Idx) :
    (dot_S16384x128_S20x128_S16384x20_1_1_0_0_n_n.lhsIdx j k (1 : Fin 2)).val = (k ⟨0, Nat.one_pos⟩).val :=
  dot_S16384x128_S20x128_S16384x20_1_1_0_0_n_n.lhsIdx_val_of_single (cl := (1 : Fin 2)) rfl j k

/-- The right operand's index on its free axis 0 is the output's second coordinate … -/
theorem rhs_dot_0 (j : S16384x20.Idx) (k : dot_S16384x128_S20x128_S16384x20_1_1_0_0_n_n.contr.Idx) :
    (dot_S16384x128_S20x128_S16384x20_1_1_0_0_n_n.rhsIdx j k (0 : Fin 2)).val = (j (1 : Fin 2)).val := by
  unfold DotDims.rhsIdx
  rw [dif_neg (show ¬ (0 : Fin 2) ∈ dot_S16384x128_S20x128_S16384x20_1_1_0_0_n_n.rhsBatch from List.not_mem_nil),
    dif_pos (show (0 : Fin 2) ∈ dot_S16384x128_S20x128_S16384x20_1_1_0_0_n_n.rhsNonContracting from
      List.mem_singleton.mpr rfl)]
  rfl

/-- … and on its contracted axis 1 the contraction position's one coordinate. -/
theorem rhs_dot_1 (j : S16384x20.Idx) (k : dot_S16384x128_S20x128_S16384x20_1_1_0_0_n_n.contr.Idx) :
    (dot_S16384x128_S20x128_S16384x20_1_1_0_0_n_n.rhsIdx j k (1 : Fin 2)).val = (k ⟨0, Nat.one_pos⟩).val :=
  dot_S16384x128_S20x128_S16384x20_1_1_0_0_n_n.rhsIdx_val_of_single (cr := (1 : Fin 2)) rfl j k

/-- The contraction at (b, l): the sum over the 128 features of the products of the two rows' entries. -/
theorem dot_apply (A : FVec Ideal S16384x128 .f32) (B : FVec Ideal S20x128 .f32) (b : Fin 16384) (l : Fin 20) :
    Host.dotGeneral dot_S16384x128_S20x128_S16384x20_1_1_0_0_n_n none A B (ix2 b l)
      = ∑ d : Fin 128, A (ix2 b d) * B (ix2 l d) := by
  show FloatOps.dotGeneral _ none _ A B (ix2 b l) = _
  rw [Ideal.dotGeneral_apply,
    ← Equiv.sum_comp (contrEquiv1 dot_S16384x128_S20x128_S16384x20_1_1_0_0_n_n 128 rfl rfl).symm]
  refine Finset.sum_congr rfl fun d _ => ?_
  have hk := contrEquiv1_symm_val dot_S16384x128_S20x128_S16384x20_1_1_0_0_n_n 128 rfl rfl d
  have hl : dot_S16384x128_S20x128_S16384x20_1_1_0_0_n_n.lhsIdx (ix2 b l)
      ((contrEquiv1 dot_S16384x128_S20x128_S16384x20_1_1_0_0_n_n 128 rfl rfl).symm d) = ix2 b d := by
    funext ax; apply Fin.ext
    match ax with
    | ⟨0, _⟩ => exact lhs_dot_0 _ _
    | ⟨1, _⟩ => exact (lhs_dot_1 _ _).trans hk
  have hr : dot_S16384x128_S20x128_S16384x20_1_1_0_0_n_n.rhsIdx (ix2 b l)
      ((contrEquiv1 dot_S16384x128_S20x128_S16384x20_1_1_0_0_n_n 128 rfl rfl).symm d) = ix2 l d := by
    funext ax; apply Fin.ext
    match ax with
    | ⟨0, _⟩ => exact rhs_dot_0 _ _
    | ⟨1, _⟩ => exact (rhs_dot_1 _ _).trans hk
  rw [hl, hr]

/-- The logits at (b, l) are the specification's: the gathered row is the table's row at the path word, and the two
    factors of each product are exchanged. -/
theorem logitsT_apply (a0 : FVec Ideal S16384x128 .f32) (a1 : FVec Ideal S1000000x128 .f32) (a3 : IVec S20 32)
    (hr : ∀ l : Fin 20, (a3 (ix1 l)).toNat < 1000000) (b : Fin 16384) (l : Fin 20) :
    logitsT (F := Ideal) a0 a1 a3 (ix2 b l) = Cert.Spec.logit a0 a1 a3 b l := by
  unfold logitsT Cert.Spec.logit
  rw [dot_apply]
  refine Finset.sum_congr rfl fun d _ => ?_
  have hrow : (⟨min (pathT a3 (ix2 l (0 : Fin 1))).toInt.toNat 999999, by omega⟩ : Fin 1000000)
      = Cert.Spec.row a3 l := by
    refine Fin.ext ?_
    show min (pathT a3 (ix2 l (0 : Fin 1))).toInt.toNat 999999 = min (a3 (ix1 l)).toNat 999999
    rw [pathT_apply a3 l 0 (hr l), StableHlo.Predicate.toInt_eq_toNat_of_lt (by have := hr l; omega),
      Int.toNat_natCast]
  rw [gather_row_apply, hrow, mul_comm]

/-! ## The result -/

/-- A vector over the path positions broadcast to a row and then down the batch reads, at (b, l), its entry l. -/
theorem rowBcast_apply (v : FVec Ideal S20 .f32) (b : Fin 16384) (l : Fin 20) :
    broadcastInDim S16384x20 ![0, 1] bcast_S1x20_S16384x20_0_1 (broadcastInDim S1x20 ![1] bcast_S20_S1x20_1 v) (ix2 b l)
      = v (ix1 l) := by
  rw [broadcastInDim_apply ![0, 1] bcast_S1x20_S16384x20_0_1 _ (ix2 b l) (ix2 (0 : Fin 1) l)
      (fun a => by match a with | ⟨0, _⟩ => rfl | ⟨1, _⟩ => rfl),
    broadcastInDim_apply ![1] bcast_S20_S1x20_1 _ (ix2 (0 : Fin 1) l) (ix1 l)
      (fun a => by match a with | ⟨0, _⟩ => rfl)]

/-- The sum over axis 1 from a zero initial value, at row b: the sum over the twenty path positions. -/
theorem rowSum_apply (v : FVec Ideal S16384x20 .f32) (b : Fin 16384) :
    Host.reduceAdd v (constant (F := Ideal) S_ .f32 0x00000000#32) reducesTo_S16384x20_S16384_d1 h_S_ (ix1 b)
      = ∑ l : Fin 20, v (ix2 b l) := by
  have hR : S16384x20.Reduces [1] S16384 :=
    ⟨reducesTo_S16384x20_S16384_d1.1, Nat.one_pos, reducesTo_S16384x20_S16384_d1.2⟩
  rw [hostReduceAdd_apply, Ideal.hostReduceAdd_single reducesTo_S16384x20_S16384_d1 hR, constant_apply,
    Ideal.ofBits_zero_f32, zero_add]
  show ∑ l : Fin 20, v (hR.lift (ix1 b) l) = _
  refine Finset.sum_congr rfl fun l _ => congrArg v ?_
  funext a; apply Fin.ext
  match a with
  | ⟨0, _⟩ => rfl
  | ⟨1, _⟩ => rfl

/-- THE REFERENCE'S TERM IS THE SPECIFICATION, for finite first two arguments and path words inside the table. -/
theorem refTerm_eq_G (a0 : FVec Ideal S16384x128 .f32) (a1 : FVec Ideal S1000000x128 .f32) (a2 : FVec Ideal S20 .f32)
    (a3 : IVec S20 32)
    (h0 : ∀ i, ∃ r : ℝ, a0 i = (r : EReal)) (h1 : ∀ i, ∃ r : ℝ, a1 i = (r : EReal))
    (hr : ∀ l : Fin 20, (a3 (Idealize.ShloMosaic.ValueIdx.ix1 l)).toNat < 1000000) :
    refTerm (F := Ideal) a0 a1 a2 a3 = Cert.Spec.G a0 a1 a2 a3 := by
  funext i
  obtain ⟨b, q, rfl⟩ : ∃ (b : Fin 16384) (q : Fin 1), i = ix2 b q := ⟨i 0, i 1, eq_ix2 i⟩
  rw [Cert.Spec.G_apply]
  unfold refTerm Cert.Spec.Gb
  simp only []
  rw [broadcastInDim_apply ![0] bcast_S16384_S16384x1_0 _ (ix2 b q) (ix1 b)
      (fun a => by match a with | ⟨0, _⟩ => rfl),
    rowSum_apply]
  refine Finset.sum_congr rfl fun l _ => ?_
  rw [addf_apply, mulf_apply, mulf_apply, rowBcast_apply, rowBcast_apply, subf_apply,
    broadcastInDim_scalar_apply, constant_apply, logSigmoidT_apply, logSigmoidT_apply]
  show _ * -(sp (-(logitsT (F := Ideal) a0 a1 a3 (ix2 b l))))
    + _ * -(sp (-(-(logitsT (F := Ideal) a0 a1 a3 (ix2 b l))))) = _
  rw [logitsT_apply a0 a1 a3 hr b l]
  obtain ⟨r, hz⟩ := Cert.Spec.logit_real a0 a1 a3 h0 h1 b l
  rw [hz, logSigmoid_pos, logSigmoid_neg]
  rfl

end Cert.RefSide

end
-- ==== Proof.lean ====
/-
  The kernel computes, for each of 16384 batch rows, the sum over twenty path positions of the path code times the
  log-sigmoid of a logit plus one minus the code times the log-sigmoid of minus the logit, the logit being the inner
  product of the batch row with the row of a [1000000, 128] weight table that the path word selects. The kernel gathers
  the twenty rows by twenty row copies out of the table, which it leaves in HBM, into a scratch, multiplies them
  with a 4096-row block of the batch, takes the log-sigmoids as `min z 0 - log (1 + exp (0 - |z|))` and
  `(0 - max z 0) - log (1 + exp (0 - |z|))`, and sums over the path positions; the reference gathers on the host,
  contracts, and takes both log-sigmoids as minus a softplus. Under the precondition — finite inputs, and every path
  word a row of the table — the logits are real numbers, on which the two forms of each log-sigmoid agree; the path
  code enters both sides in the same two factors and nothing is distributed over it. The same range of the path
  words is what the kernel's row copies need to stay inside the table, so it is also what the frames of the two
  kernel programs rest on; the reference's frame is its run with the result dropped.
-/
import proofs.«409180_j48619029790893_3_alg».proof.Defs
import proofs.«409180_j48619029790893_3_alg».proof.Proof.Gen.Kernel
import proofs.«409180_j48619029790893_3_alg».proof.Proof.Gen.KernelIdeal
import proofs.«409180_j48619029790893_3_alg».proof.Proof.Gen.ReferenceIdeal
import proofs.«409180_j48619029790893_3_alg».proof.Proof.Gen.Pre_finite_inputs
import proofs.«409180_j48619029790893_3_alg».proof.Proof.KernelFr.HypsOfRange
import proofs.«409180_j48619029790893_3_alg».proof.Proof.KernelIdealFr.Value
import proofs.«409180_j48619029790893_3_alg».proof.Proof.PreFacts
import proofs.«409180_j48619029790893_3_alg».proof.Proof.RefRun
import proofs.«409180_j48619029790893_3_alg».proof.Proof.RefValue
import Idealize.ShloMosaic.Adequacy
import Idealize.ShloMosaic.Init

noncomputable section

namespace Cert.Proof

open Idealize.ShloMosaic Idealize.SL.Sem

/-- The word-level kernel runs and keeps its arguments: the precondition puts every path word inside the table. -/
theorem frame_p : Cert.frame_Kernel := fun m ρ hpre =>
  Cert.Kernel.Fr.frame m ρ (Cert.Kernel.Fr.hyps_of_range m (Cert.PreFacts.range_of_pre _ _ _ _ (hpre 0)))

/-- The same for the idealized kernel. -/
theorem frame_pi : Cert.frame_KernelIdeal := fun m ρ hpre =>
  Cert.KernelIdeal.Fr.frame m ρ (Cert.KernelIdeal.Fr.hyps_of_range m (Cert.PreFacts.range_of_pre _ _ _ _ (hpre 0)))

/-- The reference's frame is its run with the result dropped. -/
theorem frame_ri : Cert.frame_ReferenceIdeal := fun m ρ _ =>
  (θ_run Cert.ReferenceIdeal.defs _ _).mono (fun _ h c => (h c).2) (Cert.RefSide.run (F := Ideal) m ρ)

/-- The idealization rewrote nothing. -/
theorem preserves : Cert.preserves_Kernel_KernelIdeal := trivial

/-- Both programs end with the specification's array of the four arguments. -/
theorem algebraic : Cert.algebraic_KernelIdeal_ReferenceIdeal := by
  intro m ρ m' ρ' hpre hagree
  have hr := Cert.PreFacts.range_of_pre _ _ _ _ (hpre 0)
  have hH := Cert.KernelIdeal.Fr.hyps_of_range m hr
  refine ⟨_, Cert.KernelIdeal.Fr.run_value m ρ hH hr, ?_⟩
  refine (θ_run Cert.ReferenceIdeal.defs _ _).mono (fun _ h c => ⟨(h c).1.trans ?_, (h c).2⟩)
    (Cert.RefSide.run (F := Ideal) m' ρ')
  have hfin := Cert.PreFacts.finite_of_pre _ _ _ _ (hpre c)
  have hrc := Cert.PreFacts.range_of_pre _ _ _ _ (hpre c)
  rw [(hagree c).1, (hagree c).2.1, (hagree c).2.2.1, (hagree c).2.2.2]
  exact Cert.RefSide.refTerm_eq_G _ _ _ _ hfin.1 hfin.2.1 hrc

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
